-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S262144 : Shape := ⟨1, ![262144]⟩
abbrev S512x32 : Shape := ⟨2, ![512, 32]⟩
abbrev S32x16 : Shape := ⟨2, ![32, 16]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S262144 : S_.BroadcastsInDim S262144 (![] : Fin 0 → Fin S262144.rank)
  reducesTo_S262144_S_d0 : S262144.ReducesTo [0] S_
  bcast_S_S512x32 : S_.BroadcastsInDim S512x32 (![] : Fin 0 → Fin S512x32.rank)
  reducesTo_S512x32_S_d0_1 : S512x32.ReducesTo [0, 1] S_
  bcast_S_S32x16 : S_.BroadcastsInDim S32x16 (![] : Fin 0 → Fin S32x16.rank)
  reducesTo_S32x16_S_d0_1 : S32x16.ReducesTo [0, 1] S_

variable [Facts]

def fn_part1 {F : FTy → Type} [FloatOps F] (main_arg6 : FVec F S32x16 .f32) (main_v13 : IVec S_ 1) (main_v16 : IVec S32x16 1) : IVec S_ 1 :=
  let main_c_5 : IVec S_ 1 := constantI S_ 1 1#1
  let main_v17 : IVec S_ 1 := (fun x v => Host.reduce IntOp.andi x v reducesTo_S32x16_S_d0_1 h_S_) main_v16 main_c_5
  let main_v18 : IVec S_ 1 := andi main_v13 main_v17
  let main_v19 : FVec F S32x16 .f32 := Host.absf main_arg6
  let main_cst_6 : FVec F S_ .f32 := constant S_ .f32 0x7F800000#32
  let main_v20 : FVec F S32x16 .f32 := broadcastInDim S32x16 ![] bcast_S_S32x16 main_cst_6
  let main_v21 : IVec S32x16 1 := cmpf .olt main_v19 main_v20
  let main_c_7 : IVec S_ 1 := constantI S_ 1 1#1
  let main_v22 : IVec S_ 1 := (fun x v => Host.reduce IntOp.andi x v reducesTo_S32x16_S_d0_1 h_S_) main_v21 main_c_7
  let main_v23 : IVec S_ 1 := andi main_v18 main_v22
  main_v23

def fn {F : FTy → Type} [FloatOps F] (main_arg0 : FVec F S8192x512 .f32) (main_arg1 : IVec S262144 32) (main_arg2 : IVec S262144 32) (main_arg3 : FVec F S262144 .f32) (main_arg4 : FVec F S512x32 .f32) (main_arg5 : FVec F S32x16 .f32) (main_arg6 : FVec F S32x16 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S262144 .f32 := Host.absf main_arg3
  let main_cst_0 : FVec F S_ .f32 := constant S_ .f32 0x7F800000#32
  let main_v5 : FVec F S262144 .f32 := broadcastInDim S262144 ![] bcast_S_S262144 main_cst_0
  let main_v6 : IVec S262144 1 := cmpf .olt main_v4 main_v5
  let main_c_1 : IVec S_ 1 := constantI S_ 1 1#1
  let main_v7 : IVec S_ 1 := (fun x v => Host.reduce IntOp.andi x v reducesTo_S262144_S_d0 h_S_) main_v6 main_c_1
  let main_v8 : IVec S_ 1 := andi main_v3 main_v7
  let main_v9 : FVec F S512x32 .f32 := Host.absf main_arg4
  let main_cst_2 : FVec F S_ .f32 := constant S_ .f32 0x7F800000#32
  let main_v10 : FVec F S512x32 .f32 := broadcastInDim S512x32 ![] bcast_S_S512x32 main_cst_2
  let main_v11 : IVec S512x32 1 := cmpf .olt main_v9 main_v10
  let main_c_3 : IVec S_ 1 := constantI S_ 1 1#1
  let main_v12 : IVec S_ 1 := (fun x v => Host.reduce IntOp.andi x v reducesTo_S512x32_S_d0_1 h_S_) main_v11 main_c_3
  let main_v13 : IVec S_ 1 := andi main_v8 main_v12
  let main_v14 : FVec F S32x16 .f32 := Host.absf main_arg5
  let main_cst_4 : FVec F S_ .f32 := constant S_ .f32 0x7F800000#32
  let main_v15 : FVec F S32x16 .f32 := broadcastInDim S32x16 ![] bcast_S_S32x16 main_cst_4
  let main_v16 : IVec S32x16 1 := cmpf .olt main_v14 main_v15
  fn_part1 (F := F) main_arg6 main_v13 main_v16
-- ==== Kernel.lean ====
abbrev S8192x512 : Shape := ⟨2, ![8192, 512]⟩
abbrev S262144 : Shape := ⟨1, ![262144]⟩
abbrev S512x32 : Shape := ⟨2, ![512, 32]⟩
abbrev S32x16 : Shape := ⟨2, ![32, 16]⟩
abbrev S8192x32 : Shape := ⟨2, ![8192, 32]⟩
abbrev S1024x512 : Shape := ⟨2, ![1024, 512]⟩
abbrev S1024x32 : Shape := ⟨2, ![1024, 32]⟩
abbrev S262144x1 : Shape := ⟨2, ![262144, 1]⟩
abbrev S_ : Shape := ⟨0, ![]⟩
abbrev S262144x32 : Shape := ⟨2, ![262144, 32]⟩
abbrev S8192x16 : Shape := ⟨2, ![8192, 16]⟩
abbrev S1024x16 : Shape := ⟨2, ![1024, 16]⟩
abbrev S262144x16 : Shape := ⟨2, ![262144, 16]⟩
abbrev S8192x8192 : Shape := ⟨2, ![8192, 8192]⟩
abbrev S128x16 : Shape := ⟨2, ![128, 16]⟩
abbrev S128x8192 : Shape := ⟨2, ![128, 8192]⟩

abbrev nBuf : Space → Nat
  | .hbm => 48
  | .vmem => 15
  | .smem => 0
  | _ => 0

abbrev bufTy : (tb : Table) → Fin (tcTables nBuf tb) → BufTy
  | .hbm, ⟨0, _⟩ => ⟨S8192x512, .f32⟩
  | .hbm, ⟨1, _⟩ => ⟨S262144, .i32⟩
  | .hbm, ⟨2, _⟩ => ⟨S262144, .i32⟩
  | .hbm, ⟨3, _⟩ => ⟨S262144, .f32⟩
  | .hbm, ⟨4, _⟩ => ⟨S512x32, .f32⟩
  | .hbm, ⟨5, _⟩ => ⟨S32x16, .f32⟩
  | .hbm, ⟨6, _⟩ => ⟨S32x16, .f32⟩
  | .hbm, ⟨7, _⟩ => ⟨S8192x32, .f32⟩
  | .hbm, ⟨8, _⟩ => ⟨S262144x1, .f32⟩
  | .hbm, ⟨9, _⟩ => ⟨S_, .i32⟩
  | .hbm, ⟨10, _⟩ => ⟨S262144, .i32⟩
  | .hbm, ⟨11, _⟩ => ⟨S262144, .i1⟩
  | .hbm, ⟨12, _⟩ => ⟨S_, .i32⟩
  | .hbm, ⟨13, _⟩ => ⟨S262144, .i32⟩
  | .hbm, ⟨14, _⟩ => ⟨S262144, .i32⟩
  | .hbm, ⟨15, _⟩ => ⟨S262144, .i32⟩
  | .hbm, ⟨16, _⟩ => ⟨S262144x1, .i32⟩
  | .hbm, ⟨17, _⟩ => ⟨S262144x32, .f32⟩
  | .hbm, ⟨18, _⟩ => ⟨S262144x32, .f32⟩
  | .hbm, ⟨19, _⟩ => ⟨S262144x32, .f32⟩
  | .hbm, ⟨20, _⟩ => ⟨S_, .f32⟩
  | .hbm, ⟨21, _⟩ => ⟨S8192x32, .f32⟩
  | .hbm, ⟨22, _⟩ => ⟨S262144x1, .i32⟩
  | .hbm, ⟨23, _⟩ => ⟨S8192x32, .f32⟩
  | .hbm, ⟨24, _⟩ => ⟨S_, .f32⟩
  | .hbm, ⟨25, _⟩ => ⟨S8192x32, .f32⟩
  | .hbm, ⟨26, _⟩ => ⟨S8192x32, .f32⟩
  | .hbm, ⟨27, _⟩ => ⟨S8192x16, .f32⟩
  | .hbm, ⟨28, _⟩ => ⟨S262144x1, .f32⟩
  | .hbm, ⟨29, _⟩ => ⟨S_, .i32⟩
  | .hbm, ⟨30, _⟩ => ⟨S262144, .i32⟩
  | .hbm, ⟨31, _⟩ => ⟨S262144, .i1⟩
  | .hbm, ⟨32, _⟩ => ⟨S_, .i32⟩
  | .hbm, ⟨33, _⟩ => ⟨S262144, .i32⟩
  | .hbm, ⟨34, _⟩ => ⟨S262144, .i32⟩
  | .hbm, ⟨35, _⟩ => ⟨S262144, .i32⟩
  | .hbm, ⟨36, _⟩ => ⟨S262144x1, .i32⟩
  | .hbm, ⟨37, _⟩ => ⟨S262144x16, .f32⟩
  | .hbm, ⟨38, _⟩ => ⟨S262144x16, .f32⟩
  | .hbm, ⟨39, _⟩ => ⟨S262144x16, .f32⟩
  | .hbm, ⟨40, _⟩ => ⟨S_, .f32⟩
  | .hbm, ⟨41, _⟩ => ⟨S8192x16, .f32⟩
  | .hbm, ⟨42, _⟩ => ⟨S262144x1, .i32⟩
  | .hbm, ⟨43, _⟩ => ⟨S8192x16, .f32⟩
  | .hbm, ⟨44, _⟩ => ⟨S_, .f32⟩
  | .hbm, ⟨45, _⟩ => ⟨S8192x16, .f32⟩
  | .hbm, ⟨46, _⟩ => ⟨S8192x16, .f32⟩
  | .hbm, ⟨47, _⟩ => ⟨S8192x8192, .f32⟩
  | .local _ .vmem, ⟨0, _⟩ => ⟨S1024x512, .f32⟩
  | .local _ .vmem, ⟨1, _⟩ => ⟨S1024x512, .f32⟩
  | .local _ .vmem, ⟨2, _⟩ => ⟨S512x32, .f32⟩
  | .local _ .vmem, ⟨3, _⟩ => ⟨S1024x32, .f32⟩
  | .local _ .vmem, ⟨4, _⟩ => ⟨S1024x32, .f32⟩
  | .local _ .vmem, ⟨5, _⟩ => ⟨S1024x32, .f32⟩
  | .local _ .vmem, ⟨6, _⟩ => ⟨S1024x32, .f32⟩
  | .local _ .vmem, ⟨7, _⟩ => ⟨S32x16, .f32⟩
  | .local _ .vmem, ⟨8, _⟩ => ⟨S1024x16, .f32⟩
  | .local _ .vmem, ⟨9, _⟩ => ⟨S1024x16, .f32⟩
  | .local _ .vmem, ⟨10, _⟩ => ⟨S128x16, .f32⟩
  | .local _ .vmem, ⟨11, _⟩ => ⟨S128x16, .f32⟩
  | .local _ .vmem, ⟨12, _⟩ => ⟨S8192x16, .f32⟩
  | .local _ .vmem, ⟨13, _⟩ => ⟨S128x8192, .f32⟩
  | .local _ .vmem, ⟨14, _⟩ => ⟨S128x8192, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_call0_cst : Ref sig .tc := ⟨.hbm, 24, rfl⟩
abbrev main_call0_v0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c_1 : Ref sig .tc := ⟨.hbm, 29, rfl⟩
abbrev main_v17 : Ref sig .tc := ⟨.hbm, 30, rfl⟩
abbrev main_v18 : Ref sig .tc := ⟨.hbm, 31, rfl⟩
abbrev main_c_2 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_3 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_4 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![64], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S128x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S8192x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S128x8192 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S512x32_S512x32_0_0 : ∀ a, (![0, 0] : Fin 2 → Nat) a + S512x32.size a ≤ S512x32.size a
  h_S512x32 : 0 < S512x32.numel
  inb_S1024x32_S1024x32_0_0 : ∀ a, (![0, 0] : Fin 2 → Nat) a + S1024x32.size a ≤ S1024x32.size a
  h_S1024x32 : 0 < S1024x32.numel
  bcast_S262144_S262144x1_0 : S262144.BroadcastsInDim S262144x1 (![0] : Fin 1 → Fin S262144x1.rank)
  bcast_S_S262144 : S_.BroadcastsInDim S262144 (![] : Fin 0 → Fin S262144.rank)
  bcast_S262144x1_S262144x32_0_1 : S262144x1.BroadcastsInDim S262144x32 (![0, 1] : Fin 2 → Fin S262144x32.rank)
  bcast_S_S8192x32 : S_.BroadcastsInDim S8192x32 (![] : Fin 0 → Fin S8192x32.rank)
  shapeCasts_S1024x32_S1024x32 : S1024x32.ShapeCasts S1024x32
  inb_S32x16_S32x16_0_0 : ∀ a, (![0, 0] : Fin 2 → Nat) a + S32x16.size a ≤ S32x16.size a
  h_S32x16 : 0 < S32x16.numel
  inb_S1024x16_S1024x16_0_0 : ∀ a, (![0, 0] : Fin 2 → Nat) a + S1024x16.size a ≤ S1024x16.size a
  h_S1024x16 : 0 < S1024x16.numel
  bcast_S262144x1_S262144x16_0_1 : S262144x1.BroadcastsInDim S262144x16 (![0, 1] : Fin 2 → Fin S262144x16.rank)
  bcast_S_S8192x16 : S_.BroadcastsInDim S8192x16 (![] : Fin 0 → Fin S8192x16.rank)
  inb_S128x16_S128x16_0_0 : ∀ a, (![0, 0] : Fin 2 → Nat) a + S128x16.size a ≤ S128x16.size a
  h_S128x16 : 0 < S128x16.numel
  shapeCasts_S128x16_S128x16 : S128x16.ShapeCasts S128x16
  inb_S8192x16_S8192x16_0_0 : ∀ a, (![0, 0] : Fin 2 → Nat) a + S8192x16.size a ≤ S8192x16.size a
  h_S8192x16 : 0 < S8192x16.numel
  shapeCasts_S8192x16_S8192x16 : S8192x16.ShapeCasts S8192x16
  inb_S128x8192_S128x8192_0_0 : ∀ a, (![0, 0] : Fin 2 → Nat) a + S128x8192.size a ≤ S128x8192.size a
  h_S128x8192 : 0 < S128x8192.numel
  dot_S1024x512_S512x32_S1024x32_1_0_0_1_n_n_wf : DotDims.WF S1024x512 S512x32 S1024x32 [1] [0] [0] [1] [] []
  gather_S8192x32_S262144x1_S262144x32_1_0_n_n_0_1_132_wf : GatherDims.WF S8192x32 S262144x1 S262144x32 [1] [0] [] [0] [] 1 ![1, 32]
  scatter_S8192x32_S262144x1_S262144x32_1_0_0_1_wf : ScatterDims.WF S8192x32 S262144x1 S262144x32 [1] [0] [0] 1
  dot_S1024x32_S32x16_S1024x16_1_0_0_1_n_n_wf : DotDims.WF S1024x32 S32x16 S1024x16 [1] [0] [0] [1] [] []
  gather_S8192x16_S262144x1_S262144x16_1_0_n_n_0_1_116_wf : GatherDims.WF S8192x16 S262144x1 S262144x16 [1] [0] [] [0] [] 1 ![1, 16]
  scatter_S8192x16_S262144x1_S262144x16_1_0_0_1_wf : ScatterDims.WF S8192x16 S262144x1 S262144x16 [1] [0] [0] 1
  dot_S128x16_S8192x16_S128x8192_1_1_0_0_n_n_wf : DotDims.WF S128x16 S8192x16 S128x8192 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x32.size a ≤ S512x32.size a
  hwx0_1 : ∀ i : grid0.Coords, EltTy.bits .f32 = 32 ∨ (Rect.block (s := S512x32) S512x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x32.size a ≤ S8192x32.size a
  hwx0_2 : ∀ i : grid0.Coords, EltTy.bits .f32 = 32 ∨ (Rect.block (s := S8192x32) S1024x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x32.size a ≤ S8192x32.size a
  hwx1_0 : ∀ i : grid1.Coords, EltTy.bits .f32 = 32 ∨ (Rect.block (s := S8192x32) S1024x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x16.size a ≤ S32x16.size a
  hwx1_1 : ∀ i : grid1.Coords, EltTy.bits .f32 = 32 ∨ (Rect.block (s := S32x16) S32x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x16.size a ≤ S8192x16.size a
  hwx1_2 : ∀ i : grid1.Coords, EltTy.bits .f32 = 32 ∨ (Rect.block (s := S8192x16) S1024x16.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S128x16.size a ≤ S8192x16.size a
  hwx2_0 : ∀ i : grid2.Coords, EltTy.bits .f32 = 32 ∨ (Rect.block (s := S8192x16) S128x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S8192x16.size a ≤ S8192x16.size a
  hwx2_1 : ∀ i : grid2.Coords, EltTy.bits .f32 = 32 ∨ (Rect.block (s := S8192x16) S8192x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S128x8192.size a ≤ S8192x8192.size a
  hwx2_2 : ∀ i : grid2.Coords, EltTy.bits .f32 = 32 ∨ (Rect.block (s := S8192x8192) S128x8192.size (cc2_transform_2 i) (hinb2_2 i)).WholeWords (EltTy.packing .f32)

variable [Facts₀]

def dot_S1024x512_S512x32_S1024x32_1_0_0_1_n_n : DotDims S1024x512 S512x32 S1024x32 where
  lhsContracting := [1]
  rhsContracting := [0]
  lhsNonContracting := [0]
  rhsNonContracting := [1]
  lhsBatch := []
  rhsBatch := []
  wf := dot_S1024x512_S512x32_S1024x32_1_0_0_1_n_n_wf
def gather_S8192x32_S262144x1_S262144x32_1_0_n_n_0_1_132 : GatherDims S8192x32 S262144x1 S262144x32 where
  offsetDims := [1]
  collapsedSliceDims := [0]
  operandBatchingDims := []
  startIndicesBatchingDims := []
  startIndexMap := [0]
  indexVectorDim := 1
  sliceSizes := ![1, 32]
  wf := gather_S8192x32_S262144x1_S262144x32_1_0_n_n_0_1_132_wf
def scatter_S8192x32_S262144x1_S262144x32_1_0_0_1 : ScatterDims S8192x32 S262144x1 S262144x32 where
  updateWindowDims := [1]
  insertedWindowDims := [0]
  scatterDimsToOperandDims := [0]
  indexVectorDim := 1
  wf := scatter_S8192x32_S262144x1_S262144x32_1_0_0_1_wf
def dot_S1024x32_S32x16_S1024x16_1_0_0_1_n_n : DotDims S1024x32 S32x16 S1024x16 where
  lhsContracting := [1]
  rhsContracting := [0]
  lhsNonContracting := [0]
  rhsNonContracting := [1]
  lhsBatch := []
  rhsBatch := []
  wf := dot_S1024x32_S32x16_S1024x16_1_0_0_1_n_n_wf
def gather_S8192x16_S262144x1_S262144x16_1_0_n_n_0_1_116 : GatherDims S8192x16 S262144x1 S262144x16 where
  offsetDims := [1]
  collapsedSliceDims := [0]
  operandBatchingDims := []
  startIndicesBatchingDims := []
  startIndexMap := [0]
  indexVectorDim := 1
  sliceSizes := ![1, 16]
  wf := gather_S8192x16_S262144x1_S262144x16_1_0_n_n_0_1_116_wf
def scatter_S8192x16_S262144x1_S262144x16_1_0_0_1 : ScatterDims S8192x16 S262144x1 S262144x16 where
  updateWindowDims := [1]
  insertedWindowDims := [0]
  scatterDimsToOperandDims := [0]
  indexVectorDim := 1
  wf := scatter_S8192x16_S262144x1_S262144x16_1_0_0_1_wf
def dot_S128x16_S8192x16_S128x8192_1_1_0_0_n_n : DotDims S128x16 S8192x16 S128x8192 where
  lhsContracting := [1]
  rhsContracting := [1]
  lhsNonContracting := [0]
  rhsNonContracting := [0]
  lhsBatch := []
  rhsBatch := []
  wf := dot_S128x16_S8192x16_S128x8192_1_1_0_0_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S512x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v14) S1024x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S32x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S1024x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v30) S128x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v30) S8192x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v31) S128x8192.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S8192x512 : Shape := ⟨2, ![8192, 512]⟩
abbrev S262144 : Shape := ⟨1, ![262144]⟩
abbrev S512x32 : Shape := ⟨2, ![512, 32]⟩
abbrev S32x16 : Shape := ⟨2, ![32, 16]⟩
abbrev S8192x32 : Shape := ⟨2, ![8192, 32]⟩
abbrev S262144x1 : Shape := ⟨2, ![262144, 1]⟩
abbrev S_ : Shape := ⟨0, ![]⟩
abbrev S262144x32 : Shape := ⟨2, ![262144, 32]⟩
abbrev S8192x16 : Shape := ⟨2, ![8192, 16]⟩
abbrev S262144x16 : Shape := ⟨2, ![262144, 16]⟩
abbrev S16x8192 : Shape := ⟨2, ![16, 8192]⟩
abbrev S8192x8192 : Shape := ⟨2, ![8192, 8192]⟩

abbrev nBuf : Space → Nat
  | .hbm => 77
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S262144, .i32⟩
  | .hbm, ⟨2, _⟩ => ⟨S262144, .i32⟩
  | .hbm, ⟨3, _⟩ => ⟨S262144, .f32⟩
  | .hbm, ⟨4, _⟩ => ⟨S512x32, .f32⟩
  | .hbm, ⟨5, _⟩ => ⟨S32x16, .f32⟩
  | .hbm, ⟨6, _⟩ => ⟨S32x16, .f32⟩
  | .hbm, ⟨7, _⟩ => ⟨S8192x32, .f32⟩
  | .hbm, ⟨8, _⟩ => ⟨S262144x1, .f32⟩
  | .hbm, ⟨9, _⟩ => ⟨S_, .i32⟩
  | .hbm, ⟨10, _⟩ => ⟨S262144, .i32⟩
  | .hbm, ⟨11, _⟩ => ⟨S262144, .i1⟩
  | .hbm, ⟨12, _⟩ => ⟨S_, .i32⟩
  | .hbm, ⟨13, _⟩ => ⟨S262144, .i32⟩
  | .hbm, ⟨14, _⟩ => ⟨S262144, .i32⟩
  | .hbm, ⟨15, _⟩ => ⟨S262144, .i32⟩
  | .hbm, ⟨16, _⟩ => ⟨S262144x1, .i32⟩
  | .hbm, ⟨17, _⟩ => ⟨S262144x32, .f32⟩
  | .hbm, ⟨18, _⟩ => ⟨S262144x32, .f32⟩
  | .hbm, ⟨19, _⟩ => ⟨S262144x32, .f32⟩
  | .hbm, ⟨20, _⟩ => ⟨S_, .f32⟩
  | .hbm, ⟨21, _⟩ => ⟨S8192x32, .f32⟩
  | .hbm, ⟨22, _⟩ => ⟨S262144x1, .i32⟩
  | .hbm, ⟨23, _⟩ => ⟨S8192x32, .f32⟩
  | .hbm, ⟨24, _⟩ => ⟨S_, .f32⟩
  | .hbm, ⟨25, _⟩ => ⟨S8192x32, .f32⟩
  | .hbm, ⟨26, _⟩ => ⟨S8192x32, .f32⟩
  | .hbm, ⟨27, _⟩ => ⟨S8192x16, .f32⟩
  | .hbm, ⟨28, _⟩ => ⟨S262144x1, .f32⟩
  | .hbm, ⟨29, _⟩ => ⟨S_, .i32⟩
  | .hbm, ⟨30, _⟩ => ⟨S262144, .i32⟩
  | .hbm, ⟨31, _⟩ => ⟨S262144, .i1⟩
  | .hbm, ⟨32, _⟩ => ⟨S_, .i32⟩
  | .hbm, ⟨33, _⟩ => ⟨S262144, .i32⟩
  | .hbm, ⟨34, _⟩ => ⟨S262144, .i32⟩
  | .hbm, ⟨35, _⟩ => ⟨S262144, .i32⟩
  | .hbm, ⟨36, _⟩ => ⟨S262144x1, .i32⟩
  | .hbm, ⟨37, _⟩ => ⟨S262144x16, .f32⟩
  | .hbm, ⟨38, _⟩ => ⟨S262144x16, .f32⟩
  | .hbm, ⟨39, _⟩ => ⟨S262144x16, .f32⟩
  | .hbm, ⟨40, _⟩ => ⟨S_, .f32⟩
  | .hbm, ⟨41, _⟩ => ⟨S8192x16, .f32⟩
  | .hbm, ⟨42, _⟩ => ⟨S262144x1, .i32⟩
  | .hbm, ⟨43, _⟩ => ⟨S8192x16, .f32⟩
  | .hbm, ⟨44, _⟩ => ⟨S8192x16, .f32⟩
  | .hbm, ⟨45, _⟩ => ⟨S262144x1, .f32⟩
  | .hbm, ⟨46, _⟩ => ⟨S_, .i32⟩
  | .hbm, ⟨47, _⟩ => ⟨S262144, .i32⟩
  | .hbm, ⟨48, _⟩ => ⟨S262144, .i1⟩
  | .hbm, ⟨49, _⟩ => ⟨S_, .i32⟩
  | .hbm, ⟨50, _⟩ => ⟨S262144, .i32⟩
  | .hbm, ⟨51, _⟩ => ⟨S262144, .i32⟩
  | .hbm, ⟨52, _⟩ => ⟨S262144, .i32⟩
  | .hbm, ⟨53, _⟩ => ⟨S262144x1, .i32⟩
  | .hbm, ⟨54, _⟩ => ⟨S262144x16, .f32⟩
  | .hbm, ⟨55, _⟩ => ⟨S262144x16, .f32⟩
  | .hbm, ⟨56, _⟩ => ⟨S262144x16, .f32⟩
  | .hbm, ⟨57, _⟩ => ⟨S_, .f32⟩
  | .hbm, ⟨58, _⟩ => ⟨S8192x16, .f32⟩
  | .hbm, ⟨59, _⟩ => ⟨S262144x1, .i32⟩
  | .hbm, ⟨60, _⟩ => ⟨S8192x16, .f32⟩
  | .hbm, ⟨61, _⟩ => ⟨S_, .f32⟩
  | .hbm, ⟨62, _⟩ => ⟨S8192x16, .f32⟩
  | .hbm, ⟨63, _⟩ => ⟨S8192x16, .f32⟩
  | .hbm, ⟨64, _⟩ => ⟨S_, .f32⟩
  | .hbm, ⟨65, _⟩ => ⟨S8192x16, .f32⟩
  | .hbm, ⟨66, _⟩ => ⟨S8192x16, .f32⟩
  | .hbm, ⟨67, _⟩ => ⟨S16x8192, .f32⟩
  | .hbm, ⟨68, _⟩ => ⟨S8192x8192, .f32⟩
  | .hbm, ⟨69, _⟩ => ⟨S8192x8192, .f32⟩
  | .hbm, ⟨70, _⟩ => ⟨S8192x8192, .f32⟩
  | .hbm, ⟨71, _⟩ => ⟨S_, .f32⟩
  | .hbm, ⟨72, _⟩ => ⟨S8192x8192, .f32⟩
  | .hbm, ⟨73, _⟩ => ⟨S8192x8192, .f32⟩
  | .hbm, ⟨74, _⟩ => ⟨S_, .f32⟩
  | .hbm, ⟨75, _⟩ => ⟨S8192x8192, .f32⟩
  | .hbm, ⟨76, _⟩ => ⟨S8192x8192, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_call0_cst : Ref sig .tc := ⟨.hbm, 24, rfl⟩
abbrev main_call0_v0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c_1 : Ref sig .tc := ⟨.hbm, 29, rfl⟩
abbrev main_v17 : Ref sig .tc := ⟨.hbm, 30, rfl⟩
abbrev main_v18 : Ref sig .tc := ⟨.hbm, 31, rfl⟩
abbrev main_c_2 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_3 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_4 : Ref sig .tc := ⟨.hbm, 46, rfl⟩
abbrev main_v31 : Ref sig .tc := ⟨.hbm, 47, rfl⟩
abbrev main_v32 : Ref sig .tc := ⟨.hbm, 48, rfl⟩
abbrev main_c_5 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_6 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_7 : Ref sig .tc := ⟨.hbm, 61, rfl⟩
abbrev main_v43 : Ref sig .tc := ⟨.hbm, 62, rfl⟩
abbrev main_v44 : Ref sig .tc := ⟨.hbm, 63, rfl⟩
abbrev main_cst_8 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_9 : Ref sig .tc := ⟨.hbm, 71, rfl⟩
abbrev main_v51 : Ref sig .tc := ⟨.hbm, 72, rfl⟩
abbrev main_v52 : Ref sig .tc := ⟨.hbm, 73, rfl⟩
abbrev main_cst_10 : Ref sig .tc := ⟨.hbm, 74, rfl⟩
abbrev main_v53 : Ref sig .tc := ⟨.hbm, 75, rfl⟩
abbrev main_v54 : Ref sig .tc := ⟨.hbm, 76, rfl⟩

abbrev nD : Nat := 1
abbrev τ : Topo := Topo.v7x

variable {F : FTy → Type} [FloatOps F]

class Facts₀ : Prop where
  bcast_S262144_S262144x1_0 : S262144.BroadcastsInDim S262144x1 (![0] : Fin 1 → Fin S262144x1.rank)
  bcast_S_S262144 : S_.BroadcastsInDim S262144 (![] : Fin 0 → Fin S262144.rank)
  bcast_S262144x1_S262144x32_0_1 : S262144x1.BroadcastsInDim S262144x32 (![0, 1] : Fin 2 → Fin S262144x32.rank)
  bcast_S_S8192x32 : S_.BroadcastsInDim S8192x32 (![] : Fin 0 → Fin S8192x32.rank)
  bcast_S262144x1_S262144x16_0_1 : S262144x1.BroadcastsInDim S262144x16 (![0, 1] : Fin 2 → Fin S262144x16.rank)
  bcast_S_S8192x16 : S_.BroadcastsInDim S8192x16 (![] : Fin 0 → Fin S8192x16.rank)
  transposes_S8192x16_S16x8192_1_0 : S8192x16.Transposes [1, 0] S16x8192
  bcast_S_S8192x8192 : S_.BroadcastsInDim S8192x8192 (![] : Fin 0 → Fin S8192x8192.rank)
  dot_S8192x512_S512x32_S8192x32_1_0_0_1_n_n_wf : DotDims.WF S8192x512 S512x32 S8192x32 [1] [0] [0] [1] [] []
  gather_S8192x32_S262144x1_S262144x32_1_0_n_n_0_1_132_wf : GatherDims.WF S8192x32 S262144x1 S262144x32 [1] [0] [] [0] [] 1 ![1, 32]
  scatter_S8192x32_S262144x1_S262144x32_1_0_0_1_wf : ScatterDims.WF S8192x32 S262144x1 S262144x32 [1] [0] [0] 1
  dot_S8192x32_S32x16_S8192x16_1_0_0_1_n_n_wf : DotDims.WF S8192x32 S32x16 S8192x16 [1] [0] [0] [1] [] []
  gather_S8192x16_S262144x1_S262144x16_1_0_n_n_0_1_116_wf : GatherDims.WF S8192x16 S262144x1 S262144x16 [1] [0] [] [0] [] 1 ![1, 16]
  scatter_S8192x16_S262144x1_S262144x16_1_0_0_1_wf : ScatterDims.WF S8192x16 S262144x1 S262144x16 [1] [0] [0] 1
  dot_S8192x16_S16x8192_S8192x8192_1_0_0_1_n_n_wf : DotDims.WF S8192x16 S16x8192 S8192x8192 [1] [0] [0] [1] [] []

variable [Facts₀]

def dot_S8192x512_S512x32_S8192x32_1_0_0_1_n_n : DotDims S8192x512 S512x32 S8192x32 where
  lhsContracting := [1]
  rhsContracting := [0]
  lhsNonContracting := [0]
  rhsNonContracting := [1]
  lhsBatch := []
  rhsBatch := []
  wf := dot_S8192x512_S512x32_S8192x32_1_0_0_1_n_n_wf
def gather_S8192x32_S262144x1_S262144x32_1_0_n_n_0_1_132 : GatherDims S8192x32 S262144x1 S262144x32 where
  offsetDims := [1]
  collapsedSliceDims := [0]
  operandBatchingDims := []
  startIndicesBatchingDims := []
  startIndexMap := [0]
  indexVectorDim := 1
  sliceSizes := ![1, 32]
  wf := gather_S8192x32_S262144x1_S262144x32_1_0_n_n_0_1_132_wf
def scatter_S8192x32_S262144x1_S262144x32_1_0_0_1 : ScatterDims S8192x32 S262144x1 S262144x32 where
  updateWindowDims := [1]
  insertedWindowDims := [0]
  scatterDimsToOperandDims := [0]
  indexVectorDim := 1
  wf := scatter_S8192x32_S262144x1_S262144x32_1_0_0_1_wf
def dot_S8192x32_S32x16_S8192x16_1_0_0_1_n_n : DotDims S8192x32 S32x16 S8192x16 where
  lhsContracting := [1]
  rhsContracting := [0]
  lhsNonContracting := [0]
  rhsNonContracting := [1]
  lhsBatch := []
  rhsBatch := []
  wf := dot_S8192x32_S32x16_S8192x16_1_0_0_1_n_n_wf
def gather_S8192x16_S262144x1_S262144x16_1_0_n_n_0_1_116 : GatherDims S8192x16 S262144x1 S262144x16 where
  offsetDims := [1]
  collapsedSliceDims := [0]
  operandBatchingDims := []
  startIndicesBatchingDims := []
  startIndexMap := [0]
  indexVectorDim := 1
  sliceSizes := ![1, 16]
  wf := gather_S8192x16_S262144x1_S262144x16_1_0_n_n_0_1_116_wf
def scatter_S8192x16_S262144x1_S262144x16_1_0_0_1 : ScatterDims S8192x16 S262144x1 S262144x16 where
  updateWindowDims := [1]
  insertedWindowDims := [0]
  scatterDimsToOperandDims := [0]
  indexVectorDim := 1
  wf := scatter_S8192x16_S262144x1_S262144x16_1_0_0_1_wf
def dot_S8192x16_S16x8192_S8192x8192_1_0_0_1_n_n : DotDims S8192x16 S16x8192 S8192x8192 where
  lhsContracting := [1]
  rhsContracting := [0]
  lhsNonContracting := [0]
  rhsNonContracting := [1]
  lhsBatch := []
  rhsBatch := []
  wf := dot_S8192x16_S16x8192_S8192x8192_1_0_0_1_n_n_wf

class Facts : Prop extends Facts₀ where

variable [Facts]
-- ==== Proof.KbProj.lean ====
/-
  The first projection X · W0 as a pipelined region: eight grid points, point t taking rows
  1024·t … 1024·t + 1023 of X (window 0), the whole of W0 (window 1, fetched once), and writing the
  same rows of the product (window 2).  At any instance F and for any contents V the region is entered
  with: what one run of the body leaves in the output block (one store of the whole block: the product of
  the two loaded blocks into a zero accumulator), the body's triple, the pipeline's proof data and the
  body obligation at every grid point.
-/
import proofs.«160601_j31671088840936_1_alg».proof.Proof.Gen.Kernel.Launch
import proofs.«160601_j31671088840936_1_alg».proof.Proof.Gen.Kernel.Skeleton
import proofs.«160601_j31671088840936_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off the array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether or not it was fetched
    there: an unfetched window's block index has not moved. -/
theorem before_rows_of {c : Dev nD} (dat : Dat τ (Elt F) Unit ℕ (UR sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem before_weights_of {c : Dev nD} (dat : Dat τ (Elt F) Unit ℕ (UR sig nD τ) ℕ cfg0 c) (hA : dat.A 1 = V c (Pipeline.arrRef spec0 1))
    (hafter : ∀ t, dat.after 1 t = blk V c 1 t) (t : Fin cfg0.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- The whole block of each staging buffer. -/
abbrev rX : Rect S1024x512 := Rect.unit (s := S1024x512) ![0, 0] S1024x512.size inb_S1024x512_S1024x512_0_0
abbrev rW : Rect S512x32 := Rect.unit (s := S512x32) ![0, 0] S512x32.size inb_S512x32_S512x32_0_0
abbrev rO : Rect S1024x32 := Rect.unit (s := S1024x32) ![0, 0] S1024x32.size inb_S1024x32_S1024x32_0_0

/-- What one run of the body leaves in the output block: its single store, computed from the two loaded blocks. -/
def outBlock (x : Vec F S1024x512 .f32) (w : Vec F S512x32 .f32) : Vec F S1024x32 .f32 :=
  View.canon [⟨rO, k0_pay1 (View.ld x rX) (View.ld w rW)⟩]

/-- The one store is of the whole block, so it covers it. -/
theorem outBlock_cover (p0 : Vec F S1024x32 .f32) (y : S1024x32.Idx) :
    ∃ pc ∈ ([⟨rO, p0⟩] : List (View.Piece (Elt F) S1024x32 .f32)), y ∈ pc.1.set :=
  View.cover_of_tiled [⟨rO, p0⟩] S1024x32.size (by rfl) y

set_option maxHeartbeats 1000000 in
/-- The body on whole staging memrefs, the two inputs at contents x, w and the output at anything, runs to
    the continuation with the inputs as they were and the output at outBlock x w. -/
theorem body_triple (c : Dev nD) (E : Set ℕ) (i : grid0.Coords) (arg1 : Memref sig .tc .vmem S1024x512 .f32) (harg1 : arg1.IsWhole)
    (arg2 : Memref sig .tc .vmem S512x32 .f32) (harg2 : arg2.IsWhole) (arg3 : Memref sig .tc .vmem S1024x32 .f32) (harg3 : arg3.IsWhole)
    (x : Vec F S1024x512 .f32) (w : Vec F S512x32 .f32) (K : PUnit → sProp 𝕄) :
    iprop(owns (c : Thread nD τ) arg1 fullShare x ∗ owns (c : Thread nD τ) arg2 fullShare w ∗ (∃ d, owns (c : Thread nD τ) arg3 fullShare d)
        ∗ (iprop(owns (c : Thread nD τ) arg1 fullShare x ∗ owns (c : Thread nD τ) arg2 fullShare w ∗ owns (c : Thread nD τ) arg3 fullShare (outBlock x w)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (outBlock_cover _)

/-- The pipeline's proof data on core c: the arrays as the region finds them; after the body at point t each
    input's buffer at its block and the output's at outBlock of the input blocks; the invariant holds only what the
    region does not touch; nothing owed; full shares. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => outBlock (blk V c 0 t) (blk V c 1 t)
  Φ _ := Pipeline.ΦA spec0 c
  q _ := fullShare
  owed _ := 0

theorem dat_A (c : Dev nD) (w : Fin cfg0.W) : (dat V c).A w = V c (Pipeline.arrRef spec0 w) := by
  dsimp only [dat]
theorem after_rows (c : Dev nD) (t : Fin cfg0.N) : (dat V c).after 0 t = blk V c 0 t := by dsimp only [dat]
theorem after_weights (c : Dev nD) (t : Fin cfg0.N) : (dat V c).after 1 t = blk V c 1 t := by dsimp only [dat]
theorem after_out (c : Dev nD) (t : Fin cfg0.N) : (dat V c).after 2 t = outBlock (blk V c 0 t) (blk V c 1 t) := by dsimp only [dat]

theorem before_rows (c : Dev nD) (t : Fin cfg0.N) (d) : (dat V c).before 0 t d = blk V c 0 t :=
  before_rows_of V (dat V c) (dat_A V c 0) (after_rows V c) t d
theorem before_weights (c : Dev nD) (t : Fin cfg0.N) (d) : (dat V c).before 1 t d = blk V c 1 t :=
  before_weights_of V (dat V c) (dat_A V c 1) (after_weights V c) t d

/-- What the body is called with at point t, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

/-- The body at any point: the inputs' memrefs hold their blocks, so the triple applies; the invariant and what the
    core owes pass through unread. -/
theorem body_at (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_rows, before_weights]
  rw [show (dat V c).Φ t.succ = (dat V c).Φ t.castSucc from rfl,
    show (dat V c).owesAt () t.succ = (dat V c).owesAt () t.castSucc from rfl,
    after_rows, after_weights, after_out]
  iintro ⟨HΦ, Ho, ⟨%d0, H0⟩, ⟨%d1, H1⟩, ⟨%d2, H2⟩⟩
  iapply (body_triple c Set.univ _ _ _ _ _ _ _ (blk V c 0 t) (blk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation (c : Dev nD) : BodyObligation (dat (F := F) V c) (defs₀ (F := F)) Variants.none () Set.univ := fun t => by
  rw [bigSep_W0, bigSep_W0]
  exact body_at V c t

end Cert.Kernel.Proj

end
-- ==== Proof.KbMean.lean ====
/-
  The second projection hidden · W1 as a pipelined region: eight grid points, point t taking rows
  1024·t … 1024·t + 1023 of the hidden layer (window 0), the whole of W1 (window 1, fetched once), and writing the
  same rows of the product (window 2).  At any instance F and for any contents V the region is entered
  with: what one run of the body leaves in the output block (one store of the whole block: the product of
  the two loaded blocks into a zero accumulator), the body's triple, the pipeline's proof data and the
  body obligation at every grid point.
-/
import proofs.«160601_j31671088840936_1_alg».proof.Proof.Gen.Kernel.Launch
import proofs.«160601_j31671088840936_1_alg».proof.Proof.Gen.Kernel.Skeleton
import proofs.«160601_j31671088840936_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Mean

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off the array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether or not it was fetched
    there: an unfetched window's block index has not moved. -/
theorem before_rows_of {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem before_weights_of {c : Dev nD} (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- The whole block of each staging buffer. -/
abbrev rX : Rect S1024x32 := Rect.unit (s := S1024x32) ![0, 0] S1024x32.size inb_S1024x32_S1024x32_0_0
abbrev rW : Rect S32x16 := Rect.unit (s := S32x16) ![0, 0] S32x16.size inb_S32x16_S32x16_0_0
abbrev rO : Rect S1024x16 := Rect.unit (s := S1024x16) ![0, 0] S1024x16.size inb_S1024x16_S1024x16_0_0

/-- What one run of the body leaves in the output block: its single store, computed from the two loaded blocks. -/
def outBlock (x : Vec F S1024x32 .f32) (w : Vec F S32x16 .f32) : Vec F S1024x16 .f32 :=
  View.canon [⟨rO, k1_pay1 (View.ld x rX) (View.ld w rW)⟩]

/-- The one store is of the whole block, so it covers it. -/
theorem outBlock_cover (p0 : Vec F S1024x16 .f32) (y : S1024x16.Idx) :
    ∃ pc ∈ ([⟨rO, p0⟩] : List (View.Piece (Elt F) S1024x16 .f32)), y ∈ pc.1.set :=
  View.cover_of_tiled [⟨rO, p0⟩] S1024x16.size (by rfl) y

set_option maxHeartbeats 1000000 in
/-- The body on whole staging memrefs, the two inputs at contents x, w and the output at anything, runs to
    the continuation with the inputs as they were and the output at outBlock x w. -/
theorem body_triple (c : Dev nD) (E : Set ℕ) (i : grid1.Coords) (arg1 : Memref sig .tc .vmem S1024x32 .f32) (harg1 : arg1.IsWhole)
    (arg2 : Memref sig .tc .vmem S32x16 .f32) (harg2 : arg2.IsWhole) (arg3 : Memref sig .tc .vmem S1024x16 .f32) (harg3 : arg3.IsWhole)
    (x : Vec F S1024x32 .f32) (w : Vec F S32x16 .f32) (K : PUnit → sProp 𝕄) :
    iprop(owns (c : Thread nD τ) arg1 fullShare x ∗ owns (c : Thread nD τ) arg2 fullShare w ∗ (∃ d, owns (c : Thread nD τ) arg3 fullShare d)
        ∗ (iprop(owns (c : Thread nD τ) arg1 fullShare x ∗ owns (c : Thread nD τ) arg2 fullShare w ∗ owns (c : Thread nD τ) arg3 fullShare (outBlock x w)) -∗ K ⟨⟩))
      ⊢ wp frame (wpE (defs₀ (F := F)) Variants.none c none) E (cc1__matmul_kernel i arg1 harg1 arg2 harg2 arg3 harg3) K := by
  simp only [cc1__matmul_kernel_eq_skeleton]; unfold cc1__matmul_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (outBlock_cover _)

/-- The pipeline's proof data on core c: the arrays as the region finds them; after the body at point t each
    input's buffer at its block and the output's at outBlock of the input blocks; the invariant holds only what the
    region does not touch; nothing owed; full shares. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => outBlock (blk V c 0 t) (blk V c 1 t)
  Φ _ := Pipeline.ΦA spec1 c
  q _ := fullShare
  owed _ := 0

theorem dat_A (c : Dev nD) (w : Fin cfg1.W) : (dat V c).A w = V c (Pipeline.arrRef spec1 w) := by
  dsimp only [dat]
theorem after_rows (c : Dev nD) (t : Fin cfg1.N) : (dat V c).after 0 t = blk V c 0 t := by dsimp only [dat]
theorem after_weights (c : Dev nD) (t : Fin cfg1.N) : (dat V c).after 1 t = blk V c 1 t := by dsimp only [dat]
theorem after_out (c : Dev nD) (t : Fin cfg1.N) : (dat V c).after 2 t = outBlock (blk V c 0 t) (blk V c 1 t) := by dsimp only [dat]

theorem before_rows (c : Dev nD) (t : Fin cfg1.N) (d) : (dat V c).before 0 t d = blk V c 0 t :=
  before_rows_of V (dat V c) (dat_A V c 0) (after_rows V c) t d
theorem before_weights (c : Dev nD) (t : Fin cfg1.N) (d) : (dat V c).before 1 t d = blk V c 1 t :=
  before_weights_of V (dat V c) (dat_A V c 1) (after_weights V c) t d

/-- What the body is called with at point t, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t))

/-- The body at any point: the inputs' memrefs hold their blocks, so the triple applies; the invariant and what the
    core owes pass through unread. -/
theorem body_at (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_rows, before_weights]
  rw [show (dat V c).Φ t.succ = (dat V c).Φ t.castSucc from rfl,
    show (dat V c).owesAt () t.succ = (dat V c).owesAt () t.castSucc from rfl,
    after_rows, after_weights, after_out]
  iintro ⟨HΦ, Ho, ⟨%d0, H0⟩, ⟨%d1, H1⟩, ⟨%d2, H2⟩⟩
  iapply (body_triple c Set.univ _ _ _ _ _ _ _ (blk V c 0 t) (blk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation (c : Dev nD) : BodyObligation (dat (F := F) V c) (defs₀ (F := F)) Variants.none () Set.univ := fun t => by
  rw [bigSep_W1, bigSep_W1]
  exact body_at V c t

end Cert.Kernel.Mean

end
-- ==== Proof.KbDecode.lean ====
/-
  The decoder sigmoid(Z · Zᵀ) as a pipelined region: sixty-four grid points, point t taking rows
  128·t … 128·t + 127 of Z (window 0), the whole of Z again (window 1, fetched once), and writing the same
  rows of the 8192 × 8192 result (window 2).  Both input windows read ONE array, so the region holds it at
  two half shares, one per window.  At any instance F and for any contents V the region is entered with:
  what one run of the body leaves in the output block (one store of the whole block: the logistic function
  of the product of the row block with the transposed whole, into a zero accumulator), the body's triple,
  the pipeline's proof data and the body obligation at every grid point.
-/
import proofs.«160601_j31671088840936_1_alg».proof.Proof.Gen.Kernel.Launch
import proofs.«160601_j31671088840936_1_alg».proof.Proof.Gen.Kernel.Skeleton
import proofs.«160601_j31671088840936_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Decode

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off the array as the region finds it. -/
def blk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, whether or not it was fetched
    there: an unfetched window's block index has not moved. -/
theorem before_rows_of {c : Dev nD} (dat : Dat τ (Elt F) Unit ℕ (UR sig nD τ) ℕ cfg2 c) (hA : dat.A 0 = V c (Pipeline.arrRef spec2 0))
    (hafter : ∀ t, dat.after 0 t = blk V c 0 t) (t : Fin cfg2.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem before_weights_of {c : Dev nD} (dat : Dat τ (Elt F) Unit ℕ (UR sig nD τ) ℕ cfg2 c) (hA : dat.A 1 = V c (Pipeline.arrRef spec2 1))
    (hafter : ∀ t, dat.after 1 t = blk V c 1 t) (t : Fin cfg2.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- The whole block of each staging buffer. -/
abbrev rX : Rect S128x16 := Rect.unit (s := S128x16) ![0, 0] S128x16.size inb_S128x16_S128x16_0_0
abbrev rW : Rect S8192x16 := Rect.unit (s := S8192x16) ![0, 0] S8192x16.size inb_S8192x16_S8192x16_0_0
abbrev rO : Rect S128x8192 := Rect.unit (s := S128x8192) ![0, 0] S128x8192.size inb_S128x8192_S128x8192_0_0

/-- What one run of the body leaves in the output block: its single store, computed from the two loaded blocks. -/
def outBlock (x : Vec F S128x16 .f32) (w : Vec F S8192x16 .f32) : Vec F S128x8192 .f32 :=
  View.canon [⟨rO, k2_pay1 (View.ld x rX) (View.ld w rW)⟩]

/-- The one store is of the whole block, so it covers it. -/
theorem outBlock_cover (p0 : Vec F S128x8192 .f32) (y : S128x8192.Idx) :
    ∃ pc ∈ ([⟨rO, p0⟩] : List (View.Piece (Elt F) S128x8192 .f32)), y ∈ pc.1.set :=
  View.cover_of_tiled [⟨rO, p0⟩] S128x8192.size (by rfl) y

set_option maxHeartbeats 1000000 in
/-- The body on whole staging memrefs, the two inputs at contents x, w and the output at anything, runs to
    the continuation with the inputs as they were and the output at outBlock x w. -/
theorem body_triple (c : Dev nD) (E : Set ℕ) (i : grid2.Coords) (arg1 : Memref sig .tc .vmem S128x16 .f32) (harg1 : arg1.IsWhole)
    (arg2 : Memref sig .tc .vmem S8192x16 .f32) (harg2 : arg2.IsWhole) (arg3 : Memref sig .tc .vmem S128x8192 .f32) (harg3 : arg3.IsWhole)
    (x : Vec F S128x16 .f32) (w : Vec F S8192x16 .f32) (K : PUnit → sProp 𝕄) :
    iprop(owns (c : Thread nD τ) arg1 fullShare x ∗ owns (c : Thread nD τ) arg2 fullShare w ∗ (∃ d, owns (c : Thread nD τ) arg3 fullShare d)
        ∗ (iprop(owns (c : Thread nD τ) arg1 fullShare x ∗ owns (c : Thread nD τ) arg2 fullShare w ∗ owns (c : Thread nD τ) arg3 fullShare (outBlock x w)) -∗ K ⟨⟩))
      ⊢ wp frame (wpE (defs₀ (F := F)) Variants.none c none) E (cc2__decode_kernel i arg1 harg1 arg2 harg2 arg3 harg3) K := by
  simp only [cc2__decode_kernel_eq_skeleton]; unfold cc2__decode_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (outBlock_cover _)

/-- The pipeline's proof data on core c: the arrays as the region finds them; after the body at point t each
    input's buffer at its block and the output's at outBlock of the input blocks; the invariant holds only what the
    region does not touch; nothing owed; the two input windows, which read one array, hold it at its two half shares. -/
def dat (c : Dev nD) : Dat τ (Elt F) Unit ℕ (UR sig nD τ) ℕ cfg2 c where
  A w := V c (Pipeline.arrRef spec2 w)
  after w t := match w with
    | ⟨0, _⟩ => blk V c 0 t
    | ⟨1, _⟩ => blk V c 1 t
    | ⟨2, _⟩ => outBlock (blk V c 0 t) (blk V c 1 t)
  Φ _ := Pipeline.ΦA spec2 c
  q w := match w with
    | ⟨0, _⟩ => fullShare.left
    | ⟨1, _⟩ => fullShare.right
    | ⟨2, _⟩ => fullShare
  owed _ := 0

theorem dat_A (c : Dev nD) (w : Fin cfg2.W) : (dat V c).A w = V c (Pipeline.arrRef spec2 w) := by
  dsimp only [dat]
theorem after_rows (c : Dev nD) (t : Fin cfg2.N) : (dat V c).after 0 t = blk V c 0 t := by dsimp only [dat]
theorem after_weights (c : Dev nD) (t : Fin cfg2.N) : (dat V c).after 1 t = blk V c 1 t := by dsimp only [dat]
theorem after_out (c : Dev nD) (t : Fin cfg2.N) : (dat V c).after 2 t = outBlock (blk V c 0 t) (blk V c 1 t) := by dsimp only [dat]

theorem before_rows (c : Dev nD) (t : Fin cfg2.N) (d) : (dat V c).before 0 t d = blk V c 0 t :=
  before_rows_of V (dat V c) (dat_A V c 0) (after_rows V c) t d
theorem before_weights (c : Dev nD) (t : Fin cfg2.N) (d) : (dat V c).before 1 t d = blk V c 1 t :=
  before_weights_of V (dat V c) (dat_A V c 1) (after_weights V c) t d

/-- What the body is called with at point t, the windows one by one, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d)))

/-- and what it returns. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t))

/-- The body at any point: the inputs' memrefs hold their blocks, so the triple applies; the invariant and what the
    core owes pass through unread. -/
theorem body_at (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_rows, before_weights]
  rw [show (dat V c).Φ t.succ = (dat V c).Φ t.castSucc from rfl,
    show (dat V c).owesAt () t.succ = (dat V c).owesAt () t.castSucc from rfl,
    after_rows, after_weights, after_out]
  iintro ⟨HΦ, Ho, ⟨%d0, H0⟩, ⟨%d1, H1⟩, ⟨%d2, H2⟩⟩
  iapply (body_triple c Set.univ _ _ _ _ _ _ _ (blk V c 0 t) (blk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation (c : Dev nD) : BodyObligation (dat (F := F) V c) (defs₀ (F := F)) Variants.none () Set.univ := fun t => by
  rw [bigSep_W2, bigSep_W2]
  exact body_at V c t

end Cert.Kernel.Decode

end
-- ==== Proof.KbDecodeArrays.lean ====
/-
  The decoder's two input windows read one array.  The buffer behind it, held whole, is split into two
  half shares, one per window, when the region is entered, and the halves are joined again when it is left
  (an input window's array is as the region found it); the output window's array is a buffer of its own.
-/
import proofs.«160601_j31671088840936_1_alg».proof.Proof.KbDecode

set_option maxRecDepth 16384

noncomputable section

namespace Cert.Kernel.Decode

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The buffers behind the three windows' arrays are two. -/
theorem arr_bufs : Finset.univ.image (Pipeline.arrRef spec2) = {main_v30, main_v31} := by
  decide

/-- Window 0's array, at the share the region holds it at: the shared buffer, whole, at the left half. -/
theorem arr0_eq (c : Dev nD) (f : Buf (Elt F) ((cfg2.win 0).arr.view.loc (c : Thread nD τ))) :
    ((cfg2.win 0).arr.view.loc (c : Thread nD τ) ↦[(cfg2.win 0).arr.view.set]{(dat V c).share 0} f : sProp 𝕄)
      = ((c : Thread nD τ).loc main_v30 ↦{fullShare.left} f) := by
  rw [show (cfg2.win 0).arr.view.set = Finset.univ from (arr_whole2 0).set_eq_univ]
  rfl

/-- Window 1's array: the shared buffer, whole, at the right half. -/
theorem arr1_eq (c : Dev nD) (f : Buf (Elt F) ((cfg2.win 1).arr.view.loc (c : Thread nD τ))) :
    ((cfg2.win 1).arr.view.loc (c : Thread nD τ) ↦[(cfg2.win 1).arr.view.set]{(dat V c).share 1} f : sProp 𝕄)
      = ((c : Thread nD τ).loc main_v30 ↦{fullShare.right} f) := by
  rw [show (cfg2.win 1).arr.view.set = Finset.univ from (arr_whole2 1).set_eq_univ]
  rfl

/-- Window 2's array: the output buffer, whole, at the full share. -/
theorem arr2_eq (c : Dev nD) (f : Buf (Elt F) ((cfg2.win 2).arr.view.loc (c : Thread nD τ))) :
    ((cfg2.win 2).arr.view.loc (c : Thread nD τ) ↦[(cfg2.win 2).arr.view.set]{(dat V c).share 2} f : sProp 𝕄)
      = ((c : Thread nD τ).loc main_v31 ↦{fullShare} f) := by
  rw [show (cfg2.win 2).arr.view.set = Finset.univ from (arr_whole2 2).set_eq_univ]
  rfl

/-- A buffer whole at the full share is its two halves, at any contents. -/
theorem full_halves (c : Dev nD) (b : Ref sig .tc) (f : Buf (Elt F) ((c : Thread nD τ).loc b)) :
    ((c : Thread nD τ).loc b ↦{fullShare} f : sProp 𝕄)
      ⊣⊢ iprop(((c : Thread nD τ).loc b ↦{fullShare.left} f) ∗ (c : Thread nD τ).loc b ↦{fullShare.right} f) :=
  pointsTo_share (PosShare.mem_left_op_right fullShare)

/-- ENTRY: the two buffers, each whole at the contents V, make the pipeline's arrays at their entry contents
    (window 0 and window 1 each take half of the shared buffer). -/
theorem arrays_of_bufs (c : Dev nD) :
    (Pipeline.arrBufs (Ix := Unit) (Name := ℕ) (U := UR sig nD τ) (Lvl := ℕ) spec2 c (V c) : sProp 𝕄)
      ⊢ (dat V c).arrays ((dat V c).arrAt · 0) := by
  unfold Pipeline.arrBufs Dat.arrays
  rw [arr_bufs, bigSep_insert (by decide), bigSep_singleton, bigSep_W2, arr0_eq, arr1_eq, arr2_eq]
  -- at entry every window's array is as the region finds it: V c at the buffer behind it
  show iprop(((c : Thread nD τ).loc main_v30 ↦{fullShare} V c main_v30) ∗ (c : Thread nD τ).loc main_v31 ↦{fullShare} V c main_v31)
    ⊢ iprop(((c : Thread nD τ).loc main_v30 ↦{fullShare.left} V c main_v30) ∗ ((c : Thread nD τ).loc main_v30 ↦{fullShare.right} V c main_v30)
      ∗ (c : Thread nD τ).loc main_v31 ↦{fullShare} V c main_v31)
  exact (sep_mono (full_halves c main_v30 (V c main_v30)).1 .rfl).trans sep_assoc.1

/-- EXIT: the pipeline's arrays at their final contents make the two buffers whole again, at any contents V'
    that keep the shared input buffer as the region found it and have the output buffer at what the region left. -/
theorem bufs_of_arrays (c : Dev nD) (V' : (b : Ref sig .tc) → Buf (Elt F) ((c : Thread nD τ).loc b))
    (hin : V' main_v30 = V c main_v30) (hout : V' main_v31 = (dat V c).arrAt 2 cfg2.N) :
    (dat V c).arrays ((dat V c).arrAt · cfg2.N)
      ⊢ (Pipeline.arrBufs (Ix := Unit) (Name := ℕ) (U := UR sig nD τ) (Lvl := ℕ) spec2 c V' : sProp 𝕄) := by
  -- an input window's array is never written: both halves of the shared buffer hold what the region found
  have h0 : (dat V c).arrAt 0 cfg2.N = V' main_v30 := ((dat V c).arrAt_in 0 rfl _).trans hin.symm
  have h1 : (dat V c).arrAt 1 cfg2.N = V' main_v30 := ((dat V c).arrAt_in 1 rfl _).trans hin.symm
  unfold Pipeline.arrBufs Dat.arrays
  rw [arr_bufs, bigSep_insert (by decide), bigSep_singleton, bigSep_W2, arr0_eq, arr1_eq, arr2_eq]
  show iprop(((c : Thread nD τ).loc main_v30 ↦{fullShare.left} (dat V c).arrAt 0 cfg2.N) ∗ ((c : Thread nD τ).loc main_v30 ↦{fullShare.right} (dat V c).arrAt 1 cfg2.N)
      ∗ (c : Thread nD τ).loc main_v31 ↦{fullShare} (dat V c).arrAt 2 cfg2.N)
    ⊢ iprop(((c : Thread nD τ).loc main_v30 ↦{fullShare} V' main_v30) ∗ (c : Thread nD τ).loc main_v31 ↦{fullShare} V' main_v31)
  rw [h0, h1, ← hout]
  exact sep_assoc.2.trans (sep_mono (full_halves c main_v30 (V' main_v30)).2 .rfl)

end Cert.Kernel.Decode

end
-- ==== Proof.KbRun.lean ====
/-
  The whole run of the program: three pipelined regions (X · W0; hidden · W1; the decoder) with stretches of
  host operations between them (the two sparse aggregations — gather, scale, scatter-add —, the rectifier, the
  lower clamp).  The contents of the core's buffers are followed from the launch to the return: a host stretch
  applies its operations; a region changes only its output array, to what its write-backs leave, and leaves
  every other buffer — its input arrays among them — as it found it.  Every weakly fair execution terminates,
  nothing faults, and the final memory holds every buffer at the last contents so computed; in particular
  each argument array as launched, and the result array at what the decoder's region leaves.  Stated at any
  instance F.
-/
import proofs.«160601_j31671088840936_1_alg».proof.Proof.KbProj
import proofs.«160601_j31671088840936_1_alg».proof.Proof.KbMean
import proofs.«160601_j31671088840936_1_alg».proof.Proof.KbDecode
import proofs.«160601_j31671088840936_1_alg».proof.Proof.KbDecodeArrays
import proofs.«160601_j31671088840936_1_alg».proof.Proof.Gen.Kernel.Regions

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- At launch. -/
abbrev W0 : Dev nD → Valuation τ sig (Elt F) := fun c b => m (c, b)
abbrev U0 : (c : Dev nD) → (b : Ref sig .tc) → Buf (Elt F) ((c : Thread nD τ).loc b) := fun c b => W0 m c b
/-- After the first projection's region: its output array at what the write-backs leave. -/
def W1 (c : Dev nD) : Valuation τ sig (Elt F) :=
  Pipeline.withArrays spec0 c (W0 m c) fun w => (Proj.dat (U0 m) c).arrAt w cfg0.N
abbrev U1 : (c : Dev nD) → (b : Ref sig .tc) → Buf (Elt F) ((c : Thread nD τ).loc b) := fun c b => W1 m c b
/-- After the first aggregation, -/
abbrev W2 : Dev nD → Valuation τ sig (Elt F) := fun c => StableHlo.after hostOps1 (W1 m c)
/-- and the rectifier. -/
abbrev W3 : Dev nD → Valuation τ sig (Elt F) := fun c => StableHlo.after hostOps1_1 (W2 m c)
abbrev U3 : (c : Dev nD) → (b : Ref sig .tc) → Buf (Elt F) ((c : Thread nD τ).loc b) := fun c b => W3 m c b
/-- After the second projection's region. -/
def W4 (c : Dev nD) : Valuation τ sig (Elt F) :=
  Pipeline.withArrays spec1 c (W3 m c) fun w => (Mean.dat (U3 m) c).arrAt w cfg1.N
abbrev U4 : (c : Dev nD) → (b : Ref sig .tc) → Buf (Elt F) ((c : Thread nD τ).loc b) := fun c b => W4 m c b
/-- After the second aggregation and the lower clamp. -/
abbrev W5 : Dev nD → Valuation τ sig (Elt F) := fun c => StableHlo.after hostOps2 (W4 m c)
abbrev U5 : (c : Dev nD) → (b : Ref sig .tc) → Buf (Elt F) ((c : Thread nD τ).loc b) := fun c b => W5 m c b
/-- After the decoder's region: only the result array changes (both input windows read one array, which stays). -/
def W6 (c : Dev nD) : Valuation τ sig (Elt F) :=
  Function.update (W5 m c) (Proc.devRef .tc main_v31) ((Decode.dat (U5 m) c).arrAt 2 cfg2.N)
abbrev U6 : (c : Dev nD) → (b : Ref sig .tc) → Buf (Elt F) ((c : Thread nD τ).loc b) := fun c b => W6 m c b

/-! ## What each stage leaves unchanged -/

theorem W1_arr (c : Dev nD) (w : Fin cfg0.W) :
    W1 m c (Proc.devRef .tc (Pipeline.arrRef spec0 w)) = (Proj.dat (U0 m) c).arrAt w cfg0.N := by
  unfold W1; exact Pipeline.withArrays_arr spec0 launch0.win.arr_inj c _ _ w
theorem W1_keep (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
/-- An input window's array is as the region found it. -/
theorem W1_in (c : Dev nD) (w : Fin cfg0.W) (hw : (cfg0.win w).isOut = false) :
    W1 m c (Proc.devRef .tc (Pipeline.arrRef spec0 w)) = W0 m c (Proc.devRef .tc (Pipeline.arrRef spec0 w)) :=
  (W1_arr m c w).trans (((Proj.dat (U0 m) c).arrAt_in w hw _).trans (Proj.dat_A (U0 m) c w))
theorem W2_keep (c : Dev nD) (b : Ref sig .tc) (h : b ∉ hostOps1_W) : W2 m c (Proc.devRef .tc b) = W1 m c (Proc.devRef .tc b) :=
  StableHlo.after_of_writes_sub hostOps1 _ hostOps1_writes h
theorem W3_keep (c : Dev nD) (b : Ref sig .tc) (h : b ∉ hostOps1_1_W) : W3 m c (Proc.devRef .tc b) = W2 m c (Proc.devRef .tc b) :=
  StableHlo.after_of_writes_sub hostOps1_1 _ hostOps1_1_writes h
theorem W4_arr (c : Dev nD) (w : Fin cfg1.W) :
    W4 m c (Proc.devRef .tc (Pipeline.arrRef spec1 w)) = (Mean.dat (U3 m) c).arrAt w cfg1.N := by
  unfold W4; exact Pipeline.withArrays_arr spec1 launch1.win.arr_inj c _ _ w
theorem W4_keep (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
theorem W4_in (c : Dev nD) (w : Fin cfg1.W) (hw : (cfg1.win w).isOut = false) :
    W4 m c (Proc.devRef .tc (Pipeline.arrRef spec1 w)) = W3 m c (Proc.devRef .tc (Pipeline.arrRef spec1 w)) :=
  (W4_arr m c w).trans (((Mean.dat (U3 m) c).arrAt_in w hw _).trans (Mean.dat_A (U3 m) c w))
theorem W5_keep (c : Dev nD) (b : Ref sig .tc) (h : b ∉ hostOps2_W) : W5 m c (Proc.devRef .tc b) = W4 m c (Proc.devRef .tc b) :=
  StableHlo.after_of_writes_sub hostOps2 _ hostOps2_writes h
theorem W6_keep (c : Dev nD) (b : Ref sig .tc) (h : b ≠ main_v31) : W6 m c (Proc.devRef .tc b) = W5 m c (Proc.devRef .tc b) := by
  unfold W6; exact Function.update_of_ne (StableHlo.devRef_ne_of_ne h) _ _
theorem W6_out (c : Dev nD) : W6 m c (Proc.devRef .tc main_v31) = (Decode.dat (U5 m) c).arrAt 2 cfg2.N := by
  unfold W6; exact Function.update_self _ _ _

/-- The hand-offs between the regions and the stretches, one buffer each. -/
theorem hF0 (c : Dev nD) (w : Fin cfg0.W) : (Proj.dat (U0 m) c).arrAt w cfg0.N = U1 m c (Pipeline.arrRef spec0 w) :=
  (W1_arr m c w).symm
theorem hrest0 (c : Dev nD) : ∀ b, b ∉ Finset.univ.image (Pipeline.arrRef spec0) → U1 m c b = U0 m c b :=
  fun b hb => W1_keep m c b fun w e => hb (Finset.mem_image.mpr ⟨w, Finset.mem_univ _, e⟩)
theorem hF1 (c : Dev nD) (w : Fin cfg1.W) : (Mean.dat (U3 m) c).arrAt w cfg1.N = U4 m c (Pipeline.arrRef spec1 w) :=
  (W4_arr m c w).symm
theorem hrest1 (c : Dev nD) : ∀ b, b ∉ Finset.univ.image (Pipeline.arrRef spec1) → U4 m c b = U3 m c b :=
  fun b hb => W4_keep m c b fun w e => hb (Finset.mem_image.mpr ⟨w, Finset.mem_univ _, e⟩)

/-! ## The arguments end as launched -/

theorem W6_main_arg0 (c : Dev nD) : W6 m c (Proc.devRef .tc main_arg0) = m ((c : Thread nD τ).loc main_arg0) :=
  (W6_keep m c main_arg0 (by decide)).trans <| (W5_keep m c main_arg0 (by decide)).trans <| (W4_keep m c main_arg0 (by decide)).trans <|
    (W3_keep m c main_arg0 (by decide)).trans <| (W2_keep m c main_arg0 (by decide)).trans <| (W1_in m c 0 rfl).trans rfl
theorem W6_main_arg1 (c : Dev nD) : W6 m c (Proc.devRef .tc main_arg1) = m ((c : Thread nD τ).loc main_arg1) :=
  (W6_keep m c main_arg1 (by decide)).trans <| (W5_keep m c main_arg1 (by decide)).trans <| (W4_keep m c main_arg1 (by decide)).trans <|
    (W3_keep m c main_arg1 (by decide)).trans <| (W2_keep m c main_arg1 (by decide)).trans <| (W1_keep m c main_arg1 (by decide)).trans rfl
theorem W6_main_arg2 (c : Dev nD) : W6 m c (Proc.devRef .tc main_arg2) = m ((c : Thread nD τ).loc main_arg2) :=
  (W6_keep m c main_arg2 (by decide)).trans <| (W5_keep m c main_arg2 (by decide)).trans <| (W4_keep m c main_arg2 (by decide)).trans <|
    (W3_keep m c main_arg2 (by decide)).trans <| (W2_keep m c main_arg2 (by decide)).trans <| (W1_keep m c main_arg2 (by decide)).trans rfl
theorem W6_main_arg3 (c : Dev nD) : W6 m c (Proc.devRef .tc main_arg3) = m ((c : Thread nD τ).loc main_arg3) :=
  (W6_keep m c main_arg3 (by decide)).trans <| (W5_keep m c main_arg3 (by decide)).trans <| (W4_keep m c main_arg3 (by decide)).trans <|
    (W3_keep m c main_arg3 (by decide)).trans <| (W2_keep m c main_arg3 (by decide)).trans <| (W1_keep m c main_arg3 (by decide)).trans rfl
theorem W6_main_arg4 (c : Dev nD) : W6 m c (Proc.devRef .tc main_arg4) = m ((c : Thread nD τ).loc main_arg4) :=
  (W6_keep m c main_arg4 (by decide)).trans <| (W5_keep m c main_arg4 (by decide)).trans <| (W4_keep m c main_arg4 (by decide)).trans <|
    (W3_keep m c main_arg4 (by decide)).trans <| (W2_keep m c main_arg4 (by decide)).trans <| (W1_in m c 1 rfl).trans rfl
theorem W6_main_arg5 (c : Dev nD) : W6 m c (Proc.devRef .tc main_arg5) = m ((c : Thread nD τ).loc main_arg5) :=
  (W6_keep m c main_arg5 (by decide)).trans <| (W5_keep m c main_arg5 (by decide)).trans <| (W4_in m c 1 rfl).trans <|
    (W3_keep m c main_arg5 (by decide)).trans <| (W2_keep m c main_arg5 (by decide)).trans <| (W1_keep m c main_arg5 (by decide)).trans rfl
theorem W6_main_arg6 (c : Dev nD) : W6 m c (Proc.devRef .tc main_arg6) = m ((c : Thread nD τ).loc main_arg6) :=
  (W6_keep m c main_arg6 (by decide)).trans <| (W5_keep m c main_arg6 (by decide)).trans <| (W4_keep m c main_arg6 (by decide)).trans <|
    (W3_keep m c main_arg6 (by decide)).trans <| (W2_keep m c main_arg6 (by decide)).trans <| (W1_keep m c main_arg6 (by decide)).trans rfl

/-! ## The proof data of the three pipelines, and what rides beside the buffers -/

/-- Every pipeline's proof data, each at the contents its region is entered with. -/
def pdats : (p : Fin 3) → (c : Dev nD) → Dat τ (Elt F) Unit ℕ (UR sig nD τ) ℕ (Pipeline.pin (pcfgs (F := F)) adm p) c
  | ⟨0, _⟩ => fun c => Proj.dat (U0 m) c
  | ⟨1, _⟩ => fun c => Mean.dat (U3 m) c
  | ⟨2, _⟩ => fun c => Decode.dat (U5 m) c
abbrev 𝒱₀ : Variants := Variants.none
/-- No core owes another anything. -/
abbrev L : GSem nD τ sig → Finset Unit := fun _ => ∅
abbrev lv : GSem nD τ sig → Unit → ℕ := fun _ _ => 0
/-- Beside the buffers: the core's generator register at some state, and nothing owed. -/
abbrev R (c : Dev nD) : sProp 𝕄 := iprop((∃ r, prngReg c r) ∗ ∃ W, owes (c : Thread nD τ) (0 : CellTallies nD τ sig Unit) W)
/-- A stretch of host operations from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state, without what is owed: every unscoped buffer at the last contents, the generator register. -/
abbrev Tₙ (c : Dev nD) : sProp 𝕄 := iprop(StableHlo.held (c : Thread nD τ) (Pipeline.ucRefs τ sig) (W6 m c) ∗ ∃ r, prngReg c r)

/-! ## The decoder's region: its two buffers out of the core's unscoped buffers, and back -/

theorem decode_entry (c : Dev nD) :
    (StableHlo.held (c : Thread nD τ) (Pipeline.ucRefs τ sig) (W5 m c) : sProp 𝕄)
      ⊢ iprop((Decode.dat (U5 m) c).arrays ((Decode.dat (U5 m) c).arrAt · 0)
          ∗ Pipeline.unscopedRest (Ix := Unit) (Name := ℕ) (U := UR sig nD τ) (Lvl := ℕ) spec2 c (U5 m c)) := by
  rw [← Pipeline.unscopedBufs_held (Ix := Unit) (Name := ℕ) (U := UR sig nD τ) (Lvl := ℕ) c (W5 m c),
    Pipeline.unscopedBufs_split₀ (cfgs) 2 winFacts₀2.arr_unscoped c (U5 m c)]
  exact sep_mono (Decode.arrays_of_bufs (U5 m) c) .rfl

theorem decode_exit (c : Dev nD) :
    iprop((Decode.dat (U5 m) c).arrays ((Decode.dat (U5 m) c).arrAt · cfg2.N)
          ∗ Pipeline.unscopedRest (Ix := Unit) (Name := ℕ) (U := UR sig nD τ) (Lvl := ℕ) spec2 c (U5 m c))
      ⊢ (StableHlo.held (c : Thread nD τ) (Pipeline.ucRefs τ sig) (W6 m c) : sProp 𝕄) := by
  rw [← Pipeline.unscopedBufs_held (Ix := Unit) (Name := ℕ) (U := UR sig nD τ) (Lvl := ℕ) c (W6 m c),
    Pipeline.unscopedBufs_split₀ (cfgs) 2 winFacts₀2.arr_unscoped c (U6 m c)]
  refine sep_mono (Decode.bufs_of_arrays (U5 m) c (U6 m c) (W6_keep m c main_v30 (by decide)) (W6_out m c)) (Entails.of_eq ?_)
  unfold Pipeline.unscopedRest
  exact bigSep_congr fun b hb => by
    rw [show U6 m c b = U5 m c b from W6_keep m c b fun e => (Finset.mem_sdiff.mp hb).2 (e ▸ Finset.mem_image.mpr ⟨2, Finset.mem_univ _, rfl⟩)]

/-! ## The regions as segments -/

set_option backward.isDefEq.respectTransparency.types false in
/-- The first projection's region: entered with every unscoped buffer at W0, left with them at W1. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Proj.body_obligation (U0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (U0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U0 m c) (U1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second projection's region: entered with every unscoped buffer at W3, left with them at W4. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Mean.body_obligation (U3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U3 m c) (U4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The decoder's region: entered with every unscoped buffer at W5, left with them at W6 — the last contents. -/
def reg2 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (Decode.body_obligation (U5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (U5 m c)
  hentry c := by
    rw [Pipeline.ownSems0_none]
    iintro ⟨⟨Hub, Hp, HO⟩, -, -⟩
    ihave H := (decode_entry m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest HY]
    · isplitl [Ha Hrest]
      · iapply (decode_exit m c)
        isplitl [Ha]; · iexact Ha
        iexact Hrest
      iexact HY
    unfold Pipeline.Dat.owesAt Pipeline.owesWithin
    icases HO with ⟨%W, -, HO⟩; iexists W; iexact HO

/-! ## The program as segments, and the launch -/

/-- The six items in order. -/
abbrev items : List (Pipeline.Seg (pcfgs (F := F)) adm (pdats m) () defs₀ 𝒱₀ L lv) :=
  [ .region (reg0 m),
    .host (hseg hostOps1 hostOps1_sub hostOps1_fresh (W1 m)),
    .host (hseg hostOps1_1 hostOps1_1_sub hostOps1_1_fresh (W2 m)),
    .region (reg1 m),
    .host (hseg hostOps2 hostOps2_sub hostOps2_fresh (W4 m)),
    .region (reg2 m) ]
theorem main_items (c : Dev nD) : main (F := F) c = Pipeline.Seg.run (items m) := (main_chain c).trans (by chain_rfl)

set_option backward.isDefEq.respectTransparency.types false in
/-- From any memory with zero counters every weakly fair execution terminates, nothing faulting, and the final memory
    holds every unscoped buffer at the last contents. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (items m)
    (fun c Q => by rw [main_items m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h => h)

/-- The frame: every argument array ends as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W6_main_arg0 m c),
     (h c _ (mem_uc main_arg1 (by decide))).trans (W6_main_arg1 m c),
     (h c _ (mem_uc main_arg2 (by decide))).trans (W6_main_arg2 m c),
     (h c _ (mem_uc main_arg3 (by decide))).trans (W6_main_arg3 m c),
     (h c _ (mem_uc main_arg4 (by decide))).trans (W6_main_arg4 m c),
     (h c _ (mem_uc main_arg5 (by decide))).trans (W6_main_arg5 m c),
     (h c _ (mem_uc main_arg6 (by decide))).trans (W6_main_arg6 m c)⟩) (run_all m ρ)

/-- The same run with the result array named: what the decoder's region leaves, entered with the contents W5. -/
theorem run_result (ρ : Dev nD → PrngReg) :
    θ_run defs (onTc (τ := τ) (main (F := F))) ⟨m, fun _ => 0, ρ⟩ (fun r => ∀ c : Dev nD,
      r.2.mem ((c.tc : Thread nD τ).loc main_v31) = (Decode.dat (U5 m) c).arrAt 2 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_v31 (by decide))).trans (W6_out m c),
     (h c _ (mem_uc main_arg0 (by decide))).trans (W6_main_arg0 m c),
     (h c _ (mem_uc main_arg1 (by decide))).trans (W6_main_arg1 m c),
     (h c _ (mem_uc main_arg2 (by decide))).trans (W6_main_arg2 m c),
     (h c _ (mem_uc main_arg3 (by decide))).trans (W6_main_arg3 m c),
     (h c _ (mem_uc main_arg4 (by decide))).trans (W6_main_arg4 m c),
     (h c _ (mem_uc main_arg5 (by decide))).trans (W6_main_arg5 m c),
     (h c _ (mem_uc main_arg6 (by decide))).trans (W6_main_arg6 m c)⟩) (run_all m ρ)

end Cert.Kernel.Run

end
-- ==== Proof.KiProj.lean ====
/-
  The first projection X · W0 as a pipelined region: eight grid points, point t taking rows
  1024·t … 1024·t + 1023 of X (window 0), the whole of W0 (window 1, fetched once), and writing the
  same rows of the product (window 2).  At any instance F and for any contents V the region is entered
  with: what one run of the body leaves in the output block (one store of the whole block: the product of
  the two loaded blocks into a zero accumulator), the body's triple, the pipeline's proof data and the
  body obligation at every grid point.
-/
import proofs.«160601_j31671088840936_1_alg».proof.Proof.Gen.KernelIdeal.Launch
import proofs.«160601_j31671088840936_1_alg».proof.Proof.Gen.KernelIdeal.Skeleton
import proofs.«160601_j31671088840936_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off the array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether or not it was fetched
    there: an unfetched window's block index has not moved. -/
theorem before_rows_of {c : Dev nD} (dat : Dat τ (Elt F) Unit ℕ (UR sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem before_weights_of {c : Dev nD} (dat : Dat τ (Elt F) Unit ℕ (UR sig nD τ) ℕ cfg0 c) (hA : dat.A 1 = V c (Pipeline.arrRef spec0 1))
    (hafter : ∀ t, dat.after 1 t = blk V c 1 t) (t : Fin cfg0.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- The whole block of each staging buffer. -/
abbrev rX : Rect S1024x512 := Rect.unit (s := S1024x512) ![0, 0] S1024x512.size inb_S1024x512_S1024x512_0_0
abbrev rW : Rect S512x32 := Rect.unit (s := S512x32) ![0, 0] S512x32.size inb_S512x32_S512x32_0_0
abbrev rO : Rect S1024x32 := Rect.unit (s := S1024x32) ![0, 0] S1024x32.size inb_S1024x32_S1024x32_0_0

/-- What one run of the body leaves in the output block: its single store, computed from the two loaded blocks. -/
def outBlock (x : Vec F S1024x512 .f32) (w : Vec F S512x32 .f32) : Vec F S1024x32 .f32 :=
  View.canon [⟨rO, k0_pay1 (View.ld x rX) (View.ld w rW)⟩]

/-- The one store is of the whole block, so it covers it. -/
theorem outBlock_cover (p0 : Vec F S1024x32 .f32) (y : S1024x32.Idx) :
    ∃ pc ∈ ([⟨rO, p0⟩] : List (View.Piece (Elt F) S1024x32 .f32)), y ∈ pc.1.set :=
  View.cover_of_tiled [⟨rO, p0⟩] S1024x32.size (by rfl) y

set_option maxHeartbeats 1000000 in
/-- The body on whole staging memrefs, the two inputs at contents x, w and the output at anything, runs to
    the continuation with the inputs as they were and the output at outBlock x w. -/
theorem body_triple (c : Dev nD) (E : Set ℕ) (i : grid0.Coords) (arg1 : Memref sig .tc .vmem S1024x512 .f32) (harg1 : arg1.IsWhole)
    (arg2 : Memref sig .tc .vmem S512x32 .f32) (harg2 : arg2.IsWhole) (arg3 : Memref sig .tc .vmem S1024x32 .f32) (harg3 : arg3.IsWhole)
    (x : Vec F S1024x512 .f32) (w : Vec F S512x32 .f32) (K : PUnit → sProp 𝕄) :
    iprop(owns (c : Thread nD τ) arg1 fullShare x ∗ owns (c : Thread nD τ) arg2 fullShare w ∗ (∃ d, owns (c : Thread nD τ) arg3 fullShare d)
        ∗ (iprop(owns (c : Thread nD τ) arg1 fullShare x ∗ owns (c : Thread nD τ) arg2 fullShare w ∗ owns (c : Thread nD τ) arg3 fullShare (outBlock x w)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (outBlock_cover _)

/-- The pipeline's proof data on core c: the arrays as the region finds them; after the body at point t each
    input's buffer at its block and the output's at outBlock of the input blocks; the invariant holds only what the
    region does not touch; nothing owed; full shares. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => outBlock (blk V c 0 t) (blk V c 1 t)
  Φ _ := Pipeline.ΦA spec0 c
  q _ := fullShare
  owed _ := 0

theorem dat_A (c : Dev nD) (w : Fin cfg0.W) : (dat V c).A w = V c (Pipeline.arrRef spec0 w) := by
  dsimp only [dat]
theorem after_rows (c : Dev nD) (t : Fin cfg0.N) : (dat V c).after 0 t = blk V c 0 t := by dsimp only [dat]
theorem after_weights (c : Dev nD) (t : Fin cfg0.N) : (dat V c).after 1 t = blk V c 1 t := by dsimp only [dat]
theorem after_out (c : Dev nD) (t : Fin cfg0.N) : (dat V c).after 2 t = outBlock (blk V c 0 t) (blk V c 1 t) := by dsimp only [dat]

theorem before_rows (c : Dev nD) (t : Fin cfg0.N) (d) : (dat V c).before 0 t d = blk V c 0 t :=
  before_rows_of V (dat V c) (dat_A V c 0) (after_rows V c) t d
theorem before_weights (c : Dev nD) (t : Fin cfg0.N) (d) : (dat V c).before 1 t d = blk V c 1 t :=
  before_weights_of V (dat V c) (dat_A V c 1) (after_weights V c) t d

/-- What the body is called with at point t, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

/-- The body at any point: the inputs' memrefs hold their blocks, so the triple applies; the invariant and what the
    core owes pass through unread. -/
theorem body_at (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_rows, before_weights]
  rw [show (dat V c).Φ t.succ = (dat V c).Φ t.castSucc from rfl,
    show (dat V c).owesAt () t.succ = (dat V c).owesAt () t.castSucc from rfl,
    after_rows, after_weights, after_out]
  iintro ⟨HΦ, Ho, ⟨%d0, H0⟩, ⟨%d1, H1⟩, ⟨%d2, H2⟩⟩
  iapply (body_triple c Set.univ _ _ _ _ _ _ _ (blk V c 0 t) (blk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation (c : Dev nD) : BodyObligation (dat (F := F) V c) (defs₀ (F := F)) Variants.none () Set.univ := fun t => by
  rw [bigSep_W0, bigSep_W0]
  exact body_at V c t

end Cert.KernelIdeal.Proj

end
-- ==== Proof.KiMean.lean ====
/-
  The second projection hidden · W1 as a pipelined region: eight grid points, point t taking rows
  1024·t … 1024·t + 1023 of the hidden layer (window 0), the whole of W1 (window 1, fetched once), and writing the
  same rows of the product (window 2).  At any instance F and for any contents V the region is entered
  with: what one run of the body leaves in the output block (one store of the whole block: the product of
  the two loaded blocks into a zero accumulator), the body's triple, the pipeline's proof data and the
  body obligation at every grid point.
-/
import proofs.«160601_j31671088840936_1_alg».proof.Proof.Gen.KernelIdeal.Launch
import proofs.«160601_j31671088840936_1_alg».proof.Proof.Gen.KernelIdeal.Skeleton
import proofs.«160601_j31671088840936_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Mean

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off the array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether or not it was fetched
    there: an unfetched window's block index has not moved. -/
theorem before_rows_of {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem before_weights_of {c : Dev nD} (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- The whole block of each staging buffer. -/
abbrev rX : Rect S1024x32 := Rect.unit (s := S1024x32) ![0, 0] S1024x32.size inb_S1024x32_S1024x32_0_0
abbrev rW : Rect S32x16 := Rect.unit (s := S32x16) ![0, 0] S32x16.size inb_S32x16_S32x16_0_0
abbrev rO : Rect S1024x16 := Rect.unit (s := S1024x16) ![0, 0] S1024x16.size inb_S1024x16_S1024x16_0_0

/-- What one run of the body leaves in the output block: its single store, computed from the two loaded blocks. -/
def outBlock (x : Vec F S1024x32 .f32) (w : Vec F S32x16 .f32) : Vec F S1024x16 .f32 :=
  View.canon [⟨rO, k1_pay1 (View.ld x rX) (View.ld w rW)⟩]

/-- The one store is of the whole block, so it covers it. -/
theorem outBlock_cover (p0 : Vec F S1024x16 .f32) (y : S1024x16.Idx) :
    ∃ pc ∈ ([⟨rO, p0⟩] : List (View.Piece (Elt F) S1024x16 .f32)), y ∈ pc.1.set :=
  View.cover_of_tiled [⟨rO, p0⟩] S1024x16.size (by rfl) y

set_option maxHeartbeats 1000000 in
/-- The body on whole staging memrefs, the two inputs at contents x, w and the output at anything, runs to
    the continuation with the inputs as they were and the output at outBlock x w. -/
theorem body_triple (c : Dev nD) (E : Set ℕ) (i : grid1.Coords) (arg1 : Memref sig .tc .vmem S1024x32 .f32) (harg1 : arg1.IsWhole)
    (arg2 : Memref sig .tc .vmem S32x16 .f32) (harg2 : arg2.IsWhole) (arg3 : Memref sig .tc .vmem S1024x16 .f32) (harg3 : arg3.IsWhole)
    (x : Vec F S1024x32 .f32) (w : Vec F S32x16 .f32) (K : PUnit → sProp 𝕄) :
    iprop(owns (c : Thread nD τ) arg1 fullShare x ∗ owns (c : Thread nD τ) arg2 fullShare w ∗ (∃ d, owns (c : Thread nD τ) arg3 fullShare d)
        ∗ (iprop(owns (c : Thread nD τ) arg1 fullShare x ∗ owns (c : Thread nD τ) arg2 fullShare w ∗ owns (c : Thread nD τ) arg3 fullShare (outBlock x w)) -∗ K ⟨⟩))
      ⊢ wp frame (wpE (defs₀ (F := F)) Variants.none c none) E (cc1__matmul_kernel i arg1 harg1 arg2 harg2 arg3 harg3) K := by
  simp only [cc1__matmul_kernel_eq_skeleton]; unfold cc1__matmul_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (outBlock_cover _)

/-- The pipeline's proof data on core c: the arrays as the region finds them; after the body at point t each
    input's buffer at its block and the output's at outBlock of the input blocks; the invariant holds only what the
    region does not touch; nothing owed; full shares. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => outBlock (blk V c 0 t) (blk V c 1 t)
  Φ _ := Pipeline.ΦA spec1 c
  q _ := fullShare
  owed _ := 0

theorem dat_A (c : Dev nD) (w : Fin cfg1.W) : (dat V c).A w = V c (Pipeline.arrRef spec1 w) := by
  dsimp only [dat]
theorem after_rows (c : Dev nD) (t : Fin cfg1.N) : (dat V c).after 0 t = blk V c 0 t := by dsimp only [dat]
theorem after_weights (c : Dev nD) (t : Fin cfg1.N) : (dat V c).after 1 t = blk V c 1 t := by dsimp only [dat]
theorem after_out (c : Dev nD) (t : Fin cfg1.N) : (dat V c).after 2 t = outBlock (blk V c 0 t) (blk V c 1 t) := by dsimp only [dat]

theorem before_rows (c : Dev nD) (t : Fin cfg1.N) (d) : (dat V c).before 0 t d = blk V c 0 t :=
  before_rows_of V (dat V c) (dat_A V c 0) (after_rows V c) t d
theorem before_weights (c : Dev nD) (t : Fin cfg1.N) (d) : (dat V c).before 1 t d = blk V c 1 t :=
  before_weights_of V (dat V c) (dat_A V c 1) (after_weights V c) t d

/-- What the body is called with at point t, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t))

/-- The body at any point: the inputs' memrefs hold their blocks, so the triple applies; the invariant and what the
    core owes pass through unread. -/
theorem body_at (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_rows, before_weights]
  rw [show (dat V c).Φ t.succ = (dat V c).Φ t.castSucc from rfl,
    show (dat V c).owesAt () t.succ = (dat V c).owesAt () t.castSucc from rfl,
    after_rows, after_weights, after_out]
  iintro ⟨HΦ, Ho, ⟨%d0, H0⟩, ⟨%d1, H1⟩, ⟨%d2, H2⟩⟩
  iapply (body_triple c Set.univ _ _ _ _ _ _ _ (blk V c 0 t) (blk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation (c : Dev nD) : BodyObligation (dat (F := F) V c) (defs₀ (F := F)) Variants.none () Set.univ := fun t => by
  rw [bigSep_W1, bigSep_W1]
  exact body_at V c t

end Cert.KernelIdeal.Mean

end
-- ==== Proof.KiDecode.lean ====
/-
  The decoder sigmoid(Z · Zᵀ) as a pipelined region: sixty-four grid points, point t taking rows
  128·t … 128·t + 127 of Z (window 0), the whole of Z again (window 1, fetched once), and writing the same
  rows of the 8192 × 8192 result (window 2).  Both input windows read ONE array, so the region holds it at
  two half shares, one per window.  At any instance F and for any contents V the region is entered with:
  what one run of the body leaves in the output block (one store of the whole block: the logistic function
  of the product of the row block with the transposed whole, into a zero accumulator), the body's triple,
  the pipeline's proof data and the body obligation at every grid point.
-/
import proofs.«160601_j31671088840936_1_alg».proof.Proof.Gen.KernelIdeal.Launch
import proofs.«160601_j31671088840936_1_alg».proof.Proof.Gen.KernelIdeal.Skeleton
import proofs.«160601_j31671088840936_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Decode

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off the array as the region finds it. -/
def blk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, whether or not it was fetched
    there: an unfetched window's block index has not moved. -/
theorem before_rows_of {c : Dev nD} (dat : Dat τ (Elt F) Unit ℕ (UR sig nD τ) ℕ cfg2 c) (hA : dat.A 0 = V c (Pipeline.arrRef spec2 0))
    (hafter : ∀ t, dat.after 0 t = blk V c 0 t) (t : Fin cfg2.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem before_weights_of {c : Dev nD} (dat : Dat τ (Elt F) Unit ℕ (UR sig nD τ) ℕ cfg2 c) (hA : dat.A 1 = V c (Pipeline.arrRef spec2 1))
    (hafter : ∀ t, dat.after 1 t = blk V c 1 t) (t : Fin cfg2.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- The whole block of each staging buffer. -/
abbrev rX : Rect S128x16 := Rect.unit (s := S128x16) ![0, 0] S128x16.size inb_S128x16_S128x16_0_0
abbrev rW : Rect S8192x16 := Rect.unit (s := S8192x16) ![0, 0] S8192x16.size inb_S8192x16_S8192x16_0_0
abbrev rO : Rect S128x8192 := Rect.unit (s := S128x8192) ![0, 0] S128x8192.size inb_S128x8192_S128x8192_0_0

/-- What one run of the body leaves in the output block: its single store, computed from the two loaded blocks. -/
def outBlock (x : Vec F S128x16 .f32) (w : Vec F S8192x16 .f32) : Vec F S128x8192 .f32 :=
  View.canon [⟨rO, k2_pay1 (View.ld x rX) (View.ld w rW)⟩]

/-- The one store is of the whole block, so it covers it. -/
theorem outBlock_cover (p0 : Vec F S128x8192 .f32) (y : S128x8192.Idx) :
    ∃ pc ∈ ([⟨rO, p0⟩] : List (View.Piece (Elt F) S128x8192 .f32)), y ∈ pc.1.set :=
  View.cover_of_tiled [⟨rO, p0⟩] S128x8192.size (by rfl) y

set_option maxHeartbeats 1000000 in
/-- The body on whole staging memrefs, the two inputs at contents x, w and the output at anything, runs to
    the continuation with the inputs as they were and the output at outBlock x w. -/
theorem body_triple (c : Dev nD) (E : Set ℕ) (i : grid2.Coords) (arg1 : Memref sig .tc .vmem S128x16 .f32) (harg1 : arg1.IsWhole)
    (arg2 : Memref sig .tc .vmem S8192x16 .f32) (harg2 : arg2.IsWhole) (arg3 : Memref sig .tc .vmem S128x8192 .f32) (harg3 : arg3.IsWhole)
    (x : Vec F S128x16 .f32) (w : Vec F S8192x16 .f32) (K : PUnit → sProp 𝕄) :
    iprop(owns (c : Thread nD τ) arg1 fullShare x ∗ owns (c : Thread nD τ) arg2 fullShare w ∗ (∃ d, owns (c : Thread nD τ) arg3 fullShare d)
        ∗ (iprop(owns (c : Thread nD τ) arg1 fullShare x ∗ owns (c : Thread nD τ) arg2 fullShare w ∗ owns (c : Thread nD τ) arg3 fullShare (outBlock x w)) -∗ K ⟨⟩))
      ⊢ wp frame (wpE (defs₀ (F := F)) Variants.none c none) E (cc2__decode_kernel i arg1 harg1 arg2 harg2 arg3 harg3) K := by
  simp only [cc2__decode_kernel_eq_skeleton]; unfold cc2__decode_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (outBlock_cover _)

/-- The pipeline's proof data on core c: the arrays as the region finds them; after the body at point t each
    input's buffer at its block and the output's at outBlock of the input blocks; the invariant holds only what the
    region does not touch; nothing owed; the two input windows, which read one array, hold it at its two half shares. -/
def dat (c : Dev nD) : Dat τ (Elt F) Unit ℕ (UR sig nD τ) ℕ cfg2 c where
  A w := V c (Pipeline.arrRef spec2 w)
  after w t := match w with
    | ⟨0, _⟩ => blk V c 0 t
    | ⟨1, _⟩ => blk V c 1 t
    | ⟨2, _⟩ => outBlock (blk V c 0 t) (blk V c 1 t)
  Φ _ := Pipeline.ΦA spec2 c
  q w := match w with
    | ⟨0, _⟩ => fullShare.left
    | ⟨1, _⟩ => fullShare.right
    | ⟨2, _⟩ => fullShare
  owed _ := 0

theorem dat_A (c : Dev nD) (w : Fin cfg2.W) : (dat V c).A w = V c (Pipeline.arrRef spec2 w) := by
  dsimp only [dat]
theorem after_rows (c : Dev nD) (t : Fin cfg2.N) : (dat V c).after 0 t = blk V c 0 t := by dsimp only [dat]
theorem after_weights (c : Dev nD) (t : Fin cfg2.N) : (dat V c).after 1 t = blk V c 1 t := by dsimp only [dat]
theorem after_out (c : Dev nD) (t : Fin cfg2.N) : (dat V c).after 2 t = outBlock (blk V c 0 t) (blk V c 1 t) := by dsimp only [dat]

theorem before_rows (c : Dev nD) (t : Fin cfg2.N) (d) : (dat V c).before 0 t d = blk V c 0 t :=
  before_rows_of V (dat V c) (dat_A V c 0) (after_rows V c) t d
theorem before_weights (c : Dev nD) (t : Fin cfg2.N) (d) : (dat V c).before 1 t d = blk V c 1 t :=
  before_weights_of V (dat V c) (dat_A V c 1) (after_weights V c) t d

/-- What the body is called with at point t, the windows one by one, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d)))

/-- and what it returns. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t))

/-- The body at any point: the inputs' memrefs hold their blocks, so the triple applies; the invariant and what the
    core owes pass through unread. -/
theorem body_at (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_rows, before_weights]
  rw [show (dat V c).Φ t.succ = (dat V c).Φ t.castSucc from rfl,
    show (dat V c).owesAt () t.succ = (dat V c).owesAt () t.castSucc from rfl,
    after_rows, after_weights, after_out]
  iintro ⟨HΦ, Ho, ⟨%d0, H0⟩, ⟨%d1, H1⟩, ⟨%d2, H2⟩⟩
  iapply (body_triple c Set.univ _ _ _ _ _ _ _ (blk V c 0 t) (blk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation (c : Dev nD) : BodyObligation (dat (F := F) V c) (defs₀ (F := F)) Variants.none () Set.univ := fun t => by
  rw [bigSep_W2, bigSep_W2]
  exact body_at V c t

end Cert.KernelIdeal.Decode

end
-- ==== Proof.KiDecodeArrays.lean ====
/-
  The decoder's two input windows read one array.  The buffer behind it, held whole, is split into two
  half shares, one per window, when the region is entered, and the halves are joined again when it is left
  (an input window's array is as the region found it); the output window's array is a buffer of its own.
-/
import proofs.«160601_j31671088840936_1_alg».proof.Proof.KiDecode

set_option maxRecDepth 16384

noncomputable section

namespace Cert.KernelIdeal.Decode

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The buffers behind the three windows' arrays are two. -/
theorem arr_bufs : Finset.univ.image (Pipeline.arrRef spec2) = {main_v30, main_v31} := by
  decide

/-- Window 0's array, at the share the region holds it at: the shared buffer, whole, at the left half. -/
theorem arr0_eq (c : Dev nD) (f : Buf (Elt F) ((cfg2.win 0).arr.view.loc (c : Thread nD τ))) :
    ((cfg2.win 0).arr.view.loc (c : Thread nD τ) ↦[(cfg2.win 0).arr.view.set]{(dat V c).share 0} f : sProp 𝕄)
      = ((c : Thread nD τ).loc main_v30 ↦{fullShare.left} f) := by
  rw [show (cfg2.win 0).arr.view.set = Finset.univ from (arr_whole2 0).set_eq_univ]
  rfl

/-- Window 1's array: the shared buffer, whole, at the right half. -/
theorem arr1_eq (c : Dev nD) (f : Buf (Elt F) ((cfg2.win 1).arr.view.loc (c : Thread nD τ))) :
    ((cfg2.win 1).arr.view.loc (c : Thread nD τ) ↦[(cfg2.win 1).arr.view.set]{(dat V c).share 1} f : sProp 𝕄)
      = ((c : Thread nD τ).loc main_v30 ↦{fullShare.right} f) := by
  rw [show (cfg2.win 1).arr.view.set = Finset.univ from (arr_whole2 1).set_eq_univ]
  rfl

/-- Window 2's array: the output buffer, whole, at the full share. -/
theorem arr2_eq (c : Dev nD) (f : Buf (Elt F) ((cfg2.win 2).arr.view.loc (c : Thread nD τ))) :
    ((cfg2.win 2).arr.view.loc (c : Thread nD τ) ↦[(cfg2.win 2).arr.view.set]{(dat V c).share 2} f : sProp 𝕄)
      = ((c : Thread nD τ).loc main_v31 ↦{fullShare} f) := by
  rw [show (cfg2.win 2).arr.view.set = Finset.univ from (arr_whole2 2).set_eq_univ]
  rfl

/-- A buffer whole at the full share is its two halves, at any contents. -/
theorem full_halves (c : Dev nD) (b : Ref sig .tc) (f : Buf (Elt F) ((c : Thread nD τ).loc b)) :
    ((c : Thread nD τ).loc b ↦{fullShare} f : sProp 𝕄)
      ⊣⊢ iprop(((c : Thread nD τ).loc b ↦{fullShare.left} f) ∗ (c : Thread nD τ).loc b ↦{fullShare.right} f) :=
  pointsTo_share (PosShare.mem_left_op_right fullShare)

/-- ENTRY: the two buffers, each whole at the contents V, make the pipeline's arrays at their entry contents
    (window 0 and window 1 each take half of the shared buffer). -/
theorem arrays_of_bufs (c : Dev nD) :
    (Pipeline.arrBufs (Ix := Unit) (Name := ℕ) (U := UR sig nD τ) (Lvl := ℕ) spec2 c (V c) : sProp 𝕄)
      ⊢ (dat V c).arrays ((dat V c).arrAt · 0) := by
  unfold Pipeline.arrBufs Dat.arrays
  rw [arr_bufs, bigSep_insert (by decide), bigSep_singleton, bigSep_W2, arr0_eq, arr1_eq, arr2_eq]
  -- at entry every window's array is as the region finds it: V c at the buffer behind it
  show iprop(((c : Thread nD τ).loc main_v30 ↦{fullShare} V c main_v30) ∗ (c : Thread nD τ).loc main_v31 ↦{fullShare} V c main_v31)
    ⊢ iprop(((c : Thread nD τ).loc main_v30 ↦{fullShare.left} V c main_v30) ∗ ((c : Thread nD τ).loc main_v30 ↦{fullShare.right} V c main_v30)
      ∗ (c : Thread nD τ).loc main_v31 ↦{fullShare} V c main_v31)
  exact (sep_mono (full_halves c main_v30 (V c main_v30)).1 .rfl).trans sep_assoc.1

/-- EXIT: the pipeline's arrays at their final contents make the two buffers whole again, at any contents V'
    that keep the shared input buffer as the region found it and have the output buffer at what the region left. -/
theorem bufs_of_arrays (c : Dev nD) (V' : (b : Ref sig .tc) → Buf (Elt F) ((c : Thread nD τ).loc b))
    (hin : V' main_v30 = V c main_v30) (hout : V' main_v31 = (dat V c).arrAt 2 cfg2.N) :
    (dat V c).arrays ((dat V c).arrAt · cfg2.N)
      ⊢ (Pipeline.arrBufs (Ix := Unit) (Name := ℕ) (U := UR sig nD τ) (Lvl := ℕ) spec2 c V' : sProp 𝕄) := by
  -- an input window's array is never written: both halves of the shared buffer hold what the region found
  have h0 : (dat V c).arrAt 0 cfg2.N = V' main_v30 := ((dat V c).arrAt_in 0 rfl _).trans hin.symm
  have h1 : (dat V c).arrAt 1 cfg2.N = V' main_v30 := ((dat V c).arrAt_in 1 rfl _).trans hin.symm
  unfold Pipeline.arrBufs Dat.arrays
  rw [arr_bufs, bigSep_insert (by decide), bigSep_singleton, bigSep_W2, arr0_eq, arr1_eq, arr2_eq]
  show iprop(((c : Thread nD τ).loc main_v30 ↦{fullShare.left} (dat V c).arrAt 0 cfg2.N) ∗ ((c : Thread nD τ).loc main_v30 ↦{fullShare.right} (dat V c).arrAt 1 cfg2.N)
      ∗ (c : Thread nD τ).loc main_v31 ↦{fullShare} (dat V c).arrAt 2 cfg2.N)
    ⊢ iprop(((c : Thread nD τ).loc main_v30 ↦{fullShare} V' main_v30) ∗ (c : Thread nD τ).loc main_v31 ↦{fullShare} V' main_v31)
  rw [h0, h1, ← hout]
  exact sep_assoc.2.trans (sep_mono (full_halves c main_v30 (V' main_v30)).2 .rfl)

end Cert.KernelIdeal.Decode

end
-- ==== Proof.KiRun.lean ====
/-
  The whole run of the program: three pipelined regions (X · W0; hidden · W1; the decoder) with stretches of
  host operations between them (the two sparse aggregations — gather, scale, scatter-add —, the rectifier, the
  lower clamp).  The contents of the core's buffers are followed from the launch to the return: a host stretch
  applies its operations; a region changes only its output array, to what its write-backs leave, and leaves
  every other buffer — its input arrays among them — as it found it.  Every weakly fair execution terminates,
  nothing faults, and the final memory holds every buffer at the last contents so computed; in particular
  each argument array as launched, and the result array at what the decoder's region leaves.  Stated at any
  instance F.
-/
import proofs.«160601_j31671088840936_1_alg».proof.Proof.KiProj
import proofs.«160601_j31671088840936_1_alg».proof.Proof.KiMean
import proofs.«160601_j31671088840936_1_alg».proof.Proof.KiDecode
import proofs.«160601_j31671088840936_1_alg».proof.Proof.KiDecodeArrays
import proofs.«160601_j31671088840936_1_alg».proof.Proof.Gen.KernelIdeal.Regions

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- At launch. -/
abbrev W0 : Dev nD → Valuation τ sig (Elt F) := fun c b => m (c, b)
abbrev U0 : (c : Dev nD) → (b : Ref sig .tc) → Buf (Elt F) ((c : Thread nD τ).loc b) := fun c b => W0 m c b
/-- After the first projection's region: its output array at what the write-backs leave. -/
def W1 (c : Dev nD) : Valuation τ sig (Elt F) :=
  Pipeline.withArrays spec0 c (W0 m c) fun w => (Proj.dat (U0 m) c).arrAt w cfg0.N
abbrev U1 : (c : Dev nD) → (b : Ref sig .tc) → Buf (Elt F) ((c : Thread nD τ).loc b) := fun c b => W1 m c b
/-- After the first aggregation, -/
abbrev W2 : Dev nD → Valuation τ sig (Elt F) := fun c => StableHlo.after hostOps1 (W1 m c)
/-- and the rectifier. -/
abbrev W3 : Dev nD → Valuation τ sig (Elt F) := fun c => StableHlo.after hostOps1_1 (W2 m c)
abbrev U3 : (c : Dev nD) → (b : Ref sig .tc) → Buf (Elt F) ((c : Thread nD τ).loc b) := fun c b => W3 m c b
/-- After the second projection's region. -/
def W4 (c : Dev nD) : Valuation τ sig (Elt F) :=
  Pipeline.withArrays spec1 c (W3 m c) fun w => (Mean.dat (U3 m) c).arrAt w cfg1.N
abbrev U4 : (c : Dev nD) → (b : Ref sig .tc) → Buf (Elt F) ((c : Thread nD τ).loc b) := fun c b => W4 m c b
/-- After the second aggregation and the lower clamp. -/
abbrev W5 : Dev nD → Valuation τ sig (Elt F) := fun c => StableHlo.after hostOps2 (W4 m c)
abbrev U5 : (c : Dev nD) → (b : Ref sig .tc) → Buf (Elt F) ((c : Thread nD τ).loc b) := fun c b => W5 m c b
/-- After the decoder's region: only the result array changes (both input windows read one array, which stays). -/
def W6 (c : Dev nD) : Valuation τ sig (Elt F) :=
  Function.update (W5 m c) (Proc.devRef .tc main_v31) ((Decode.dat (U5 m) c).arrAt 2 cfg2.N)
abbrev U6 : (c : Dev nD) → (b : Ref sig .tc) → Buf (Elt F) ((c : Thread nD τ).loc b) := fun c b => W6 m c b

/-! ## What each stage leaves unchanged -/

theorem W1_arr (c : Dev nD) (w : Fin cfg0.W) :
    W1 m c (Proc.devRef .tc (Pipeline.arrRef spec0 w)) = (Proj.dat (U0 m) c).arrAt w cfg0.N := by
  unfold W1; exact Pipeline.withArrays_arr spec0 launch0.win.arr_inj c _ _ w
theorem W1_keep (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
/-- An input window's array is as the region found it. -/
theorem W1_in (c : Dev nD) (w : Fin cfg0.W) (hw : (cfg0.win w).isOut = false) :
    W1 m c (Proc.devRef .tc (Pipeline.arrRef spec0 w)) = W0 m c (Proc.devRef .tc (Pipeline.arrRef spec0 w)) :=
  (W1_arr m c w).trans (((Proj.dat (U0 m) c).arrAt_in w hw _).trans (Proj.dat_A (U0 m) c w))
theorem W2_keep (c : Dev nD) (b : Ref sig .tc) (h : b ∉ hostOps1_W) : W2 m c (Proc.devRef .tc b) = W1 m c (Proc.devRef .tc b) :=
  StableHlo.after_of_writes_sub hostOps1 _ hostOps1_writes h
theorem W3_keep (c : Dev nD) (b : Ref sig .tc) (h : b ∉ hostOps1_1_W) : W3 m c (Proc.devRef .tc b) = W2 m c (Proc.devRef .tc b) :=
  StableHlo.after_of_writes_sub hostOps1_1 _ hostOps1_1_writes h
theorem W4_arr (c : Dev nD) (w : Fin cfg1.W) :
    W4 m c (Proc.devRef .tc (Pipeline.arrRef spec1 w)) = (Mean.dat (U3 m) c).arrAt w cfg1.N := by
  unfold W4; exact Pipeline.withArrays_arr spec1 launch1.win.arr_inj c _ _ w
theorem W4_keep (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
theorem W4_in (c : Dev nD) (w : Fin cfg1.W) (hw : (cfg1.win w).isOut = false) :
    W4 m c (Proc.devRef .tc (Pipeline.arrRef spec1 w)) = W3 m c (Proc.devRef .tc (Pipeline.arrRef spec1 w)) :=
  (W4_arr m c w).trans (((Mean.dat (U3 m) c).arrAt_in w hw _).trans (Mean.dat_A (U3 m) c w))
theorem W5_keep (c : Dev nD) (b : Ref sig .tc) (h : b ∉ hostOps2_W) : W5 m c (Proc.devRef .tc b) = W4 m c (Proc.devRef .tc b) :=
  StableHlo.after_of_writes_sub hostOps2 _ hostOps2_writes h
theorem W6_keep (c : Dev nD) (b : Ref sig .tc) (h : b ≠ main_v31) : W6 m c (Proc.devRef .tc b) = W5 m c (Proc.devRef .tc b) := by
  unfold W6; exact Function.update_of_ne (StableHlo.devRef_ne_of_ne h) _ _
theorem W6_out (c : Dev nD) : W6 m c (Proc.devRef .tc main_v31) = (Decode.dat (U5 m) c).arrAt 2 cfg2.N := by
  unfold W6; exact Function.update_self _ _ _

/-- The hand-offs between the regions and the stretches, one buffer each. -/
theorem hF0 (c : Dev nD) (w : Fin cfg0.W) : (Proj.dat (U0 m) c).arrAt w cfg0.N = U1 m c (Pipeline.arrRef spec0 w) :=
  (W1_arr m c w).symm
theorem hrest0 (c : Dev nD) : ∀ b, b ∉ Finset.univ.image (Pipeline.arrRef spec0) → U1 m c b = U0 m c b :=
  fun b hb => W1_keep m c b fun w e => hb (Finset.mem_image.mpr ⟨w, Finset.mem_univ _, e⟩)
theorem hF1 (c : Dev nD) (w : Fin cfg1.W) : (Mean.dat (U3 m) c).arrAt w cfg1.N = U4 m c (Pipeline.arrRef spec1 w) :=
  (W4_arr m c w).symm
theorem hrest1 (c : Dev nD) : ∀ b, b ∉ Finset.univ.image (Pipeline.arrRef spec1) → U4 m c b = U3 m c b :=
  fun b hb => W4_keep m c b fun w e => hb (Finset.mem_image.mpr ⟨w, Finset.mem_univ _, e⟩)

/-! ## The arguments end as launched -/

theorem W6_main_arg0 (c : Dev nD) : W6 m c (Proc.devRef .tc main_arg0) = m ((c : Thread nD τ).loc main_arg0) :=
  (W6_keep m c main_arg0 (by decide)).trans <| (W5_keep m c main_arg0 (by decide)).trans <| (W4_keep m c main_arg0 (by decide)).trans <|
    (W3_keep m c main_arg0 (by decide)).trans <| (W2_keep m c main_arg0 (by decide)).trans <| (W1_in m c 0 rfl).trans rfl
theorem W6_main_arg1 (c : Dev nD) : W6 m c (Proc.devRef .tc main_arg1) = m ((c : Thread nD τ).loc main_arg1) :=
  (W6_keep m c main_arg1 (by decide)).trans <| (W5_keep m c main_arg1 (by decide)).trans <| (W4_keep m c main_arg1 (by decide)).trans <|
    (W3_keep m c main_arg1 (by decide)).trans <| (W2_keep m c main_arg1 (by decide)).trans <| (W1_keep m c main_arg1 (by decide)).trans rfl
theorem W6_main_arg2 (c : Dev nD) : W6 m c (Proc.devRef .tc main_arg2) = m ((c : Thread nD τ).loc main_arg2) :=
  (W6_keep m c main_arg2 (by decide)).trans <| (W5_keep m c main_arg2 (by decide)).trans <| (W4_keep m c main_arg2 (by decide)).trans <|
    (W3_keep m c main_arg2 (by decide)).trans <| (W2_keep m c main_arg2 (by decide)).trans <| (W1_keep m c main_arg2 (by decide)).trans rfl
theorem W6_main_arg3 (c : Dev nD) : W6 m c (Proc.devRef .tc main_arg3) = m ((c : Thread nD τ).loc main_arg3) :=
  (W6_keep m c main_arg3 (by decide)).trans <| (W5_keep m c main_arg3 (by decide)).trans <| (W4_keep m c main_arg3 (by decide)).trans <|
    (W3_keep m c main_arg3 (by decide)).trans <| (W2_keep m c main_arg3 (by decide)).trans <| (W1_keep m c main_arg3 (by decide)).trans rfl
theorem W6_main_arg4 (c : Dev nD) : W6 m c (Proc.devRef .tc main_arg4) = m ((c : Thread nD τ).loc main_arg4) :=
  (W6_keep m c main_arg4 (by decide)).trans <| (W5_keep m c main_arg4 (by decide)).trans <| (W4_keep m c main_arg4 (by decide)).trans <|
    (W3_keep m c main_arg4 (by decide)).trans <| (W2_keep m c main_arg4 (by decide)).trans <| (W1_in m c 1 rfl).trans rfl
theorem W6_main_arg5 (c : Dev nD) : W6 m c (Proc.devRef .tc main_arg5) = m ((c : Thread nD τ).loc main_arg5) :=
  (W6_keep m c main_arg5 (by decide)).trans <| (W5_keep m c main_arg5 (by decide)).trans <| (W4_in m c 1 rfl).trans <|
    (W3_keep m c main_arg5 (by decide)).trans <| (W2_keep m c main_arg5 (by decide)).trans <| (W1_keep m c main_arg5 (by decide)).trans rfl
theorem W6_main_arg6 (c : Dev nD) : W6 m c (Proc.devRef .tc main_arg6) = m ((c : Thread nD τ).loc main_arg6) :=
  (W6_keep m c main_arg6 (by decide)).trans <| (W5_keep m c main_arg6 (by decide)).trans <| (W4_keep m c main_arg6 (by decide)).trans <|
    (W3_keep m c main_arg6 (by decide)).trans <| (W2_keep m c main_arg6 (by decide)).trans <| (W1_keep m c main_arg6 (by decide)).trans rfl

/-! ## The proof data of the three pipelines, and what rides beside the buffers -/

/-- Every pipeline's proof data, each at the contents its region is entered with. -/
def pdats : (p : Fin 3) → (c : Dev nD) → Dat τ (Elt F) Unit ℕ (UR sig nD τ) ℕ (Pipeline.pin (pcfgs (F := F)) adm p) c
  | ⟨0, _⟩ => fun c => Proj.dat (U0 m) c
  | ⟨1, _⟩ => fun c => Mean.dat (U3 m) c
  | ⟨2, _⟩ => fun c => Decode.dat (U5 m) c
abbrev 𝒱₀ : Variants := Variants.none
/-- No core owes another anything. -/
abbrev L : GSem nD τ sig → Finset Unit := fun _ => ∅
abbrev lv : GSem nD τ sig → Unit → ℕ := fun _ _ => 0
/-- Beside the buffers: the core's generator register at some state, and nothing owed. -/
abbrev R (c : Dev nD) : sProp 𝕄 := iprop((∃ r, prngReg c r) ∗ ∃ W, owes (c : Thread nD τ) (0 : CellTallies nD τ sig Unit) W)
/-- A stretch of host operations from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state, without what is owed: every unscoped buffer at the last contents, the generator register. -/
abbrev Tₙ (c : Dev nD) : sProp 𝕄 := iprop(StableHlo.held (c : Thread nD τ) (Pipeline.ucRefs τ sig) (W6 m c) ∗ ∃ r, prngReg c r)

/-! ## The decoder's region: its two buffers out of the core's unscoped buffers, and back -/

theorem decode_entry (c : Dev nD) :
    (StableHlo.held (c : Thread nD τ) (Pipeline.ucRefs τ sig) (W5 m c) : sProp 𝕄)
      ⊢ iprop((Decode.dat (U5 m) c).arrays ((Decode.dat (U5 m) c).arrAt · 0)
          ∗ Pipeline.unscopedRest (Ix := Unit) (Name := ℕ) (U := UR sig nD τ) (Lvl := ℕ) spec2 c (U5 m c)) := by
  rw [← Pipeline.unscopedBufs_held (Ix := Unit) (Name := ℕ) (U := UR sig nD τ) (Lvl := ℕ) c (W5 m c),
    Pipeline.unscopedBufs_split₀ (cfgs) 2 winFacts₀2.arr_unscoped c (U5 m c)]
  exact sep_mono (Decode.arrays_of_bufs (U5 m) c) .rfl

theorem decode_exit (c : Dev nD) :
    iprop((Decode.dat (U5 m) c).arrays ((Decode.dat (U5 m) c).arrAt · cfg2.N)
          ∗ Pipeline.unscopedRest (Ix := Unit) (Name := ℕ) (U := UR sig nD τ) (Lvl := ℕ) spec2 c (U5 m c))
      ⊢ (StableHlo.held (c : Thread nD τ) (Pipeline.ucRefs τ sig) (W6 m c) : sProp 𝕄) := by
  rw [← Pipeline.unscopedBufs_held (Ix := Unit) (Name := ℕ) (U := UR sig nD τ) (Lvl := ℕ) c (W6 m c),
    Pipeline.unscopedBufs_split₀ (cfgs) 2 winFacts₀2.arr_unscoped c (U6 m c)]
  refine sep_mono (Decode.bufs_of_arrays (U5 m) c (U6 m c) (W6_keep m c main_v30 (by decide)) (W6_out m c)) (Entails.of_eq ?_)
  unfold Pipeline.unscopedRest
  exact bigSep_congr fun b hb => by
    rw [show U6 m c b = U5 m c b from W6_keep m c b fun e => (Finset.mem_sdiff.mp hb).2 (e ▸ Finset.mem_image.mpr ⟨2, Finset.mem_univ _, rfl⟩)]

/-! ## The regions as segments -/

set_option backward.isDefEq.respectTransparency.types false in
/-- The first projection's region: entered with every unscoped buffer at W0, left with them at W1. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Proj.body_obligation (U0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (U0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U0 m c) (U1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second projection's region: entered with every unscoped buffer at W3, left with them at W4. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Mean.body_obligation (U3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U3 m c) (U4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The decoder's region: entered with every unscoped buffer at W5, left with them at W6 — the last contents. -/
def reg2 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (Decode.body_obligation (U5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (U5 m c)
  hentry c := by
    rw [Pipeline.ownSems0_none]
    iintro ⟨⟨Hub, Hp, HO⟩, -, -⟩
    ihave H := (decode_entry m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest HY]
    · isplitl [Ha Hrest]
      · iapply (decode_exit m c)
        isplitl [Ha]; · iexact Ha
        iexact Hrest
      iexact HY
    unfold Pipeline.Dat.owesAt Pipeline.owesWithin
    icases HO with ⟨%W, -, HO⟩; iexists W; iexact HO

/-! ## The program as segments, and the launch -/

/-- The six items in order. -/
abbrev items : List (Pipeline.Seg (pcfgs (F := F)) adm (pdats m) () defs₀ 𝒱₀ L lv) :=
  [ .region (reg0 m),
    .host (hseg hostOps1 hostOps1_sub hostOps1_fresh (W1 m)),
    .host (hseg hostOps1_1 hostOps1_1_sub hostOps1_1_fresh (W2 m)),
    .region (reg1 m),
    .host (hseg hostOps2 hostOps2_sub hostOps2_fresh (W4 m)),
    .region (reg2 m) ]
theorem main_items (c : Dev nD) : main (F := F) c = Pipeline.Seg.run (items m) := (main_chain c).trans (by chain_rfl)

set_option backward.isDefEq.respectTransparency.types false in
/-- From any memory with zero counters every weakly fair execution terminates, nothing faulting, and the final memory
    holds every unscoped buffer at the last contents. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (items m)
    (fun c Q => by rw [main_items m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h => h)

/-- The frame: every argument array ends as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W6_main_arg0 m c),
     (h c _ (mem_uc main_arg1 (by decide))).trans (W6_main_arg1 m c),
     (h c _ (mem_uc main_arg2 (by decide))).trans (W6_main_arg2 m c),
     (h c _ (mem_uc main_arg3 (by decide))).trans (W6_main_arg3 m c),
     (h c _ (mem_uc main_arg4 (by decide))).trans (W6_main_arg4 m c),
     (h c _ (mem_uc main_arg5 (by decide))).trans (W6_main_arg5 m c),
     (h c _ (mem_uc main_arg6 (by decide))).trans (W6_main_arg6 m c)⟩) (run_all m ρ)

/-- The same run with the result array named: what the decoder's region leaves, entered with the contents W5. -/
theorem run_result (ρ : Dev nD → PrngReg) :
    θ_run defs (onTc (τ := τ) (main (F := F))) ⟨m, fun _ => 0, ρ⟩ (fun r => ∀ c : Dev nD,
      r.2.mem ((c.tc : Thread nD τ).loc main_v31) = (Decode.dat (U5 m) c).arrAt 2 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_v31 (by decide))).trans (W6_out m c),
     (h c _ (mem_uc main_arg0 (by decide))).trans (W6_main_arg0 m c),
     (h c _ (mem_uc main_arg1 (by decide))).trans (W6_main_arg1 m c),
     (h c _ (mem_uc main_arg2 (by decide))).trans (W6_main_arg2 m c),
     (h c _ (mem_uc main_arg3 (by decide))).trans (W6_main_arg3 m c),
     (h c _ (mem_uc main_arg4 (by decide))).trans (W6_main_arg4 m c),
     (h c _ (mem_uc main_arg5 (by decide))).trans (W6_main_arg5 m c),
     (h c _ (mem_uc main_arg6 (by decide))).trans (W6_main_arg6 m c)⟩) (run_all m ρ)

end Cert.KernelIdeal.Run

end
-- ==== Proof.RefSpec.lean ====
/-
  The reference's result, cut into its stages.  With A the sparse matrix the edge list spells (row er, column
  ec — a negative column index wrapped by 8192 —, value ev):
    hidden = max (A · (X · W0), 0)          one gather of rows by column index, a scaling by the edge values,
                                            a scatter-add by row index into zeros, the rectifier
    latent = max (A · (hidden · W1), 1e-32) the same aggregation at width 16, then the lower clamp
    result = 1 / (1 + exp (−(latent · transpose latent)))
  The generated run of the reference ends with its result buffer at the composition of these stages; the third
  branch of the reference (the one through W2) does not reach the result.
-/
import proofs.«160601_j31671088840936_1_alg».proof.Proof.Gen.ReferenceIdeal.Run

set_option maxRecDepth 8192

noncomputable section

namespace Cert.ReferenceIdeal.Spec

open Cert.ReferenceIdeal Cert.ReferenceIdeal.Gen Idealize.ShloMosaic Idealize.ShloMosaic.TcCoe Idealize.SL.Sem Idealize.ShloMosaic.StableHlo

variable {F : FTy → Type} [FloatOps F]

/-- An array of floats, and one of 32-bit integers, of a shape. -/
abbrev Arr (S : Shape) : Type := (⟨S, .f32⟩ : BufTy).Contents (Elt F)
abbrev IArr (S : Shape) : Type := (⟨S, .i32⟩ : BufTy).Contents (Elt F)

/-- The edges' column indices as gather indices: a negative one is counted from the end. -/
def cols (ec : IArr (F := F) S262144) : IArr (F := F) S262144x1 :=
  broadcastInDim S262144x1 ![0] bcast_S262144_S262144x1_0 (select (cmpi .slt ec (broadcastInDim S262144 ![] bcast_S_S262144 (constantI S_ 32 0#32))) (addi ec (broadcastInDim S262144 ![] bcast_S_S262144 (constantI S_ 32 8192#32))) ec)

/-- The hidden layer from the first projection y = X · W0: aggregate over the edges, then the rectifier. -/
def hiddenOf (y : Arr (F := F) S8192x32) (er ec : IArr (F := F) S262144) (ev : Arr (F := F) S262144) : Arr (F := F) S8192x32 :=
  maximumf (Host.scatterAdd scatter_S8192x32_S262144x1_S262144x32_1_0_0_1 (broadcastInDim S8192x32 ![] bcast_S_S8192x32 (constant S_ .f32 0x00000000#32)) (broadcastInDim S262144x1 ![0] bcast_S262144_S262144x1_0 er) (mulf (broadcastInDim S262144x32 ![0, 1] bcast_S262144x1_S262144x32_0_1 (broadcastInDim S262144x1 ![0] bcast_S262144_S262144x1_0 ev)) (Host.gather gather_S8192x32_S262144x1_S262144x32_1_0_n_n_0_1_132 y (cols ec)))) (broadcastInDim S8192x32 ![] bcast_S_S8192x32 (constant S_ .f32 0x00000000#32))

/-- The latent layer from the second projection y = hidden · W1: aggregate over the edges, then the lower clamp. -/
def latentOf (y : Arr (F := F) S8192x16) (er ec : IArr (F := F) S262144) (ev : Arr (F := F) S262144) : Arr (F := F) S8192x16 :=
  maximumf (Host.scatterAdd scatter_S8192x16_S262144x1_S262144x16_1_0_0_1 (broadcastInDim S8192x16 ![] bcast_S_S8192x16 (constant S_ .f32 0x00000000#32)) (broadcastInDim S262144x1 ![0] bcast_S262144_S262144x1_0 er) (mulf (broadcastInDim S262144x16 ![0, 1] bcast_S262144x1_S262144x16_0_1 (broadcastInDim S262144x1 ![0] bcast_S262144_S262144x1_0 ev)) (Host.gather gather_S8192x16_S262144x1_S262144x16_1_0_n_n_0_1_116 y (cols ec)))) (broadcastInDim S8192x16 ![] bcast_S_S8192x16 (constant S_ .f32 0x0A4FB11F#32))

/-- The decoder: the logistic function, spelt out, of the latent layer's Gram matrix. -/
def decodeOf (z : Arr (F := F) S8192x16) : Arr (F := F) S8192x8192 :=
  Host.divf (broadcastInDim S8192x8192 ![] bcast_S_S8192x8192 (constant S_ .f32 0x3F800000#32)) (addf (broadcastInDim S8192x8192 ![] bcast_S_S8192x8192 (constant S_ .f32 0x3F800000#32)) (Host.exp (Host.negf (Host.dotGeneral dot_S8192x16_S16x8192_S8192x8192_1_0_0_1_n_n none z (transpose S16x8192 [1, 0] z transposes_S8192x16_S16x8192_1_0)))))

/-- The two projections as the reference computes them. -/
def proj0 (x : Arr (F := F) S8192x512) (w : Arr (F := F) S512x32) : Arr (F := F) S8192x32 :=
  Host.dotGeneral dot_S8192x512_S512x32_S8192x32_1_0_0_1_n_n none x w
def proj1 (h : Arr (F := F) S8192x32) (w : Arr (F := F) S32x16) : Arr (F := F) S8192x16 :=
  Host.dotGeneral dot_S8192x32_S32x16_S8192x16_1_0_0_1_n_n none h w

/-- The whole reference as one function of the argument arrays. -/
def resultOf (x : Arr (F := F) S8192x512) (er ec : IArr (F := F) S262144) (ev : Arr (F := F) S262144)
    (w0 : Arr (F := F) S512x32) (w1 : Arr (F := F) S32x16) : Arr (F := F) S8192x8192 :=
  decodeOf (latentOf (proj1 (hiddenOf (proj0 x w0) er ec ev) w1) er ec ev)

/-- The generated run's result term is that function of the launch contents. -/
theorem res_eq (m : (ℓ : Loc nD τ sig) → Buf (Elt F) ℓ) (c : Dev nD) :
    Value.res_main_v54 m c = resultOf (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) := by
  unfold Value.res_main_v54 resultOf decodeOf latentOf hiddenOf proj0 proj1 cols
  rfl

end Cert.ReferenceIdeal.Spec

end
-- ==== Proof.KiChain.lean ====
/-
  The kernel program's host stretches are the reference's stages.  Between the first and the second region the
  program aggregates the first projection over the edges and applies the rectifier: the hidden layer, as the
  reference computes it from the same arrays.  Between the second and the third region it aggregates the second
  projection and clamps it from below: the latent layer.  And the arrays these stretches read besides a region's
  output — the edge list, the weights — are the launch contents: no stretch and no region before them writes one.
-/
import proofs.«160601_j31671088840936_1_alg».proof.Proof.KiRun
import proofs.«160601_j31671088840936_1_alg».proof.Proof.RefSpec

set_option maxRecDepth 16384

noncomputable section

namespace Cert.KernelIdeal.Chain

open Idealize.ShloMosaic Idealize.ShloMosaic.TcCoe
open Idealize.SL Idealize.SL.Sem Idealize.ShloMosaic.StableHlo
open Cert.KernelIdeal Cert.KernelIdeal.Gen

variable {F : FTy → Type} [FloatOps F]

set_option maxHeartbeats 8000000 in
/-- The stretch after the first region leaves the hidden layer in its last buffer. -/
theorem hidden_stretch (W : Valuation τ sig (Elt F)) :
    after (hostOps1_1 (F := F)) (after (hostOps1 (F := F)) W) (Proc.devRef .tc main_v14)
      = Cert.ReferenceIdeal.Spec.hiddenOf (F := F) (W (Proc.devRef .tc main_v0)) (W (Proc.devRef .tc main_arg1))
          (W (Proc.devRef .tc main_arg2)) (W (Proc.devRef .tc main_arg3)) := by
  after_results_simp <;> rfl

set_option maxHeartbeats 8000000 in
/-- The stretch after the second region leaves the latent layer in its last buffer. -/
theorem latent_stretch (W : Valuation τ sig (Elt F)) :
    after (hostOps2 (F := F)) W (Proc.devRef .tc main_v30)
      = Cert.ReferenceIdeal.Spec.latentOf (F := F) (W (Proc.devRef .tc main_v15)) (W (Proc.devRef .tc main_arg1))
          (W (Proc.devRef .tc main_arg2)) (W (Proc.devRef .tc main_arg3)) := by
  after_results_simp <;> rfl

variable (m : (ℓ : Loc nD τ sig) → Buf (Elt F) ℓ)

/-! ## The edge list and the weights are the launch contents wherever they are read -/

theorem W1_arg1 (c : Dev nD) : Run.W1 m c (Proc.devRef .tc main_arg1) = m ((c : Thread nD τ).loc main_arg1) :=
  (Run.W1_keep m c main_arg1 (by decide)).trans rfl
theorem W1_arg2 (c : Dev nD) : Run.W1 m c (Proc.devRef .tc main_arg2) = m ((c : Thread nD τ).loc main_arg2) :=
  (Run.W1_keep m c main_arg2 (by decide)).trans rfl
theorem W1_arg3 (c : Dev nD) : Run.W1 m c (Proc.devRef .tc main_arg3) = m ((c : Thread nD τ).loc main_arg3) :=
  (Run.W1_keep m c main_arg3 (by decide)).trans rfl
theorem W3_arg5 (c : Dev nD) : Run.W3 m c (Proc.devRef .tc main_arg5) = m ((c : Thread nD τ).loc main_arg5) :=
  (Run.W3_keep m c main_arg5 (by decide)).trans <| (Run.W2_keep m c main_arg5 (by decide)).trans <| (Run.W1_keep m c main_arg5 (by decide)).trans rfl
theorem W4_arg1 (c : Dev nD) : Run.W4 m c (Proc.devRef .tc main_arg1) = m ((c : Thread nD τ).loc main_arg1) :=
  (Run.W4_keep m c main_arg1 (by decide)).trans <| (Run.W3_keep m c main_arg1 (by decide)).trans <| (Run.W2_keep m c main_arg1 (by decide)).trans <| W1_arg1 m c
theorem W4_arg2 (c : Dev nD) : Run.W4 m c (Proc.devRef .tc main_arg2) = m ((c : Thread nD τ).loc main_arg2) :=
  (Run.W4_keep m c main_arg2 (by decide)).trans <| (Run.W3_keep m c main_arg2 (by decide)).trans <| (Run.W2_keep m c main_arg2 (by decide)).trans <| W1_arg2 m c
theorem W4_arg3 (c : Dev nD) : Run.W4 m c (Proc.devRef .tc main_arg3) = m ((c : Thread nD τ).loc main_arg3) :=
  (Run.W4_keep m c main_arg3 (by decide)).trans <| (Run.W3_keep m c main_arg3 (by decide)).trans <| (Run.W2_keep m c main_arg3 (by decide)).trans <| W1_arg3 m c

/-- The second region is entered with the hidden layer of what the first region left. -/
theorem hidden_at (c : Dev nD) :
    Run.W3 m c (Proc.devRef .tc main_v14)
      = Cert.ReferenceIdeal.Spec.hiddenOf (F := F) (Run.W1 m c (Proc.devRef .tc main_v0)) (m ((c : Thread nD τ).loc main_arg1))
          (m ((c : Thread nD τ).loc main_arg2)) (m ((c : Thread nD τ).loc main_arg3)) := by
  show after (hostOps1_1 (F := F)) (after (hostOps1 (F := F)) (Run.W1 m c)) (Proc.devRef .tc main_v14) = _
  rw [hidden_stretch, W1_arg1, W1_arg2, W1_arg3]

/-- The third region is entered with the latent layer of what the second region left. -/
theorem latent_at (c : Dev nD) :
    Run.W5 m c (Proc.devRef .tc main_v30)
      = Cert.ReferenceIdeal.Spec.latentOf (F := F) (Run.W4 m c (Proc.devRef .tc main_v15)) (m ((c : Thread nD τ).loc main_arg1))
          (m ((c : Thread nD τ).loc main_arg2)) (m ((c : Thread nD τ).loc main_arg3)) := by
  show after (hostOps2 (F := F)) (Run.W4 m c) (Proc.devRef .tc main_v30) = _
  rw [latent_stretch, W4_arg1, W4_arg2, W4_arg3]

end Cert.KernelIdeal.Chain

end
-- ==== Proof.KiProjValue.lean ====
/-
  The first projection's region leaves the whole product in its output array.  Point t writes rows
  1024·t … 1024·t + 1023, each entry the sum over the 512 columns of X-row times W0-column (the body's
  matmul into a zero accumulator; changes of float format are the identity on the extended reals); the eight
  blocks tile the 8192 rows, so the array after the region is X · W0 as the host's dot_general computes it.
-/
import proofs.«160601_j31671088840936_1_alg».proof.Proof.KiProj
import proofs.«160601_j31671088840936_1_alg».proof.Proof.Gen.ReferenceIdeal
import Idealize.ShloMosaic.PureOps.Ideal
import Idealize.ShloMosaic.PureOps.Ideal.Laws
import Idealize.ShloMosaic.Lib.Pipeline.Value
import Idealize.ShloMosaic.Lib.ValueIdx

set_option maxRecDepth 16384

noncomputable section

namespace Cert.KernelIdeal.Proj

open Idealize.ShloMosaic Idealize.ShloMosaic.TcCoe
open Idealize.SL Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => match a with | ⟨0, _⟩ => rfl | ⟨1, _⟩ => rfl

/-! ### The body's matrix product at an index -/

theorem lhs_mm_0 (i : S1024x32.Idx) (q : dot_S1024x512_S512x32_S1024x32_1_0_0_1_n_n.contr.Idx) :
    (dot_S1024x512_S512x32_S1024x32_1_0_0_1_n_n.lhsIdx i q 0).val = (i 0).val := by
  unfold DotDims.lhsIdx
  rw [dif_neg (show ¬(0 : Fin S1024x512.rank) ∈ dot_S1024x512_S512x32_S1024x32_1_0_0_1_n_n.lhsBatch by decide), dif_pos (show (0 : Fin S1024x512.rank) ∈ dot_S1024x512_S512x32_S1024x32_1_0_0_1_n_n.lhsNonContracting by decide)]
  rfl
theorem lhs_mm_1 (i : S1024x32.Idx) (q : dot_S1024x512_S512x32_S1024x32_1_0_0_1_n_n.contr.Idx) :
    (dot_S1024x512_S512x32_S1024x32_1_0_0_1_n_n.lhsIdx i q 1).val = (q ⟨0, by decide⟩).val :=
  dot_S1024x512_S512x32_S1024x32_1_0_0_1_n_n.lhsIdx_val_of_single rfl i q
theorem rhs_mm_0 (i : S1024x32.Idx) (q : dot_S1024x512_S512x32_S1024x32_1_0_0_1_n_n.contr.Idx) :
    (dot_S1024x512_S512x32_S1024x32_1_0_0_1_n_n.rhsIdx i q 0).val = (q ⟨0, by decide⟩).val :=
  dot_S1024x512_S512x32_S1024x32_1_0_0_1_n_n.rhsIdx_val_of_single rfl i q
theorem rhs_mm_1 (i : S1024x32.Idx) (q : dot_S1024x512_S512x32_S1024x32_1_0_0_1_n_n.contr.Idx) :
    (dot_S1024x512_S512x32_S1024x32_1_0_0_1_n_n.rhsIdx i q 1).val = (i 1).val := by
  unfold DotDims.rhsIdx
  rw [dif_neg (show ¬(1 : Fin S512x32.rank) ∈ dot_S1024x512_S512x32_S1024x32_1_0_0_1_n_n.rhsBatch by decide), dif_pos (show (1 : Fin S512x32.rank) ∈ dot_S1024x512_S512x32_S1024x32_1_0_0_1_n_n.rhsNonContracting by decide)]
  rfl

/-- Entry (p, q) of the body's payload is the sum over the contracted axis of x-row p times w-column q: the matmul
    starts from a zero accumulator, and the changes of float format are the identity on the extended reals. -/
theorem pay_apply (x : Vec Ideal S1024x512 .f32) (w : Vec Ideal S512x32 .f32) (p : Fin 1024) (q : Fin 32) :
    k0_pay1 (F := Ideal) x w (ValueIdx.ix2 p q) = ∑ k : Fin 512, x (ValueIdx.ix2 p k) * w (ValueIdx.ix2 k q) := by
  unfold k0_pay1
  try simp only [shapeCast_self]
  refine (Ideal.matmul_constant_zero_apply dot_S1024x512_S512x32_S1024x32_1_0_0_1_n_n none _ _ (ValueIdx.ix2 p q)).trans ?_
  rw [← Equiv.sum_comp (ValueIdx.contrEquiv1 dot_S1024x512_S512x32_S1024x32_1_0_0_1_n_n 512 rfl rfl).symm]
  refine Finset.sum_congr rfl fun k _ => ?_
  have hk := ValueIdx.contrEquiv1_symm_val dot_S1024x512_S512x32_S1024x32_1_0_0_1_n_n 512 rfl rfl k
  have el : dot_S1024x512_S512x32_S1024x32_1_0_0_1_n_n.lhsIdx (ValueIdx.ix2 p q) ((ValueIdx.contrEquiv1 dot_S1024x512_S512x32_S1024x32_1_0_0_1_n_n 512 rfl rfl).symm k) = ValueIdx.ix2 p k := funext fun a => Fin.ext (by
    match a with
    | ⟨0, _⟩ => exact lhs_mm_0 _ _
    | ⟨1, _⟩ => exact (lhs_mm_1 _ _).trans hk)
  have er : dot_S1024x512_S512x32_S1024x32_1_0_0_1_n_n.rhsIdx (ValueIdx.ix2 p q) ((ValueIdx.contrEquiv1 dot_S1024x512_S512x32_S1024x32_1_0_0_1_n_n 512 rfl rfl).symm k) = ValueIdx.ix2 k q := funext fun a => Fin.ext (by
    match a with
    | ⟨0, _⟩ => exact (rhs_mm_0 _ _).trans hk
    | ⟨1, _⟩ => exact rhs_mm_1 _ _)
  rw [el, er]
  rfl

/-! ### The host's product at an index -/

theorem lhs_ref_0 (i : Cert.ReferenceIdeal.S8192x32.Idx) (q : Cert.ReferenceIdeal.dot_S8192x512_S512x32_S8192x32_1_0_0_1_n_n.contr.Idx) :
    (Cert.ReferenceIdeal.dot_S8192x512_S512x32_S8192x32_1_0_0_1_n_n.lhsIdx i q 0).val = (i 0).val := by
  unfold DotDims.lhsIdx
  rw [dif_neg (show ¬(0 : Fin Cert.ReferenceIdeal.S8192x512.rank) ∈ Cert.ReferenceIdeal.dot_S8192x512_S512x32_S8192x32_1_0_0_1_n_n.lhsBatch by decide), dif_pos (show (0 : Fin Cert.ReferenceIdeal.S8192x512.rank) ∈ Cert.ReferenceIdeal.dot_S8192x512_S512x32_S8192x32_1_0_0_1_n_n.lhsNonContracting by decide)]
  rfl
theorem lhs_ref_1 (i : Cert.ReferenceIdeal.S8192x32.Idx) (q : Cert.ReferenceIdeal.dot_S8192x512_S512x32_S8192x32_1_0_0_1_n_n.contr.Idx) :
    (Cert.ReferenceIdeal.dot_S8192x512_S512x32_S8192x32_1_0_0_1_n_n.lhsIdx i q 1).val = (q ⟨0, by decide⟩).val :=
  Cert.ReferenceIdeal.dot_S8192x512_S512x32_S8192x32_1_0_0_1_n_n.lhsIdx_val_of_single rfl i q
theorem rhs_ref_0 (i : Cert.ReferenceIdeal.S8192x32.Idx) (q : Cert.ReferenceIdeal.dot_S8192x512_S512x32_S8192x32_1_0_0_1_n_n.contr.Idx) :
    (Cert.ReferenceIdeal.dot_S8192x512_S512x32_S8192x32_1_0_0_1_n_n.rhsIdx i q 0).val = (q ⟨0, by decide⟩).val :=
  Cert.ReferenceIdeal.dot_S8192x512_S512x32_S8192x32_1_0_0_1_n_n.rhsIdx_val_of_single rfl i q
theorem rhs_ref_1 (i : Cert.ReferenceIdeal.S8192x32.Idx) (q : Cert.ReferenceIdeal.dot_S8192x512_S512x32_S8192x32_1_0_0_1_n_n.contr.Idx) :
    (Cert.ReferenceIdeal.dot_S8192x512_S512x32_S8192x32_1_0_0_1_n_n.rhsIdx i q 1).val = (i 1).val := by
  unfold DotDims.rhsIdx
  rw [dif_neg (show ¬(1 : Fin Cert.ReferenceIdeal.S512x32.rank) ∈ Cert.ReferenceIdeal.dot_S8192x512_S512x32_S8192x32_1_0_0_1_n_n.rhsBatch by decide), dif_pos (show (1 : Fin Cert.ReferenceIdeal.S512x32.rank) ∈ Cert.ReferenceIdeal.dot_S8192x512_S512x32_S8192x32_1_0_0_1_n_n.rhsNonContracting by decide)]
  rfl

/-- The whole product, as the host's dot_general computes it from the two arrays. -/
abbrev hostProd (X : FVec Ideal S8192x512 .f32) (W : FVec Ideal S512x32 .f32) : FVec Ideal S8192x32 .f32 :=
  (Host.dotGeneral (F := Ideal) (φ₁ := .f32) (φ₂ := .f32) Cert.ReferenceIdeal.dot_S8192x512_S512x32_S8192x32_1_0_0_1_n_n none X W : FVec Ideal S8192x32 .f32)

/-- Entry (r, q) of the host's product is the sum over the contracted axis of X-row r times W-column q. -/
theorem ref_apply (X : FVec Ideal S8192x512 .f32) (W : FVec Ideal S512x32 .f32) (r : Fin 8192) (q : Fin 32) :
    hostProd X W (ValueIdx.ix2 r q) = ∑ k : Fin 512, X (ValueIdx.ix2 r k) * W (ValueIdx.ix2 k q) := by
  unfold hostProd
  simp only [Host.dotGeneral]
  refine (Ideal.dotGeneral_apply Cert.ReferenceIdeal.dot_S8192x512_S512x32_S8192x32_1_0_0_1_n_n none _ _ _ (ValueIdx.ix2 r q)).trans ?_
  rw [← Equiv.sum_comp (ValueIdx.contrEquiv1 Cert.ReferenceIdeal.dot_S8192x512_S512x32_S8192x32_1_0_0_1_n_n 512 rfl rfl).symm]
  refine Finset.sum_congr rfl fun k _ => ?_
  have hk := ValueIdx.contrEquiv1_symm_val Cert.ReferenceIdeal.dot_S8192x512_S512x32_S8192x32_1_0_0_1_n_n 512 rfl rfl k
  have el : Cert.ReferenceIdeal.dot_S8192x512_S512x32_S8192x32_1_0_0_1_n_n.lhsIdx (ValueIdx.ix2 r q) ((ValueIdx.contrEquiv1 Cert.ReferenceIdeal.dot_S8192x512_S512x32_S8192x32_1_0_0_1_n_n 512 rfl rfl).symm k) = ValueIdx.ix2 r k := funext fun a => Fin.ext (by
    match a with
    | ⟨0, _⟩ => exact lhs_ref_0 _ _
    | ⟨1, _⟩ => exact (lhs_ref_1 _ _).trans hk)
  have er : Cert.ReferenceIdeal.dot_S8192x512_S512x32_S8192x32_1_0_0_1_n_n.rhsIdx (ValueIdx.ix2 r q) ((ValueIdx.contrEquiv1 Cert.ReferenceIdeal.dot_S8192x512_S512x32_S8192x32_1_0_0_1_n_n 512 rfl rfl).symm k) = ValueIdx.ix2 k q := funext fun a => Fin.ext (by
    match a with
    | ⟨0, _⟩ => exact (rhs_ref_0 _ _).trans hk
    | ⟨1, _⟩ => exact rhs_ref_1 _ _)
  rw [el, er]

/-! ### From blocks to the array -/

/-- One entry of one block: if row p of x is row r of X and w is W, the payload at (p, q) is the host's product at (r, q):
    the same sum, term by term. -/
theorem block_entry (X : FVec Ideal S8192x512 .f32) (W : FVec Ideal S512x32 .f32) (x : Vec Ideal S1024x512 .f32) (w : Vec Ideal S512x32 .f32)
    (p : Fin 1024) (q : Fin 32) (r : Fin 8192)
    (hx : ∀ k : Fin 512, x (ValueIdx.ix2 p k) = X (ValueIdx.ix2 r k))
    (hw : ∀ k : Fin 512, w (ValueIdx.ix2 k q) = W (ValueIdx.ix2 k q)) :
    k0_pay1 (F := Ideal) x w (ValueIdx.ix2 p q) = hostProd X W (ValueIdx.ix2 r q) := by
  refine (pay_apply x w p q).trans (Eq.trans ?_ (ref_apply X W r q).symm)
  exact Finset.sum_congr rfl fun k _ => by rw [hx k, hw k]

/-- The printed index maps over the grid: point t takes row block t of X and of the product, and the whole of W. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Window 0's block at point t is rows 1024·t … 1024·t + 1023 of X. -/
theorem rows_apply (c : Dev nD) (t : Fin cfg0.N) (p : Fin 1024) (k : Fin 512) (r : Fin 8192) (hr : r.val = t.val * 1024 + p.val) :
    (blk V c 0 t : Vec Ideal S1024x512 .f32) (ValueIdx.ix2 p k) = (V c main_arg0 : FVec Ideal S8192x512 .f32) (ValueIdx.ix2 r k) := by
  obtain ⟨e0, e1, -, -, -, -⟩ := idx_facts t
  show V c main_arg0 (((cfg0.win 0).blk t).view.emb (ValueIdx.ix2 p k)) = V c main_arg0 (ValueIdx.ix2 r k)
  refine congrArg (V c main_arg0) (funext fun a => Fin.ext ?_)
  match a with
  | ⟨0, _⟩ => show win0_0.index t (0 : Fin 2) * 1024 + 1 * p.val = r.val; omega
  | ⟨1, _⟩ => show win0_0.index t (1 : Fin 2) * 512 + 1 * k.val = k.val; omega

/-- Window 1's block at every point is the whole of W. -/
theorem weights_apply (c : Dev nD) (t : Fin cfg0.N) (k : Fin 512) (q : Fin 32) :
    (blk V c 1 t : Vec Ideal S512x32 .f32) (ValueIdx.ix2 k q) = (V c main_arg4 : FVec Ideal S512x32 .f32) (ValueIdx.ix2 k q) := by
  obtain ⟨-, -, e2, e3, -, -⟩ := idx_facts t
  show V c main_arg4 (((cfg0.win 1).blk t).view.emb (ValueIdx.ix2 k q)) = V c main_arg4 (ValueIdx.ix2 k q)
  refine congrArg (V c main_arg4) (funext fun a => Fin.ext ?_)
  match a with
  | ⟨0, _⟩ => show win0_1.index t (0 : Fin 2) * 512 + 1 * k.val = k.val; omega
  | ⟨1, _⟩ => show win0_1.index t (1 : Fin 2) * 32 + 1 * q.val = q.val; omega

/-- What point t writes back is block t of the host's product. -/
theorem flushed_eq (c : Dev nD) (t : Fin cfg0.N) :
    (dat (F := Ideal) V c).flushed 2 t = ((cfg0.win 2).blk t).view.read (Elt Ideal) (hostProd (V c main_arg0) (V c main_arg4)) := by
  show (cfg0.win 2).cut (grid0.coords t) ((dat (F := Ideal) V c).after 2 t) = _
  rw [after_out]
  unfold outBlock
  rw [View.canon_unit_zero hz]
  simp only [View.ld_unit_zero (S := S1024x512) hz, View.ld_unit_zero (S := S512x32) hz]
  obtain ⟨-, -, -, -, e4, e5⟩ := idx_facts t
  have ht : t.val < 8 := Nat.lt_of_lt_of_eq t.isLt N_0
  funext y
  have hy0 : (y 0).val < 1024 := (y 0).isLt
  have hy1 : (y 1).val < 32 := (y 1).isLt
  have hL : ∀ P : Vec Ideal S1024x32 .f32, (cfg0.win 2).cut (grid0.coords t) P y = P (ValueIdx.ix2 (⟨(y 0).val, hy0⟩ : Fin 1024) (⟨(y 1).val, hy1⟩ : Fin 32)) :=
    fun P => congrArg P (funext fun a => by match a with | ⟨0, _⟩ => rfl | ⟨1, _⟩ => rfl)
  have hR : ∀ G : FVec Ideal S8192x32 .f32, ((cfg0.win 2).blk t).view.read (Elt Ideal) G y = G (ValueIdx.ix2 (⟨t.val * 1024 + (y 0).val, by omega⟩ : Fin 8192) (⟨(y 1).val, hy1⟩ : Fin 32)) :=
    fun G => congrArg G (funext fun a => Fin.ext (by
      match a with
      | ⟨0, _⟩ => show win0_2.index t (0 : Fin 2) * 1024 + 1 * (y 0).val = t.val * 1024 + (y 0).val; omega
      | ⟨1, _⟩ => show win0_2.index t (1 : Fin 2) * 32 + 1 * (y 1).val = (y 1).val; omega))
  refine (hL _).trans (Eq.trans ?_ (hR _).symm)
  refine block_entry (V c main_arg0) (V c main_arg4) (blk V c 0 t) (blk V c 1 t) _ _ _ ?_ ?_
  · intro k
    exact rows_apply V c t _ k _ rfl
  · intro k
    exact weights_apply V c t k _

/-- An index of the array is in point t's block iff each coordinate is in the block's range on its axis. -/
theorem mem_blk (t : Fin cfg0.N) (i : S8192x32.Idx) :
    i ∈ ((cfg0.win 2).blk t).view.set ↔ ∀ a : Fin 2, win0_2.index t a * S1024x32.size a ≤ (i a).val ∧ (i a).val < win0_2.index t a * S1024x32.size a + S1024x32.size a := by
  show i ∈ ((View.whole main_v0).slice (win0_2.rect t)).set ↔ _
  rw [View.set_slice_whole, Rect.mem_set_unit]
  exact Iff.rfl

/-- Row r of the array is in the block of point r / 1024. -/
theorem cover (i : S8192x32.Idx) : ∃ t : Fin cfg0.N, (cfg0.win 2).flush t = true ∧ i ∈ ((cfg0.win 2).blk t).view.set := by
  have hi0 : (i 0).val < 8192 := (i 0).isLt
  have hi1 : (i 1).val < 32 := (i 1).isLt
  have hN : cfg0.N = 8 := N_0
  obtain ⟨t, htv⟩ : ∃ t : Fin cfg0.N, t.val = (i 0).val / 1024 := ⟨⟨(i 0).val / 1024, by rw [hN]; omega⟩, rfl⟩
  obtain ⟨-, -, -, -, e4, e5⟩ := idx_facts t
  refine ⟨t, flush0_2 t, ?_⟩
  rw [mem_blk]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 32 ≤ (i 1).val ∧ (i 1).val < win0_2.index t (1 : Fin 2) * 32 + 32; omega

/-- The eight blocks tile the array, and each is its block of the host's product: the array after the region is the host's. -/
theorem out_array (c : Dev nD) :
    (dat (F := Ideal) V c).arrAt 2 cfg0.N = (Host.dotGeneral (F := Ideal) (φ₁ := .f32) (φ₂ := .f32) Cert.ReferenceIdeal.dot_S8192x512_S512x32_S8192x32_1_0_0_1_n_n none (V c main_arg0) (V c main_arg4) : FVec Ideal S8192x32 .f32) :=
  (dat (F := Ideal) V c).arrAt_eq_of_cover 2 (hostProd (V c main_arg0) (V c main_arg4)) (fun t _ => flushed_eq V c t) cover

end Cert.KernelIdeal.Proj

end
-- ==== Proof.KiMeanValue.lean ====
/-
  The second projection's region leaves the whole product in its output array.  Point t writes rows
  1024·t … 1024·t + 1023, each entry the sum over the 32 columns of hidden-row times W1-column (the body's
  matmul into a zero accumulator; changes of float format are the identity on the extended reals); the eight
  blocks tile the 8192 rows, so the array after the region is hidden · W1 as the host's dot_general computes it.
-/
import proofs.«160601_j31671088840936_1_alg».proof.Proof.KiMean
import proofs.«160601_j31671088840936_1_alg».proof.Proof.Gen.ReferenceIdeal
import Idealize.ShloMosaic.PureOps.Ideal
import Idealize.ShloMosaic.PureOps.Ideal.Laws
import Idealize.ShloMosaic.Lib.Pipeline.Value
import Idealize.ShloMosaic.Lib.ValueIdx

set_option maxRecDepth 16384

noncomputable section

namespace Cert.KernelIdeal.Mean

open Idealize.ShloMosaic Idealize.ShloMosaic.TcCoe
open Idealize.SL Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => match a with | ⟨0, _⟩ => rfl | ⟨1, _⟩ => rfl

/-! ### The body's matrix product at an index -/

theorem lhs_mm_0 (i : S1024x16.Idx) (q : dot_S1024x32_S32x16_S1024x16_1_0_0_1_n_n.contr.Idx) :
    (dot_S1024x32_S32x16_S1024x16_1_0_0_1_n_n.lhsIdx i q 0).val = (i 0).val := by
  unfold DotDims.lhsIdx
  rw [dif_neg (show ¬(0 : Fin S1024x32.rank) ∈ dot_S1024x32_S32x16_S1024x16_1_0_0_1_n_n.lhsBatch by decide), dif_pos (show (0 : Fin S1024x32.rank) ∈ dot_S1024x32_S32x16_S1024x16_1_0_0_1_n_n.lhsNonContracting by decide)]
  rfl
theorem lhs_mm_1 (i : S1024x16.Idx) (q : dot_S1024x32_S32x16_S1024x16_1_0_0_1_n_n.contr.Idx) :
    (dot_S1024x32_S32x16_S1024x16_1_0_0_1_n_n.lhsIdx i q 1).val = (q ⟨0, by decide⟩).val :=
  dot_S1024x32_S32x16_S1024x16_1_0_0_1_n_n.lhsIdx_val_of_single rfl i q
theorem rhs_mm_0 (i : S1024x16.Idx) (q : dot_S1024x32_S32x16_S1024x16_1_0_0_1_n_n.contr.Idx) :
    (dot_S1024x32_S32x16_S1024x16_1_0_0_1_n_n.rhsIdx i q 0).val = (q ⟨0, by decide⟩).val :=
  dot_S1024x32_S32x16_S1024x16_1_0_0_1_n_n.rhsIdx_val_of_single rfl i q
theorem rhs_mm_1 (i : S1024x16.Idx) (q : dot_S1024x32_S32x16_S1024x16_1_0_0_1_n_n.contr.Idx) :
    (dot_S1024x32_S32x16_S1024x16_1_0_0_1_n_n.rhsIdx i q 1).val = (i 1).val := by
  unfold DotDims.rhsIdx
  rw [dif_neg (show ¬(1 : Fin S32x16.rank) ∈ dot_S1024x32_S32x16_S1024x16_1_0_0_1_n_n.rhsBatch by decide), dif_pos (show (1 : Fin S32x16.rank) ∈ dot_S1024x32_S32x16_S1024x16_1_0_0_1_n_n.rhsNonContracting by decide)]
  rfl

/-- Entry (p, q) of the body's payload is the sum over the contracted axis of x-row p times w-column q: the matmul
    starts from a zero accumulator, and the changes of float format are the identity on the extended reals. -/
theorem pay_apply (x : Vec Ideal S1024x32 .f32) (w : Vec Ideal S32x16 .f32) (p : Fin 1024) (q : Fin 16) :
    k1_pay1 (F := Ideal) x w (ValueIdx.ix2 p q) = ∑ k : Fin 32, x (ValueIdx.ix2 p k) * w (ValueIdx.ix2 k q) := by
  unfold k1_pay1
  try simp only [shapeCast_self]
  refine (Ideal.matmul_constant_zero_apply dot_S1024x32_S32x16_S1024x16_1_0_0_1_n_n none _ _ (ValueIdx.ix2 p q)).trans ?_
  rw [← Equiv.sum_comp (ValueIdx.contrEquiv1 dot_S1024x32_S32x16_S1024x16_1_0_0_1_n_n 32 rfl rfl).symm]
  refine Finset.sum_congr rfl fun k _ => ?_
  have hk := ValueIdx.contrEquiv1_symm_val dot_S1024x32_S32x16_S1024x16_1_0_0_1_n_n 32 rfl rfl k
  have el : dot_S1024x32_S32x16_S1024x16_1_0_0_1_n_n.lhsIdx (ValueIdx.ix2 p q) ((ValueIdx.contrEquiv1 dot_S1024x32_S32x16_S1024x16_1_0_0_1_n_n 32 rfl rfl).symm k) = ValueIdx.ix2 p k := funext fun a => Fin.ext (by
    match a with
    | ⟨0, _⟩ => exact lhs_mm_0 _ _
    | ⟨1, _⟩ => exact (lhs_mm_1 _ _).trans hk)
  have er : dot_S1024x32_S32x16_S1024x16_1_0_0_1_n_n.rhsIdx (ValueIdx.ix2 p q) ((ValueIdx.contrEquiv1 dot_S1024x32_S32x16_S1024x16_1_0_0_1_n_n 32 rfl rfl).symm k) = ValueIdx.ix2 k q := funext fun a => Fin.ext (by
    match a with
    | ⟨0, _⟩ => exact (rhs_mm_0 _ _).trans hk
    | ⟨1, _⟩ => exact rhs_mm_1 _ _)
  rw [el, er]
  rfl

/-! ### The host's product at an index -/

theorem lhs_ref_0 (i : Cert.ReferenceIdeal.S8192x16.Idx) (q : Cert.ReferenceIdeal.dot_S8192x32_S32x16_S8192x16_1_0_0_1_n_n.contr.Idx) :
    (Cert.ReferenceIdeal.dot_S8192x32_S32x16_S8192x16_1_0_0_1_n_n.lhsIdx i q 0).val = (i 0).val := by
  unfold DotDims.lhsIdx
  rw [dif_neg (show ¬(0 : Fin Cert.ReferenceIdeal.S8192x32.rank) ∈ Cert.ReferenceIdeal.dot_S8192x32_S32x16_S8192x16_1_0_0_1_n_n.lhsBatch by decide), dif_pos (show (0 : Fin Cert.ReferenceIdeal.S8192x32.rank) ∈ Cert.ReferenceIdeal.dot_S8192x32_S32x16_S8192x16_1_0_0_1_n_n.lhsNonContracting by decide)]
  rfl
theorem lhs_ref_1 (i : Cert.ReferenceIdeal.S8192x16.Idx) (q : Cert.ReferenceIdeal.dot_S8192x32_S32x16_S8192x16_1_0_0_1_n_n.contr.Idx) :
    (Cert.ReferenceIdeal.dot_S8192x32_S32x16_S8192x16_1_0_0_1_n_n.lhsIdx i q 1).val = (q ⟨0, by decide⟩).val :=
  Cert.ReferenceIdeal.dot_S8192x32_S32x16_S8192x16_1_0_0_1_n_n.lhsIdx_val_of_single rfl i q
theorem rhs_ref_0 (i : Cert.ReferenceIdeal.S8192x16.Idx) (q : Cert.ReferenceIdeal.dot_S8192x32_S32x16_S8192x16_1_0_0_1_n_n.contr.Idx) :
    (Cert.ReferenceIdeal.dot_S8192x32_S32x16_S8192x16_1_0_0_1_n_n.rhsIdx i q 0).val = (q ⟨0, by decide⟩).val :=
  Cert.ReferenceIdeal.dot_S8192x32_S32x16_S8192x16_1_0_0_1_n_n.rhsIdx_val_of_single rfl i q
theorem rhs_ref_1 (i : Cert.ReferenceIdeal.S8192x16.Idx) (q : Cert.ReferenceIdeal.dot_S8192x32_S32x16_S8192x16_1_0_0_1_n_n.contr.Idx) :
    (Cert.ReferenceIdeal.dot_S8192x32_S32x16_S8192x16_1_0_0_1_n_n.rhsIdx i q 1).val = (i 1).val := by
  unfold DotDims.rhsIdx
  rw [dif_neg (show ¬(1 : Fin Cert.ReferenceIdeal.S32x16.rank) ∈ Cert.ReferenceIdeal.dot_S8192x32_S32x16_S8192x16_1_0_0_1_n_n.rhsBatch by decide), dif_pos (show (1 : Fin Cert.ReferenceIdeal.S32x16.rank) ∈ Cert.ReferenceIdeal.dot_S8192x32_S32x16_S8192x16_1_0_0_1_n_n.rhsNonContracting by decide)]
  rfl

/-- The whole product, as the host's dot_general computes it from the two arrays. -/
abbrev hostProd (X : FVec Ideal S8192x32 .f32) (W : FVec Ideal S32x16 .f32) : FVec Ideal S8192x16 .f32 :=
  (Host.dotGeneral (F := Ideal) (φ₁ := .f32) (φ₂ := .f32) Cert.ReferenceIdeal.dot_S8192x32_S32x16_S8192x16_1_0_0_1_n_n none X W : FVec Ideal S8192x16 .f32)

/-- Entry (r, q) of the host's product is the sum over the contracted axis of hidden-row r times W-column q. -/
theorem ref_apply (X : FVec Ideal S8192x32 .f32) (W : FVec Ideal S32x16 .f32) (r : Fin 8192) (q : Fin 16) :
    hostProd X W (ValueIdx.ix2 r q) = ∑ k : Fin 32, X (ValueIdx.ix2 r k) * W (ValueIdx.ix2 k q) := by
  unfold hostProd
  simp only [Host.dotGeneral]
  refine (Ideal.dotGeneral_apply Cert.ReferenceIdeal.dot_S8192x32_S32x16_S8192x16_1_0_0_1_n_n none _ _ _ (ValueIdx.ix2 r q)).trans ?_
  rw [← Equiv.sum_comp (ValueIdx.contrEquiv1 Cert.ReferenceIdeal.dot_S8192x32_S32x16_S8192x16_1_0_0_1_n_n 32 rfl rfl).symm]
  refine Finset.sum_congr rfl fun k _ => ?_
  have hk := ValueIdx.contrEquiv1_symm_val Cert.ReferenceIdeal.dot_S8192x32_S32x16_S8192x16_1_0_0_1_n_n 32 rfl rfl k
  have el : Cert.ReferenceIdeal.dot_S8192x32_S32x16_S8192x16_1_0_0_1_n_n.lhsIdx (ValueIdx.ix2 r q) ((ValueIdx.contrEquiv1 Cert.ReferenceIdeal.dot_S8192x32_S32x16_S8192x16_1_0_0_1_n_n 32 rfl rfl).symm k) = ValueIdx.ix2 r k := funext fun a => Fin.ext (by
    match a with
    | ⟨0, _⟩ => exact lhs_ref_0 _ _
    | ⟨1, _⟩ => exact (lhs_ref_1 _ _).trans hk)
  have er : Cert.ReferenceIdeal.dot_S8192x32_S32x16_S8192x16_1_0_0_1_n_n.rhsIdx (ValueIdx.ix2 r q) ((ValueIdx.contrEquiv1 Cert.ReferenceIdeal.dot_S8192x32_S32x16_S8192x16_1_0_0_1_n_n 32 rfl rfl).symm k) = ValueIdx.ix2 k q := funext fun a => Fin.ext (by
    match a with
    | ⟨0, _⟩ => exact (rhs_ref_0 _ _).trans hk
    | ⟨1, _⟩ => exact rhs_ref_1 _ _)
  rw [el, er]

/-! ### From blocks to the array -/

/-- One entry of one block: if row p of x is row r of X and w is W, the payload at (p, q) is the host's product at (r, q):
    the same sum, term by term. -/
theorem block_entry (X : FVec Ideal S8192x32 .f32) (W : FVec Ideal S32x16 .f32) (x : Vec Ideal S1024x32 .f32) (w : Vec Ideal S32x16 .f32)
    (p : Fin 1024) (q : Fin 16) (r : Fin 8192)
    (hx : ∀ k : Fin 32, x (ValueIdx.ix2 p k) = X (ValueIdx.ix2 r k))
    (hw : ∀ k : Fin 32, w (ValueIdx.ix2 k q) = W (ValueIdx.ix2 k q)) :
    k1_pay1 (F := Ideal) x w (ValueIdx.ix2 p q) = hostProd X W (ValueIdx.ix2 r q) := by
  refine (pay_apply x w p q).trans (Eq.trans ?_ (ref_apply X W r q).symm)
  exact Finset.sum_congr rfl fun k _ => by rw [hx k, hw k]

/-- The printed index maps over the grid: point t takes row block t of X and of the product, and the whole of W. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Window 0's block at point t is rows 1024·t … 1024·t + 1023 of X. -/
theorem rows_apply (c : Dev nD) (t : Fin cfg1.N) (p : Fin 1024) (k : Fin 32) (r : Fin 8192) (hr : r.val = t.val * 1024 + p.val) :
    (blk V c 0 t : Vec Ideal S1024x32 .f32) (ValueIdx.ix2 p k) = (V c main_v14 : FVec Ideal S8192x32 .f32) (ValueIdx.ix2 r k) := by
  obtain ⟨e0, e1, -, -, -, -⟩ := idx_facts t
  show V c main_v14 (((cfg1.win 0).blk t).view.emb (ValueIdx.ix2 p k)) = V c main_v14 (ValueIdx.ix2 r k)
  refine congrArg (V c main_v14) (funext fun a => Fin.ext ?_)
  match a with
  | ⟨0, _⟩ => show win1_0.index t (0 : Fin 2) * 1024 + 1 * p.val = r.val; omega
  | ⟨1, _⟩ => show win1_0.index t (1 : Fin 2) * 32 + 1 * k.val = k.val; omega

/-- Window 1's block at every point is the whole of W. -/
theorem weights_apply (c : Dev nD) (t : Fin cfg1.N) (k : Fin 32) (q : Fin 16) :
    (blk V c 1 t : Vec Ideal S32x16 .f32) (ValueIdx.ix2 k q) = (V c main_arg5 : FVec Ideal S32x16 .f32) (ValueIdx.ix2 k q) := by
  obtain ⟨-, -, e2, e3, -, -⟩ := idx_facts t
  show V c main_arg5 (((cfg1.win 1).blk t).view.emb (ValueIdx.ix2 k q)) = V c main_arg5 (ValueIdx.ix2 k q)
  refine congrArg (V c main_arg5) (funext fun a => Fin.ext ?_)
  match a with
  | ⟨0, _⟩ => show win1_1.index t (0 : Fin 2) * 32 + 1 * k.val = k.val; omega
  | ⟨1, _⟩ => show win1_1.index t (1 : Fin 2) * 16 + 1 * q.val = q.val; omega

/-- What point t writes back is block t of the host's product. -/
theorem flushed_eq (c : Dev nD) (t : Fin cfg1.N) :
    (dat (F := Ideal) V c).flushed 2 t = ((cfg1.win 2).blk t).view.read (Elt Ideal) (hostProd (V c main_v14) (V c main_arg5)) := by
  show (cfg1.win 2).cut (grid1.coords t) ((dat (F := Ideal) V c).after 2 t) = _
  rw [after_out]
  unfold outBlock
  rw [View.canon_unit_zero hz]
  simp only [View.ld_unit_zero (S := S1024x32) hz, View.ld_unit_zero (S := S32x16) hz]
  obtain ⟨-, -, -, -, e4, e5⟩ := idx_facts t
  have ht : t.val < 8 := Nat.lt_of_lt_of_eq t.isLt N_1
  funext y
  have hy0 : (y 0).val < 1024 := (y 0).isLt
  have hy1 : (y 1).val < 16 := (y 1).isLt
  have hL : ∀ P : Vec Ideal S1024x16 .f32, (cfg1.win 2).cut (grid1.coords t) P y = P (ValueIdx.ix2 (⟨(y 0).val, hy0⟩ : Fin 1024) (⟨(y 1).val, hy1⟩ : Fin 16)) :=
    fun P => congrArg P (funext fun a => by match a with | ⟨0, _⟩ => rfl | ⟨1, _⟩ => rfl)
  have hR : ∀ G : FVec Ideal S8192x16 .f32, ((cfg1.win 2).blk t).view.read (Elt Ideal) G y = G (ValueIdx.ix2 (⟨t.val * 1024 + (y 0).val, by omega⟩ : Fin 8192) (⟨(y 1).val, hy1⟩ : Fin 16)) :=
    fun G => congrArg G (funext fun a => Fin.ext (by
      match a with
      | ⟨0, _⟩ => show win1_2.index t (0 : Fin 2) * 1024 + 1 * (y 0).val = t.val * 1024 + (y 0).val; omega
      | ⟨1, _⟩ => show win1_2.index t (1 : Fin 2) * 16 + 1 * (y 1).val = (y 1).val; omega))
  refine (hL _).trans (Eq.trans ?_ (hR _).symm)
  refine block_entry (V c main_v14) (V c main_arg5) (blk V c 0 t) (blk V c 1 t) _ _ _ ?_ ?_
  · intro k
    exact rows_apply V c t _ k _ rfl
  · intro k
    exact weights_apply V c t k _

/-- An index of the array is in point t's block iff each coordinate is in the block's range on its axis. -/
theorem mem_blk (t : Fin cfg1.N) (i : S8192x16.Idx) :
    i ∈ ((cfg1.win 2).blk t).view.set ↔ ∀ a : Fin 2, win1_2.index t a * S1024x16.size a ≤ (i a).val ∧ (i a).val < win1_2.index t a * S1024x16.size a + S1024x16.size a := by
  show i ∈ ((View.whole main_v15).slice (win1_2.rect t)).set ↔ _
  rw [View.set_slice_whole, Rect.mem_set_unit]
  exact Iff.rfl

/-- Row r of the array is in the block of point r / 1024. -/
theorem cover (i : S8192x16.Idx) : ∃ t : Fin cfg1.N, (cfg1.win 2).flush t = true ∧ i ∈ ((cfg1.win 2).blk t).view.set := by
  have hi0 : (i 0).val < 8192 := (i 0).isLt
  have hi1 : (i 1).val < 16 := (i 1).isLt
  have hN : cfg1.N = 8 := N_1
  obtain ⟨t, htv⟩ : ∃ t : Fin cfg1.N, t.val = (i 0).val / 1024 := ⟨⟨(i 0).val / 1024, by rw [hN]; omega⟩, rfl⟩
  obtain ⟨-, -, -, -, e4, e5⟩ := idx_facts t
  refine ⟨t, flush1_2 t, ?_⟩
  rw [mem_blk]
  intro a
  match a with
  | ⟨0, _⟩ => show win1_2.index t (0 : Fin 2) * 1024 ≤ (i 0).val ∧ (i 0).val < win1_2.index t (0 : Fin 2) * 1024 + 1024; omega
  | ⟨1, _⟩ => show win1_2.index t (1 : Fin 2) * 16 ≤ (i 1).val ∧ (i 1).val < win1_2.index t (1 : Fin 2) * 16 + 16; omega

/-- The eight blocks tile the array, and each is its block of the host's product: the array after the region is the host's. -/
theorem out_array (c : Dev nD) :
    (dat (F := Ideal) V c).arrAt 2 cfg1.N = (Host.dotGeneral (F := Ideal) (φ₁ := .f32) (φ₂ := .f32) Cert.ReferenceIdeal.dot_S8192x32_S32x16_S8192x16_1_0_0_1_n_n none (V c main_v14) (V c main_arg5) : FVec Ideal S8192x16 .f32) :=
  (dat (F := Ideal) V c).arrAt_eq_of_cover 2 (hostProd (V c main_v14) (V c main_arg5)) (fun t _ => flushed_eq V c t) cover

end Cert.KernelIdeal.Mean

end
-- ==== Proof.KiDecodeValue.lean ====
/-
  The decoder's region leaves sigmoid(Z · Zᵀ) in its output array.  Point t writes rows 128·t … 128·t + 127,
  entry (i, j) the logistic function of the sum over the 16 columns of Z-row i times Z-row j (the body's matmul
  contracts axis 1 of both operands, into a zero accumulator); the sixty-four blocks tile the 8192 rows.  On
  the extended reals the logistic function IS 1 / (1 + exp (−x)), and contracting Z's axis 1 with Z's axis 1 is
  contracting it with axis 0 of the transpose: the array after the region is the host's
  1 / (1 + exp (−(Z · transpose Z))).
-/
import proofs.«160601_j31671088840936_1_alg».proof.Proof.KiDecode
import proofs.«160601_j31671088840936_1_alg».proof.Proof.Gen.ReferenceIdeal
import Idealize.ShloMosaic.PureOps.Ideal
import Idealize.ShloMosaic.PureOps.Ideal.Laws
import Idealize.ShloMosaic.Lib.Pipeline.Value
import Idealize.ShloMosaic.Lib.ValueIdx

set_option maxRecDepth 16384

noncomputable section

namespace Cert.KernelIdeal.Decode

open Idealize.ShloMosaic Idealize.ShloMosaic.TcCoe
open Idealize.SL Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => match a with | ⟨0, _⟩ => rfl | ⟨1, _⟩ => rfl

/-! ### The kernel's matrix product at an index -/

theorem lhs_mm_0 (i : S128x8192.Idx) (q : dot_S128x16_S8192x16_S128x8192_1_1_0_0_n_n.contr.Idx) :
    (dot_S128x16_S8192x16_S128x8192_1_1_0_0_n_n.lhsIdx i q 0).val = (i 0).val := by
  unfold DotDims.lhsIdx
  rw [dif_neg (show ¬(0 : Fin S128x16.rank) ∈ dot_S128x16_S8192x16_S128x8192_1_1_0_0_n_n.lhsBatch by decide), dif_pos (show (0 : Fin S128x16.rank) ∈ dot_S128x16_S8192x16_S128x8192_1_1_0_0_n_n.lhsNonContracting by decide)]
  rfl
theorem lhs_mm_1 (i : S128x8192.Idx) (q : dot_S128x16_S8192x16_S128x8192_1_1_0_0_n_n.contr.Idx) :
    (dot_S128x16_S8192x16_S128x8192_1_1_0_0_n_n.lhsIdx i q 1).val = (q ⟨0, by decide⟩).val :=
  dot_S128x16_S8192x16_S128x8192_1_1_0_0_n_n.lhsIdx_val_of_single rfl i q
theorem rhs_mm_0 (i : S128x8192.Idx) (q : dot_S128x16_S8192x16_S128x8192_1_1_0_0_n_n.contr.Idx) :
    (dot_S128x16_S8192x16_S128x8192_1_1_0_0_n_n.rhsIdx i q 0).val = (i 1).val := by
  unfold DotDims.rhsIdx
  rw [dif_neg (show ¬(0 : Fin S8192x16.rank) ∈ dot_S128x16_S8192x16_S128x8192_1_1_0_0_n_n.rhsBatch by decide), dif_pos (show (0 : Fin S8192x16.rank) ∈ dot_S128x16_S8192x16_S128x8192_1_1_0_0_n_n.rhsNonContracting by decide)]
  rfl
theorem rhs_mm_1 (i : S128x8192.Idx) (q : dot_S128x16_S8192x16_S128x8192_1_1_0_0_n_n.contr.Idx) :
    (dot_S128x16_S8192x16_S128x8192_1_1_0_0_n_n.rhsIdx i q 1).val = (q ⟨0, by decide⟩).val :=
  dot_S128x16_S8192x16_S128x8192_1_1_0_0_n_n.rhsIdx_val_of_single rfl i q

/-- The body's payload at row p, column q of the block: the logistic function of the sum over the sixteen
    columns of row p of the row block times row q of the whole. -/
theorem pay_apply (x : Vec Ideal S128x16 .f32) (w : Vec Ideal S8192x16 .f32) (p : Fin 128) (q : Fin 8192) :
    k2_pay1 (F := Ideal) x w (ValueIdx.ix2 p q) = Ideal.logistic (∑ k : Fin 16, x (ValueIdx.ix2 p k) * w (ValueIdx.ix2 q k)) := by
  unfold k2_pay1
  simp only [shapeCast_self]
  refine congrArg Ideal.logistic ?_
  refine (Ideal.matmul_constant_zero_apply dot_S128x16_S8192x16_S128x8192_1_1_0_0_n_n none _ _ _).trans ?_
  rw [← Equiv.sum_comp (ValueIdx.contrEquiv1 dot_S128x16_S8192x16_S128x8192_1_1_0_0_n_n 16 rfl rfl).symm]
  refine Finset.sum_congr rfl fun k _ => ?_
  have hk := ValueIdx.contrEquiv1_symm_val dot_S128x16_S8192x16_S128x8192_1_1_0_0_n_n 16 rfl rfl k
  have el : dot_S128x16_S8192x16_S128x8192_1_1_0_0_n_n.lhsIdx (ValueIdx.ix2 p q) ((ValueIdx.contrEquiv1 dot_S128x16_S8192x16_S128x8192_1_1_0_0_n_n 16 rfl rfl).symm k) = ValueIdx.ix2 p k := funext fun a => Fin.ext (by
    match a with
    | ⟨0, _⟩ => exact lhs_mm_0 _ _
    | ⟨1, _⟩ => exact (lhs_mm_1 _ _).trans hk)
  have er : dot_S128x16_S8192x16_S128x8192_1_1_0_0_n_n.rhsIdx (ValueIdx.ix2 p q) ((ValueIdx.contrEquiv1 dot_S128x16_S8192x16_S128x8192_1_1_0_0_n_n 16 rfl rfl).symm k) = ValueIdx.ix2 q k := funext fun a => Fin.ext (by
    match a with
    | ⟨0, _⟩ => exact rhs_mm_0 _ _
    | ⟨1, _⟩ => exact (rhs_mm_1 _ _).trans hk)
  rw [el, er]
  rfl

/-! ### The reference's matrix product at an index -/

theorem lhs_ref_0 (i : Cert.ReferenceIdeal.S8192x8192.Idx) (q : Cert.ReferenceIdeal.dot_S8192x16_S16x8192_S8192x8192_1_0_0_1_n_n.contr.Idx) :
    (Cert.ReferenceIdeal.dot_S8192x16_S16x8192_S8192x8192_1_0_0_1_n_n.lhsIdx i q 0).val = (i 0).val := by
  unfold DotDims.lhsIdx
  rw [dif_neg (show ¬(0 : Fin Cert.ReferenceIdeal.S8192x16.rank) ∈ Cert.ReferenceIdeal.dot_S8192x16_S16x8192_S8192x8192_1_0_0_1_n_n.lhsBatch by decide), dif_pos (show (0 : Fin Cert.ReferenceIdeal.S8192x16.rank) ∈ Cert.ReferenceIdeal.dot_S8192x16_S16x8192_S8192x8192_1_0_0_1_n_n.lhsNonContracting by decide)]
  rfl
theorem lhs_ref_1 (i : Cert.ReferenceIdeal.S8192x8192.Idx) (q : Cert.ReferenceIdeal.dot_S8192x16_S16x8192_S8192x8192_1_0_0_1_n_n.contr.Idx) :
    (Cert.ReferenceIdeal.dot_S8192x16_S16x8192_S8192x8192_1_0_0_1_n_n.lhsIdx i q 1).val = (q ⟨0, by decide⟩).val :=
  Cert.ReferenceIdeal.dot_S8192x16_S16x8192_S8192x8192_1_0_0_1_n_n.lhsIdx_val_of_single rfl i q
theorem rhs_ref_0 (i : Cert.ReferenceIdeal.S8192x8192.Idx) (q : Cert.ReferenceIdeal.dot_S8192x16_S16x8192_S8192x8192_1_0_0_1_n_n.contr.Idx) :
    (Cert.ReferenceIdeal.dot_S8192x16_S16x8192_S8192x8192_1_0_0_1_n_n.rhsIdx i q 0).val = (q ⟨0, by decide⟩).val :=
  Cert.ReferenceIdeal.dot_S8192x16_S16x8192_S8192x8192_1_0_0_1_n_n.rhsIdx_val_of_single rfl i q
theorem rhs_ref_1 (i : Cert.ReferenceIdeal.S8192x8192.Idx) (q : Cert.ReferenceIdeal.dot_S8192x16_S16x8192_S8192x8192_1_0_0_1_n_n.contr.Idx) :
    (Cert.ReferenceIdeal.dot_S8192x16_S16x8192_S8192x8192_1_0_0_1_n_n.rhsIdx i q 1).val = (i 1).val := by
  unfold DotDims.rhsIdx
  rw [dif_neg (show ¬(1 : Fin Cert.ReferenceIdeal.S16x8192.rank) ∈ Cert.ReferenceIdeal.dot_S8192x16_S16x8192_S8192x8192_1_0_0_1_n_n.rhsBatch by decide), dif_pos (show (1 : Fin Cert.ReferenceIdeal.S16x8192.rank) ∈ Cert.ReferenceIdeal.dot_S8192x16_S16x8192_S8192x8192_1_0_0_1_n_n.rhsNonContracting by decide)]
  rfl

/-- The word 0x3F800000 is the number one. -/
theorem ofBits_one_f32 : Ideal.ofBits .f32 0x3F800000#32 = 1 := by
  simp [Ideal.ofBits, Ideal.ieee, -EReal.coe_mul]; norm_num

/-- The transpose of Z at (k, j) is Z at (j, k). -/
theorem transpose_ix (z : FVec Ideal Cert.ReferenceIdeal.S8192x16 .f32) (k : Fin 16) (j : Fin 8192) :
    transpose (α := Ideal .f32) Cert.ReferenceIdeal.S16x8192 [1, 0] z Cert.ReferenceIdeal.Facts₀.transposes_S8192x16_S16x8192_1_0 (ValueIdx.ix2 k j) = z (ValueIdx.ix2 j k) :=
  transpose_apply [1, 0] z Cert.ReferenceIdeal.Facts₀.transposes_S8192x16_S16x8192_1_0 (ValueIdx.ix2 k j) (ValueIdx.ix2 j k) (fun b => match b with
    | ⟨0, _⟩ => rfl
    | ⟨1, _⟩ => rfl)

/-- The host's product of Z with its transpose at (i, j): the sum over the sixteen columns of row i times row j. -/
theorem gram_apply (z : FVec Ideal Cert.ReferenceIdeal.S8192x16 .f32) (i j : Fin 8192) :
    Host.dotGeneral (F := Ideal) (φ₁ := .f32) (φ₂ := .f32) Cert.ReferenceIdeal.dot_S8192x16_S16x8192_S8192x8192_1_0_0_1_n_n none z (transpose (α := Ideal .f32) Cert.ReferenceIdeal.S16x8192 [1, 0] z Cert.ReferenceIdeal.Facts₀.transposes_S8192x16_S16x8192_1_0) (ValueIdx.ix2 i j)
      = ∑ k : Fin 16, z (ValueIdx.ix2 i k) * z (ValueIdx.ix2 j k) := by
  simp only [Host.dotGeneral]
  rw [Ideal.dotGeneral_apply, ← Equiv.sum_comp (ValueIdx.contrEquiv1 Cert.ReferenceIdeal.dot_S8192x16_S16x8192_S8192x8192_1_0_0_1_n_n 16 rfl rfl).symm]
  refine Finset.sum_congr rfl fun k _ => ?_
  have hk := ValueIdx.contrEquiv1_symm_val Cert.ReferenceIdeal.dot_S8192x16_S16x8192_S8192x8192_1_0_0_1_n_n 16 rfl rfl k
  have el : Cert.ReferenceIdeal.dot_S8192x16_S16x8192_S8192x8192_1_0_0_1_n_n.lhsIdx (ValueIdx.ix2 i j) ((ValueIdx.contrEquiv1 Cert.ReferenceIdeal.dot_S8192x16_S16x8192_S8192x8192_1_0_0_1_n_n 16 rfl rfl).symm k) = ValueIdx.ix2 i k := funext fun a => Fin.ext (by
    match a with
    | ⟨0, _⟩ => exact lhs_ref_0 _ _
    | ⟨1, _⟩ => exact (lhs_ref_1 _ _).trans hk)
  have er : Cert.ReferenceIdeal.dot_S8192x16_S16x8192_S8192x8192_1_0_0_1_n_n.rhsIdx (ValueIdx.ix2 i j) ((ValueIdx.contrEquiv1 Cert.ReferenceIdeal.dot_S8192x16_S16x8192_S8192x8192_1_0_0_1_n_n 16 rfl rfl).symm k) = ValueIdx.ix2 k j := funext fun a => Fin.ext (by
    match a with
    | ⟨0, _⟩ => exact (rhs_ref_0 _ _).trans hk
    | ⟨1, _⟩ => exact rhs_ref_1 _ _)
  rw [el, er, transpose_ix]

/-- The reference's array at (i, j): the logistic function of that sum. -/
theorem ref_apply (z : FVec Ideal Cert.ReferenceIdeal.S8192x16 .f32) (i j : Fin 8192) :
    (Host.divf (F := Ideal) (broadcastInDim S8192x8192 ![] Cert.ReferenceIdeal.Facts₀.bcast_S_S8192x8192 (constant (F := Ideal) Cert.ReferenceIdeal.S_ .f32 0x3F800000#32)) (addf (broadcastInDim S8192x8192 ![] Cert.ReferenceIdeal.Facts₀.bcast_S_S8192x8192 (constant (F := Ideal) Cert.ReferenceIdeal.S_ .f32 0x3F800000#32)) (Host.exp (Host.negf (Host.dotGeneral (F := Ideal) (φ₁ := .f32) (φ₂ := .f32) Cert.ReferenceIdeal.dot_S8192x16_S16x8192_S8192x8192_1_0_0_1_n_n none z (transpose (α := Ideal .f32) Cert.ReferenceIdeal.S16x8192 [1, 0] z Cert.ReferenceIdeal.Facts₀.transposes_S8192x16_S16x8192_1_0))))) : FVec Ideal S8192x8192 .f32) (ValueIdx.ix2 i j)
      = Ideal.logistic (∑ k : Fin 16, z (ValueIdx.ix2 i k) * z (ValueIdx.ix2 j k)) := by
  have h1 : (broadcastInDim S8192x8192 ![] Cert.ReferenceIdeal.Facts₀.bcast_S_S8192x8192 (constant (F := Ideal) Cert.ReferenceIdeal.S_ .f32 0x3F800000#32) : FVec Ideal S8192x8192 .f32) (ValueIdx.ix2 i j) = 1 :=
    (broadcastInDim_apply _ Cert.ReferenceIdeal.Facts₀.bcast_S_S8192x8192 _ (ValueIdx.ix2 i j) ValueIdx.ix0 (fun a => a.elim0)).trans ofBits_one_f32
  have hd := gram_apply z i j
  show Ideal.div _ (_ + Ideal.exp (-_)) = _
  rw [h1, hd]
  rfl

/-! ### From blocks to the array -/

/-- The array the reference's operations leave, from the array Z. -/
abbrev sigGram (z : FVec Ideal Cert.ReferenceIdeal.S8192x16 .f32) : FVec Ideal S8192x8192 .f32 :=
  (Host.divf (F := Ideal) (broadcastInDim S8192x8192 ![] Cert.ReferenceIdeal.Facts₀.bcast_S_S8192x8192 (constant (F := Ideal) Cert.ReferenceIdeal.S_ .f32 0x3F800000#32)) (addf (broadcastInDim S8192x8192 ![] Cert.ReferenceIdeal.Facts₀.bcast_S_S8192x8192 (constant (F := Ideal) Cert.ReferenceIdeal.S_ .f32 0x3F800000#32)) (Host.exp (Host.negf (Host.dotGeneral (F := Ideal) (φ₁ := .f32) (φ₂ := .f32) Cert.ReferenceIdeal.dot_S8192x16_S16x8192_S8192x8192_1_0_0_1_n_n none z (transpose (α := Ideal .f32) Cert.ReferenceIdeal.S16x8192 [1, 0] z Cert.ReferenceIdeal.Facts₀.transposes_S8192x16_S16x8192_1_0))))) : FVec Ideal S8192x8192 .f32)

/-- The printed index maps over the grid: point t takes row block t of Z and of the result, and the whole of Z. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- One entry of one block: if row p of x is row r of z and row q of w is row q of z, the payload at (p, q) is the
    reference's array at (r, q). -/
theorem block_entry (z : FVec Ideal Cert.ReferenceIdeal.S8192x16 .f32) (x : Vec Ideal S128x16 .f32) (w : Vec Ideal S8192x16 .f32)
    (p : Fin 128) (q : Fin 8192) (r : Fin 8192)
    (hx : ∀ k : Fin 16, x (ValueIdx.ix2 p k) = z (ValueIdx.ix2 r k))
    (hw : ∀ k : Fin 16, w (ValueIdx.ix2 q k) = z (ValueIdx.ix2 q k)) :
    k2_pay1 (F := Ideal) x w (ValueIdx.ix2 p q) = sigGram z (ValueIdx.ix2 r q) := by
  refine (pay_apply x w p q).trans (Eq.trans ?_ (ref_apply z r q).symm)
  exact congrArg Ideal.logistic (Finset.sum_congr rfl fun k _ => by rw [hx k, hw k])

/-- Window 0's block at point t is rows 128·t … 128·t + 127 of Z. -/
theorem rows_apply (c : Dev nD) (t : Fin cfg2.N) (p : Fin 128) (k : Fin 16) (r : Fin 8192) (hr : r.val = t.val * 128 + p.val) :
    (blk V c 0 t : Vec Ideal S128x16 .f32) (ValueIdx.ix2 p k) = (V c main_v30 : FVec Ideal S8192x16 .f32) (ValueIdx.ix2 r k) := by
  obtain ⟨e0, e1, -, -, -, -⟩ := idx_facts t
  unfold blk
  rw [View.read_apply]
  show V c main_v30 (((cfg2.win 0).blk t).view.emb (ValueIdx.ix2 p k)) = V c main_v30 (ValueIdx.ix2 r k)
  refine congrArg (V c main_v30) (funext fun a => Fin.ext ?_)
  match a with
  | ⟨0, _⟩ => show win2_0.index t (0 : Fin 2) * 128 + 1 * p.val = r.val; rw [e0, hr]; omega
  | ⟨1, _⟩ => show win2_0.index t (1 : Fin 2) * 16 + 1 * k.val = k.val; rw [e1]; omega

/-- Window 1's block at every point is the whole of Z. -/
theorem whole_apply (c : Dev nD) (t : Fin cfg2.N) (q : Fin 8192) (k : Fin 16) :
    (blk V c 1 t : Vec Ideal S8192x16 .f32) (ValueIdx.ix2 q k) = (V c main_v30 : FVec Ideal S8192x16 .f32) (ValueIdx.ix2 q k) := by
  obtain ⟨-, -, e2, e3, -, -⟩ := idx_facts t
  unfold blk
  rw [View.read_apply]
  show V c main_v30 (((cfg2.win 1).blk t).view.emb (ValueIdx.ix2 q k)) = V c main_v30 (ValueIdx.ix2 q k)
  refine congrArg (V c main_v30) (funext fun a => Fin.ext ?_)
  match a with
  | ⟨0, _⟩ => show win2_1.index t (0 : Fin 2) * 8192 + 1 * q.val = q.val; rw [e2]; omega
  | ⟨1, _⟩ => show win2_1.index t (1 : Fin 2) * 16 + 1 * k.val = k.val; rw [e3]; omega

/-- What point t writes back is block t of the reference's array. -/
theorem flushed_eq (c : Dev nD) (t : Fin cfg2.N) :
    (dat (F := Ideal) V c).flushed 2 t = ((cfg2.win 2).blk t).view.read (Elt Ideal) (sigGram (V c main_v30)) := by
  show (cfg2.win 2).cut (grid2.coords t) ((dat (F := Ideal) V c).after 2 t) = _
  rw [after_out]
  unfold outBlock
  rw [View.canon_unit_zero hz]
  simp only [View.ld_unit_zero (S := S128x16) hz, View.ld_unit_zero (S := S8192x16) hz]
  obtain ⟨e0, e1, e2, e3, e4, e5⟩ := idx_facts t
  have ht : t.val < 64 := Nat.lt_of_lt_of_eq t.isLt N_2
  funext y
  have hy0 : (y 0).val < 128 := (y 0).isLt
  have hy1 : (y 1).val < 8192 := (y 1).isLt
  have hL : (cfg2.win 2).xinj (grid2.coords t) y = ValueIdx.ix2 (⟨(y 0).val, hy0⟩ : Fin 128) (⟨(y 1).val, hy1⟩ : Fin 8192) :=
    funext fun a => Fin.ext (by match a with | ⟨0, _⟩ => rfl | ⟨1, _⟩ => rfl)
  have hR : ((cfg2.win 2).blk t).view.emb y = ValueIdx.ix2 (⟨t.val * 128 + (y 0).val, by omega⟩ : Fin 8192) (⟨(y 1).val, hy1⟩ : Fin 8192) :=
    funext fun a => Fin.ext (by
      match a with
      | ⟨0, _⟩ => show win2_2.index t (0 : Fin 2) * 128 + 1 * (y 0).val = t.val * 128 + (y 0).val; rw [e4]; omega
      | ⟨1, _⟩ => show win2_2.index t (1 : Fin 2) * 8192 + 1 * (y 1).val = (y 1).val; rw [e5]; omega)
  rw [View.read_apply]
  show k2_pay1 (blk V c 0 t) (blk V c 1 t) ((cfg2.win 2).xinj (grid2.coords t) y) = sigGram (V c main_v30) (((cfg2.win 2).blk t).view.emb y)
  rw [hL, hR]
  refine block_entry (V c main_v30) (blk V c 0 t) (blk V c 1 t) _ _ _ ?_ ?_
  · intro k
    exact rows_apply V c t _ k _ rfl
  · intro k
    exact whole_apply V c t _ k

/-- An index of the array is in point t's block iff each coordinate is in the block's range on its axis. -/
theorem mem_blk (t : Fin cfg2.N) (i : S8192x8192.Idx) :
    i ∈ ((cfg2.win 2).blk t).view.set ↔ ∀ a : Fin 2, win2_2.index t a * S128x8192.size a ≤ (i a).val ∧ (i a).val < win2_2.index t a * S128x8192.size a + S128x8192.size a := by
  show i ∈ ((View.whole main_v31).slice (win2_2.rect t)).set ↔ _
  rw [View.set_slice_whole, Rect.mem_set_unit]
  exact Iff.rfl

/-- Row r of the array is in the block of point r / 128. -/
theorem cover (i : S8192x8192.Idx) : ∃ t : Fin cfg2.N, (cfg2.win 2).flush t = true ∧ i ∈ ((cfg2.win 2).blk t).view.set := by
  have hi0 : (i 0).val < 8192 := (i 0).isLt
  have hi1 : (i 1).val < 8192 := (i 1).isLt
  have hN : cfg2.N = 64 := N_2
  obtain ⟨t, htv⟩ : ∃ t : Fin cfg2.N, t.val = (i 0).val / 128 := ⟨⟨(i 0).val / 128, by rw [hN]; omega⟩, rfl⟩
  obtain ⟨_, _, _, _, e4, e5⟩ := idx_facts t
  refine ⟨t, flush2_2 t, ?_⟩
  rw [mem_blk]
  intro a
  match a with
  | ⟨0, _⟩ => show win2_2.index t (0 : Fin 2) * 128 ≤ (i 0).val ∧ (i 0).val < win2_2.index t (0 : Fin 2) * 128 + 128; rw [e4, htv]; omega
  | ⟨1, _⟩ => show win2_2.index t (1 : Fin 2) * 8192 ≤ (i 1).val ∧ (i 1).val < win2_2.index t (1 : Fin 2) * 8192 + 8192; rw [e5]; omega

/-- The sixty-four blocks tile the array, and each is its block of the host's array: the array after the region is the host's. -/
theorem out_array (c : Dev nD) :
    (dat (F := Ideal) V c).arrAt 2 cfg2.N = (Host.divf (F := Ideal) (broadcastInDim S8192x8192 ![] Cert.ReferenceIdeal.Facts₀.bcast_S_S8192x8192 (constant (F := Ideal) Cert.ReferenceIdeal.S_ .f32 0x3F800000#32)) (addf (broadcastInDim S8192x8192 ![] Cert.ReferenceIdeal.Facts₀.bcast_S_S8192x8192 (constant (F := Ideal) Cert.ReferenceIdeal.S_ .f32 0x3F800000#32)) (Host.exp (Host.negf (Host.dotGeneral (F := Ideal) (φ₁ := .f32) (φ₂ := .f32) Cert.ReferenceIdeal.dot_S8192x16_S16x8192_S8192x8192_1_0_0_1_n_n none (V c main_v30) (transpose (α := Ideal .f32) Cert.ReferenceIdeal.S16x8192 [1, 0] (V c main_v30) Cert.ReferenceIdeal.Facts₀.transposes_S8192x16_S16x8192_1_0))))) : FVec Ideal S8192x8192 .f32) :=
  (dat (F := Ideal) V c).arrAt_eq_of_cover 2 (sigGram (V c main_v30)) (fun t _ => flushed_eq V c t) cover

end Cert.KernelIdeal.Decode

end
-- ==== Proof.KiBridge.lean ====
/-
  The kernel program computes the reference's function.  Its three regions leave, in their output arrays, the
  first projection, the second projection and the decoder's logistic Gram matrix of the arrays they are
  entered with, as the reference's host operations compute them; its host stretches between the regions are the
  reference's aggregations.  Composed: the result array after the run is the reference's result function of
  the launch contents of the arguments.
-/
import proofs.«160601_j31671088840936_1_alg».proof.Proof.KiChain
import proofs.«160601_j31671088840936_1_alg».proof.Proof.KiProjValue
import proofs.«160601_j31671088840936_1_alg».proof.Proof.KiMeanValue
import proofs.«160601_j31671088840936_1_alg».proof.Proof.KiDecodeValue

set_option maxRecDepth 16384

noncomputable section

namespace Cert.KernelIdeal.Bridge

open Idealize.ShloMosaic Idealize.ShloMosaic.TcCoe
open Idealize.SL Idealize.SL.Sem
open Cert.KernelIdeal Cert.KernelIdeal.Gen

variable (m : (ℓ : Loc nD τ sig) → Buf (Elt Ideal) ℓ)

/-- The first region leaves X · W0. -/
theorem proj0_at (c : Dev nD) :
    Run.W1 m c (Proc.devRef .tc main_v0)
      = Cert.ReferenceIdeal.Spec.proj0 (F := Ideal) (m ((c : Thread nD τ).loc main_arg0)) (m ((c : Thread nD τ).loc main_arg4)) :=
  (Run.W1_arr m c 2).trans (Proj.out_array (Run.U0 m) c)

/-- The second region leaves hidden · W1, the hidden layer being what it is entered with. -/
theorem proj1_at (c : Dev nD) :
    Run.W4 m c (Proc.devRef .tc main_v15)
      = Cert.ReferenceIdeal.Spec.proj1 (F := Ideal) (Run.W3 m c (Proc.devRef .tc main_v14)) (m ((c : Thread nD τ).loc main_arg5)) :=
  (Run.W4_arr m c 2).trans ((Mean.out_array (Run.U3 m) c).trans
    (congrArg (Cert.ReferenceIdeal.Spec.proj1 (F := Ideal) (Run.W3 m c (Proc.devRef .tc main_v14))) (Chain.W3_arg5 m c)))

/-- The result array after the run is the reference's function of the launch contents. -/
theorem kernel_result (c : Dev nD) :
    (Decode.dat (F := Ideal) (Run.U5 m) c).arrAt 2 cfg2.N
      = Cert.ReferenceIdeal.Spec.resultOf (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) := by
  refine (Decode.out_array (Run.U5 m) c).trans ?_
  show Cert.ReferenceIdeal.Spec.decodeOf (F := Ideal) (Run.W5 m c (Proc.devRef .tc main_v30)) = _
  unfold Cert.ReferenceIdeal.Spec.resultOf
  rw [Chain.latent_at, proj1_at, Chain.hidden_at, proj0_at]

end Cert.KernelIdeal.Bridge

end
-- ==== Proof.lean ====
/-
  The certificate.  The kernel program is three pipelined regions — X · W0, hidden · W1 and the decoder
  sigmoid (Z · Zᵀ), each blocked by rows with its contraction axis whole — with the two sparse aggregations, the
  rectifier and the lower clamp as host operations between them; the reference is the same computation as host
  operations only, its matrix products whole and its logistic function spelt out.
  Frames: each kernel program's run is followed buffer by buffer from the launch to the return (a region
  changes only its output array); the reference's is its generated run.  The idealization rewrote nothing.
  Equality at the ideal instance: a row block of a product is the rows of the whole product (the contraction is
  never split, so no sum is regrouped), a change of float format is the identity, the logistic function is
  1 / (1 + exp (−x)) on the extended reals, and contracting Z's second axis with Z's second axis is the
  product with the transpose; the host operations between the regions are the reference's own.  No law used
  needs the inputs finite.
-/
import proofs.«160601_j31671088840936_1_alg».proof.Defs
import proofs.«160601_j31671088840936_1_alg».proof.Proof.Gen.Kernel
import proofs.«160601_j31671088840936_1_alg».proof.Proof.Gen.KernelIdeal
import proofs.«160601_j31671088840936_1_alg».proof.Proof.Gen.ReferenceIdeal
import proofs.«160601_j31671088840936_1_alg».proof.Proof.Gen.Pre_finite_inputs
import proofs.«160601_j31671088840936_1_alg».proof.Proof.Gen.ReferenceIdeal.Run
import proofs.«160601_j31671088840936_1_alg».proof.Proof.KbRun
import proofs.«160601_j31671088840936_1_alg».proof.Proof.KiRun
import proofs.«160601_j31671088840936_1_alg».proof.Proof.KiBridge
import proofs.«160601_j31671088840936_1_alg».proof.Proof.RefSpec
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Run.frame m ρ

theorem frame_kernelIdeal : Cert.frame_KernelIdeal := fun m ρ _ => Cert.KernelIdeal.Run.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result array at the reference's function of the arguments' launch contents. -/
theorem algebraic : Cert.algebraic_KernelIdeal_ReferenceIdeal := by
  intro m ρ m' ρ' _ hagree
  refine ⟨fun c => Cert.ReferenceIdeal.Spec.resultOf (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Bridge.kernel_result m c), (h c).2⟩)
      (Cert.KernelIdeal.Run.run_result m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Spec.res_eq, (hagree c).1, (hagree c).2.1, (hagree c).2.2.1, (hagree c).2.2.2.1,
      (hagree c).2.2.2.2.1, (hagree c).2.2.2.2.2.1]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
